-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S4x4096x2 : Shape := ⟨3, ![4, 4096, 2]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S4x4096x2 : S_.BroadcastsInDim S4x4096x2 (![] : Fin 0 → Fin S4x4096x2.rank)
  reducesTo_S4x4096x2_S_d0_1_2 : S4x4096x2.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_cst_8 : FVec F S_ .f32 := constant S_ .f32 0x00000000#32
  let main_v24 : FVec F S1 .f32 := broadcastInDim S1 ![] bcast_S_S1 main_cst_8
  let main_v25 : IVec S1 1 := cmpf .une main_arg4 main_v24
  let main_c_9 : IVec S_ 1 := constantI S_ 1 1#1
  let main_v26 : IVec S_ 1 := (fun x v => Host.reduce IntOp.andi x v reducesTo_S1_S_d0 h_S_) main_v25 main_c_9
  let main_v27 : IVec S_ 1 := andi main_v23 main_v26
  main_v27

def fn {F : FTy → Type} [FloatOps F] (main_arg0 : FVec F S4x4096x128 .f32) (main_arg1 : FVec F S4x4096x2 .f32) (main_arg2 : FVec F S128x128 .f32) (main_arg3 : FVec F S128 .f32) (main_arg4 : FVec F S1 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x2 .f32 := Host.absf main_arg1
  let main_cst_0 : FVec F S_ .f32 := constant S_ .f32 0x7F800000#32
  let main_v5 : FVec F S4x4096x2 .f32 := broadcastInDim S4x4096x2 ![] bcast_S_S4x4096x2 main_cst_0
  let main_v6 : IVec S4x4096x2 1 := cmpf .olt main_v4 main_v5
  let main_c_1 : IVec S_ 1 := constantI S_ 1 1#1
  let main_v7 : IVec S_ 1 := (fun x v => Host.reduce IntOp.andi x v reducesTo_S4x4096x2_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S4x4096x128 : Shape := ⟨3, ![4, 4096, 128]⟩
abbrev S4x4096x2 : Shape := ⟨3, ![4, 4096, 2]⟩
abbrev S128x128 : Shape := ⟨2, ![128, 128]⟩
abbrev S128 : Shape := ⟨1, ![128]⟩
abbrev S1 : Shape := ⟨1, ![1]⟩
abbrev S1x128 : Shape := ⟨2, ![1, 128]⟩
abbrev S_ : Shape := ⟨0, ![]⟩
abbrev S4x4096x1 : Shape := ⟨3, ![4, 4096, 1]⟩
abbrev S4x4096 : Shape := ⟨2, ![4, 4096]⟩
abbrev S4x4096x3 : Shape := ⟨3, ![4, 4096, 3]⟩
abbrev S4x3x4096 : Shape := ⟨3, ![4, 3, 4096]⟩
abbrev S1x1024x3 : Shape := ⟨3, ![1, 1024, 3]⟩
abbrev S1x3x1024 : Shape := ⟨3, ![1, 3, 1024]⟩
abbrev S1x1024x128 : Shape := ⟨3, ![1, 1024, 128]⟩
abbrev S1024x128 : Shape := ⟨2, ![1024, 128]⟩
abbrev S1024x1 : Shape := ⟨2, ![1024, 1]⟩
abbrev S1024x3 : Shape := ⟨2, ![1024, 3]⟩
abbrev S3x1024 : Shape := ⟨2, ![3, 1024]⟩
abbrev S1024x1024 : Shape := ⟨2, ![1024, 1024]⟩
abbrev S1024 : Shape := ⟨1, ![1024]⟩

abbrev nBuf : Space → Nat
  | .hbm => 39
  | .vmem => 12
  | .smem => 0
  | _ => 0

abbrev bufTy : (tb : Table) → Fin (tcTables nBuf tb) → BufTy
  | .hbm, ⟨0, _⟩ => ⟨S4x4096x128, .f32⟩
  | .hbm, ⟨1, _⟩ => ⟨S4x4096x2, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S128x128, .f32⟩
  | .hbm, ⟨6, _⟩ => ⟨S1x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x4096x1, .f32⟩
  | .hbm, ⟨14, _⟩ => ⟨S4x4096, .f32⟩
  | .hbm, ⟨15, _⟩ => ⟨S4x4096x1, .f32⟩
  | .hbm, ⟨16, _⟩ => ⟨S4x4096, .f32⟩
  | .hbm, ⟨17, _⟩ => ⟨S4x4096, .f32⟩
  | .hbm, ⟨18, _⟩ => ⟨S4x4096, .f32⟩
  | .hbm, ⟨19, _⟩ => ⟨S4x4096, .f32⟩
  | .hbm, ⟨20, _⟩ => ⟨S4x4096, .f32⟩
  | .hbm, ⟨21, _⟩ => ⟨S4x4096, .f32⟩
  | .hbm, ⟨22, _⟩ => ⟨S4x4096, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x3, .f32⟩
  | .hbm, ⟨30, _⟩ => ⟨S4x4096, .f32⟩
  | .hbm, ⟨31, _⟩ => ⟨S4x4096, .f32⟩
  | .hbm, ⟨32, _⟩ => ⟨S4x4096x1, .f32⟩
  | .hbm, ⟨33, _⟩ => ⟨S4x4096x1, .f32⟩
  | .hbm, ⟨34, _⟩ => ⟨S4x4096x1, .f32⟩
  | .hbm, ⟨35, _⟩ => ⟨S4x4096x3, .f32⟩
  | .hbm, ⟨36, _⟩ => ⟨S4x3x4096, .f32⟩
  | .hbm, ⟨37, _⟩ => ⟨S4x4096x128, .bf16⟩
  | .hbm, ⟨38, _⟩ => ⟨S4x4096x128, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x128, .bf16⟩
  | .local _ .vmem, ⟨5, _⟩ => ⟨S1x1024x128, .bf16⟩
  | .local _ .vmem, ⟨6, _⟩ => ⟨S128x128, .f32⟩
  | .local _ .vmem, ⟨7, _⟩ => ⟨S1x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x128, .f32⟩
  | .local _ .vmem, ⟨11, _⟩ => ⟨S1024x1, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_19 : BitVec 32 := 0#32
  let v28 : BitVec 1 := Scalar.cmpi .ne v27 c0_i32_19
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  transposes_S128x128_S128x128_1_0 : S128x128.Transposes [1, 0] S128x128
  shapeCasts_S128_S1x128 : S128.ShapeCasts S1x128
  shapeCasts_S1_S_ : S1.ShapeCasts S_
  slices_S4x4096x2_S4x4096x1_0_0_0 : S4x4096x2.Slices ![0, 0, 0] S4x4096x1
  shapeCasts_S4x4096x1_S4x4096 : S4x4096x1.ShapeCasts S4x4096
  slices_S4x4096x2_S4x4096x1_0_0_1 : S4x4096x2.Slices ![0, 0, 1] S4x4096x1
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  concatenates_S4x4096x1_S4x4096x1_S4x4096x1_S4x4096x3_d2 : Shape.Concatenates [S4x4096x1, S4x4096x1, S4x4096x1] S4x4096x3 2
  transposes_S4x4096x3_S4x3x4096_0_2_1 : S4x4096x3.Transposes [0, 2, 1] S4x3x4096
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S1024x1024_S1024 : S1024x1024.Reduces [1] S1024
  shapeCasts_S1024_S1024x1 : S1024.ShapeCasts S1024x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S1024x128_S1x1024x128 : S1024x128.ShapeCasts S1x1024x128
  dot_S1024x3_S3x1024_S1024x1024_1_0_0_1_n_n_wf : DotDims.WF S1024x3 S3x1024 S1024x1024 [1] [0] [0] [1] [] []
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x4096x3.size a
  hwx0_0 : ∀ i : grid0.Coords, EltTy.bits .f32 = 32 ∨ (Rect.block (s := S4x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S4x3x4096.size a
  hwx0_1 : ∀ i : grid0.Coords, EltTy.bits .f32 = 32 ∨ (Rect.block (s := S4x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S4x4096x128.size a
  hwx0_2 : ∀ i : grid0.Coords, EltTy.bits .bf16 = 32 ∨ (Rect.block (s := S4x4096x128) S1x1024x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S4x4096x128.size a
  hwx0_5 : ∀ i : grid0.Coords, EltTy.bits .f32 = 32 ∨ (Rect.block (s := S4x4096x128) S1x1024x128.size (cc0_transform_5 i) (hinb0_5 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v21) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x128 : Shape := ⟨3, ![4, 4096, 128]⟩
abbrev S4x4096x2 : Shape := ⟨3, ![4, 4096, 2]⟩
abbrev S128x128 : Shape := ⟨2, ![128, 128]⟩
abbrev S128 : Shape := ⟨1, ![128]⟩
abbrev S1 : Shape := ⟨1, ![1]⟩
abbrev S1x1x128 : Shape := ⟨3, ![1, 1, 128]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x2, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S4x4096x128, .f32⟩
  | .hbm, ⟨6, _⟩ => ⟨S1x1x128, .f32⟩
  | .hbm, ⟨7, _⟩ => ⟨S4x4096x128, .f32⟩
  | .hbm, ⟨8, _⟩ => ⟨S4x4096x128, .f32⟩
  | .hbm, ⟨9, _⟩ => ⟨S4x4096x2, .f32⟩
  | .hbm, ⟨10, _⟩ => ⟨S_, .f32⟩
  | .hbm, ⟨11, _⟩ => ⟨S4x4096, .f32⟩
  | .hbm, ⟨12, _⟩ => ⟨S4x4096x4096, .f32⟩
  | .hbm, ⟨13, _⟩ => ⟨S4x4096x1, .f32⟩
  | .hbm, ⟨14, _⟩ => ⟨S4x1x4096, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x4096, .f32⟩
  | .hbm, ⟨40, _⟩ => ⟨S4x4096x4096, .f32⟩
  | .hbm, ⟨41, _⟩ => ⟨S4x4096x128, .f32⟩
  | .hbm, ⟨42, _⟩ => ⟨S_, .f32⟩
  | .hbm, ⟨43, _⟩ => ⟨S_, .f32⟩
  | .hbm, ⟨44, _⟩ => ⟨S4x4096x128, .f32⟩
  | .hbm, ⟨45, _⟩ => ⟨S4x4096x128, .i1⟩
  | .hbm, ⟨46, _⟩ => ⟨S_, .f32⟩
  | .hbm, ⟨47, _⟩ => ⟨S4x4096x128, .f32⟩
  | .hbm, ⟨48, _⟩ => ⟨S4x4096x128, .f32⟩
  | .hbm, ⟨49, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  reducesTo_S4x4096x2_S4x4096_d2 : S4x4096x2.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  shapeCasts_S1_S_ : S1.ShapeCasts S_
  reducesTo_S4x4096x4096_S4x4096_d2 : S4x4096x4096.ReducesTo [2] S4x4096
  bcast_S_S4x4096x1 : S_.BroadcastsInDim S4x4096x1 (![] : Fin 0 → Fin S4x4096x1.rank)
  bcast_S_S4x4096x128 : S_.BroadcastsInDim S4x4096x128 (![] : Fin 0 → Fin S4x4096x128.rank)
  dot_S4x4096x128_S128x128_S4x4096x128_2_1_01_0_n_n_wf : DotDims.WF S4x4096x128 S128x128 S4x4096x128 [2] [1] [0, 1] [0] [] []
  dot_S4x4096x2_S4x4096x2_S4x4096x4096_2_2_1_1_0_0_wf : DotDims.WF S4x4096x2 S4x4096x2 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S128x128_S4x4096x128_2_1_01_0_n_n : DotDims S4x4096x128 S128x128 S4x4096x128 where
  lhsContracting := [2]
  rhsContracting := [1]
  lhsNonContracting := [0, 1]
  rhsNonContracting := [0]
  lhsBatch := []
  rhsBatch := []
  wf := dot_S4x4096x128_S128x128_S4x4096x128_2_1_01_0_n_n_wf
def dot_S4x4096x2_S4x4096x2_S4x4096x4096_2_2_1_1_0_0 : DotDims S4x4096x2 S4x4096x2 S4x4096x4096 where
  lhsContracting := [2]
  rhsContracting := [2]
  lhsNonContracting := [1]
  rhsNonContracting := [1]
  lhsBatch := [0]
  rhsBatch := [0]
  wf := dot_S4x4096x2_S4x4096x2_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.KShared.lean ====
/-
  The launch side of `Kernel`'s frame, shared by the runs of the body's three control cases: what the
  region finds in every buffer after the host operations before it, each window's block at a grid point, the
  frame claim's post from a frame run, the two branch conditions in closed form over the 4 × 4 × 4 grid (the
  innermost coordinate `k` walks the four key tiles: the accumulators are reset at `k = 0` and the result is
  written at `k = 3`), where the output window is idle, and the staging and scratch memrefs the body is called on.
-/
import proofs.«420210_j26852135535196_3_alg».proof.Proof.Gen.Kernel.Launch
import proofs.«420210_j26852135535196_3_alg».proof.Proof.Gen.Kernel.Skeleton
import proofs.«420210_j26852135535196_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the 33 host operations before it. -/
abbrev V (c : Dev nD) (b : Ref sig .tc) : Buf (Elt F) ((c : Thread nD τ).loc b) :=
  StableHlo.after hostOps0 (fun b => m (c, b)) b

/-- None of them allocates. -/
theorem hostOps0_fresh : (hostOps0 : List (HloOp τ sig (Elt F))).Forall fun op => op.fresh = ∅ := by
  simp only [List.Forall]; repeat' constructor

/-- @main is those operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An operation of several operands (a concatenate) writes its result buffer only. -/
theorem nary_writes {n : Nat} (xs : Fin n → Ref sig .tc) (y : Ref sig .tc)
    (f : ((k : Fin n) → (xs k).ty.Contents (Elt F)) → y.ty.Contents (Elt F)) (hxs hy) :
    (StableHlo.nary (τ := τ) xs y f hxs hy).writes = {Proc.devRef .tc y} := rfl

/-- No host operation before the region writes an argument: the region finds each as launched. -/
theorem V_arg (c : Dev nD) (a : Ref sig .tc)
    (ha : a = main_arg0 ∨ a = main_arg1 ∨ a = main_arg2 ∨ a = main_arg3 ∨ a = main_arg4) :
    V m c a = m ((c : Thread nD τ).loc a) :=
  StableHlo.after_of_forall_not_mem (b := Proc.devRef .tc a) _ _ (List.forall_iff_forall_mem.mp (by
    simp only [hostOps0, List.Forall, StableHlo.nullary_writes, StableHlo.unary_writes, StableHlo.binary_writes,
      StableHlo.reshape_writes, nary_writes, Finset.mem_singleton]
    rcases ha with rfl | rfl | rfl | rfl | rfl
    all_goals (repeat' apply And.intro) <;> exact StableHlo.devRef_ne_of_ne (by decide)))

theorem V_main_arg0 (c : Dev nD) : V m c main_arg0 = m ((c : Thread nD τ).loc main_arg0) := V_arg m c _ (.inl rfl)
theorem V_main_arg1 (c : Dev nD) : V m c main_arg1 = m ((c : Thread nD τ).loc main_arg1) := V_arg m c _ (.inr (.inl rfl))
theorem V_main_arg2 (c : Dev nD) : V m c main_arg2 = m ((c : Thread nD τ).loc main_arg2) := V_arg m c _ (.inr (.inr (.inl rfl)))
theorem V_main_arg3 (c : Dev nD) : V m c main_arg3 = m ((c : Thread nD τ).loc main_arg3) := V_arg m c _ (.inr (.inr (.inr (.inl rfl))))
theorem V_main_arg4 (c : Dev nD) : V m c main_arg4 = m ((c : Thread nD τ).loc main_arg4) := V_arg m c _ (.inr (.inr (.inr (.inr rfl))))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place: one statement per
    input window (the five are uncut and never idle). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: no window stages an argument array, so each is among the buffers the region
    bypasses, which end as the region found them — as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c)⟩) h

/-! ## The body's branch conditions -/

/-- The first `scf.if`: the key-tile coordinate is zero (the accumulators are reset). -/
abbrev cond0_0 (i : grid0.Coords) : Prop := (Scalar.cmpi .ne (Scalar.extui (Scalar.cmpi .eq (BitVec.ofNat 32 (i 2).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second `scf.if`: the key-tile coordinate is the last (the result is written). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The five input windows are never idle. -/
theorem liveAt_in : ∀ (w : Fin cfg0.W), (w = 0 ∨ w = 1 ∨ w = 2 ∨ w = 3 ∨ w = 4) → ∀ t : Fin cfg0.N, cfg0.idle w (grid0.coords t) = false := by
  intro w hw t; rcases hw with rfl | rfl | rfl | rfl | rfl <;> rfl
/-- Away from the last key tile the output window is idle: nothing is stored into it … -/
theorem idleAt0_5 : ∀ t : Fin cfg0.N, ¬cond0_1 (grid0.coords t) → cfg0.idle 5 (grid0.coords t) = true := by decide +kernel
/-- … and it is not written back. -/
theorem noFlush0_5 : ∀ t : Fin cfg0.N, ¬cond0_1 (grid0.coords t) → (cfg0.win 5).flush t = false := by decide +kernel
/-- At the last key tile it is live. -/
theorem liveAt0_5 : ∀ t : Fin cfg0.N, cond0_1 (grid0.coords t) → cfg0.idle 5 (grid0.coords t) = false := by decide +kernel

/-! ## The memrefs the body is called on -/

/-- One staging buffer of the output window, through which its contents are stated. -/
abbrev VO0_5 : View sig .tc .vmem S1x1024x128 .f32 := (Memref.whole cc0_stg5_0 : Memref sig .tc .vmem S1x1024x128 .f32).view
abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x128 .f32 := win0_5.stage (cfg0.slots t 5)
abbrev hs0_5 (t : Fin cfg0.N) : (ms0_5 t).IsWhole := hstage0_5 ((cfg0.slots t 5).cast nbuf0_5)
/-- The two scratch operands: the weighted-sum accumulator and the row-sum accumulator. -/
abbrev scM0_0 : Memref sig .tc .vmem S1024x128 .f32 := Memref.whole cc0_scratch0
abbrev scM0_1 : Memref sig .tc .vmem S1024x1 .f32 := Memref.whole cc0_scratch1
abbrev VS0_0 : View sig .tc .vmem S1024x128 .f32 := scM0_0.view
abbrev VS0_1 : View sig .tc .vmem S1024x1 .f32 := scM0_1.view

/-- The class's invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.KRunA.lean ====
/-
  The body at the FIRST key tile (`k = 0`): both accumulators are reset to zero and then take this tile's
  contribution; nothing is stored into the output window, whose buffer is handed back untouched.  The pieces each
  accumulator ends with are found by running the body.
-/
import proofs.«420210_j26852135535196_3_alg».proof.Proof.KShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the five inputs at their blocks, the idle output at any contents handed back untouched, the
    two accumulators at anything — the body runs to the continuation holding the inputs as they were and each
    accumulator with its pieces written. -/
noncomputable def kernelRun0_A (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) :
    Σ' (L5 : List (View.Piece (Elt F) S1x1024x128 .f32)) (LS0 : List (View.Piece (Elt F) S1024x128 .f32)), { LS1 : List (View.Piece (Elt F) S1024x1 .f32) //
      ∀ (xi5 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_kernel i arg3 harg3 arg4 harg4 arg5 harg5 arg6 harg6 arg7 harg7 arg8 harg8 arg9 harg9 arg10 harg10) K } := by
  refine ⟨[], ?_, ?_, fun xi5 E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.Kernel.Fr

end
-- ==== Proof.KRunB.lean ====
/-
  The body at a MIDDLE key tile (`k = 1, 2`): both accumulators, at what the tile before left in them, take this
  tile's contribution; nothing is stored into the output window.
-/
import proofs.«420210_j26852135535196_3_alg».proof.Proof.KRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- As at the first tile, the two accumulators now handed over at named contents `xs0`, `xs1`. -/
noncomputable def kernelRun0_B (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) :
    Σ' (L5 : List (View.Piece (Elt F) S1x1024x128 .f32)) (LS0 : List (View.Piece (Elt F) S1024x128 .f32)), { LS1 : List (View.Piece (Elt F) S1024x1 .f32) //
      ∀ (xi5 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_kernel i arg3 harg3 arg4 harg4 arg5 harg5 arg6 harg6 arg7 harg7 arg8 harg8 arg9 harg9 arg10 harg10) K } := by
  refine ⟨[], ?_, ?_, fun xi5 E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.Kernel.Fr

end
-- ==== Proof.KRunC.lean ====
/-
  The body at the LAST key tile (`k = 3`): both accumulators take this tile's contribution, and the result — the
  weighted sum over the floored row sum, projected, through the ramp — is stored over the whole output block.
-/
import proofs.«420210_j26852135535196_3_alg».proof.Proof.KRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The output's buffer is handed over at anything and returned with its pieces written. -/
noncomputable def kernelRun0_C (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) :
    Σ' (L5 : List (View.Piece (Elt F) S1x1024x128 .f32)) (LS0 : List (View.Piece (Elt F) S1024x128 .f32)), { LS1 : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_kernel i arg3 harg3 arg4 harg4 arg5 harg5 arg6 harg6 arg7 harg7 arg8 harg8 arg9 harg9 arg10 harg10) K } := by
  refine ⟨?_, ?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; iexact HS1

end Cert.Kernel.Fr

end
-- ==== Proof.KFrame.lean ====
/-
  `Kernel`'s frame: what the two accumulators and the output block hold after each grid point (by recursion
  on the point: the first key tile starts from zero, every later one from what the tile before left), the proof
  data of the one pipeline, the body obligation at a generic point by the case the point is in, the run, and the
  frame claim at any float instance.
-/
import proofs.«420210_j26852135535196_3_alg».proof.Proof.KRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output window's buffer is taken to hold at a point that stores nothing into it: nothing consults it
    (there the window is neither written back nor read at the next point). -/
def idleOut : Vec F S1x1024x128 .f32 := VO0_5.read (Elt F) (VO0_5.junk (Val := Elt F))

/-- Case A's pieces for the weighted-sum accumulator cover it. -/
theorem scover0_A_0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) (y : S1024x128.Idx) :
    ∃ pc ∈ (kernelRun0_A c i arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).2.1 S1024x128.size (by sl_kernel_rfl) y

/-- What case A leaves in the weighted-sum accumulator: its pieces read back. -/
def sout0_A_0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) : Vec F S1024x128 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4).2.1)

/-- Case A's pieces for the row-sum accumulator cover it. -/
theorem scover0_A_1 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) (y : S1024x1.Idx) :
    ∃ pc ∈ (kernelRun0_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).2.2.1 S1024x1.size (by sl_kernel_rfl) y

/-- What case A leaves in the row-sum accumulator: its pieces read back. -/
def sout0_A_1 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) : Vec F S1024x1 .f32 :=
  VS0_1.read (Elt F) (VS0_1.writes (Elt F) VS0_1.junk (kernelRun0_A c i arg3 harg3 arg4 harg4 arg5 harg5 arg6 harg6 arg7 harg7 arg8 harg8 arg9 harg9 arg10 harg10 hc0 hc1 x0 x1 x2 x3 x4).2.2.1)

/-- Case B's pieces for the weighted-sum accumulator cover it. -/
theorem scover0_B_0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) (y : S1024x128.Idx) :
    ∃ pc ∈ (kernelRun0_B c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).2.1 S1024x128.size (by sl_kernel_rfl) y

/-- What case B leaves in the weighted-sum accumulator: its pieces read back. -/
def sout0_B_0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) : Vec F S1024x128 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 xs0 xs1).2.1)

/-- Case B's pieces for the row-sum accumulator cover it. -/
theorem scover0_B_1 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) (y : S1024x1.Idx) :
    ∃ pc ∈ (kernelRun0_B c i arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).2.2.1 S1024x1.size (by sl_kernel_rfl) y

/-- What case B leaves in the row-sum accumulator: its pieces read back. -/
def sout0_B_1 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) : Vec F S1024x1 .f32 :=
  VS0_1.read (Elt F) (VS0_1.writes (Elt F) VS0_1.junk (kernelRun0_B c i arg3 harg3 arg4 harg4 arg5 harg5 arg6 harg6 arg7 harg7 arg8 harg8 arg9 harg9 arg10 harg10 hc0 hc1 x0 x1 x2 x3 x4 xs0 xs1).2.2.1)

/-- Case C's pieces for the weighted-sum accumulator cover it. -/
theorem scover0_C_0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) (y : S1024x128.Idx) :
    ∃ pc ∈ (kernelRun0_C c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).2.1 S1024x128.size (by sl_kernel_rfl) y

/-- What case C leaves in the weighted-sum accumulator: its pieces read back. -/
def sout0_C_0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) : Vec F S1024x128 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 x4 xs0 xs1).2.1)

/-- Case C's pieces for the row-sum accumulator cover it. -/
theorem scover0_C_1 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) (y : S1024x1.Idx) :
    ∃ pc ∈ (kernelRun0_C c i arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).2.2.1 S1024x1.size (by sl_kernel_rfl) y

/-- What case C leaves in the row-sum accumulator: its pieces read back. -/
def sout0_C_1 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) : Vec F S1024x1 .f32 :=
  VS0_1.read (Elt F) (VS0_1.writes (Elt F) VS0_1.junk (kernelRun0_C c i arg3 harg3 arg4 harg4 arg5 harg5 arg6 harg6 arg7 harg7 arg8 harg8 arg9 harg9 arg10 harg10 hc0 hc1 x0 x1 x2 x3 x4 xs0 xs1).2.2.1)

/-- Case C's pieces for the output block cover it. -/
theorem cover0_C_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) (y : S1x1024x128.Idx) :
    ∃ pc ∈ (kernelRun0_C c i arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).1 S1x1024x128.size (by sl_kernel_rfl) y

/-- What case C leaves in the output window's staging buffer: its pieces read back. -/
def out0_C_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) : Vec F S1x1024x128 .f32 :=
  VO0_5.read (Elt F) (VO0_5.writes (Elt F) VO0_5.junk (kernelRun0_C c i arg3 harg3 arg4 harg4 arg5 harg5 arg6 harg6 arg7 harg7 arg8 harg8 arg9 harg9 arg10 harg10 hc0 hc1 x0 x1 x2 x3 x4 xs0 xs1).1)

/-! ## What the buffers hold after each point -/

/-- The output block, the weighted-sum accumulator and the row-sum accumulator after the body at position `n`: the
    case the closed forms select at `n`, run at the point's memrefs and input blocks, the accumulators taken over
    from position `n - 1` except at a first key tile. -/
def outsAt0 (c : Dev nD) : (n : ℕ) → n < cfg0.N → Vec F S1x1024x128 .f32 × Vec F S1024x128 .f32 × Vec F S1024x1 .f32
  | 0, hn => (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      if h1 : (n + 1) % 4 = 3 then
        False.elim (by omega)
      else
        (idleOut, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)
      else
        (idleOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)

/-- `outsAt0` at a first key tile. -/
theorem outsAt0_A (c : Dev nD) (t : Fin cfg0.N) (h0 : t.val % 4 = 0) (h1 : ¬t.val % 4 = 3) :
    outsAt0 m c t.val t.isLt = (idleOut, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a middle key tile: over what the point before left. -/
theorem outsAt0_B (c : Dev nD) (t : Fin cfg0.N) (h0 : ¬t.val % 4 = 0) (h1 : ¬t.val % 4 = 3) :
    outsAt0 m c t.val t.isLt = (idleOut, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last key tile: over what the point before left. -/
theorem outsAt0_C (c : Dev nD) (t : Fin cfg0.N) (h0 : ¬t.val % 4 = 0) (h1 : t.val % 4 = 3) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the two accumulators at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them; after the body at point
    `t` each input's buffer at its block and the output's at `outsAt0`'s first component; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input window leaves its block in place. -/
theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t)
    ∧ (dats m 0 c).leavesExact 4 t = owns (c : Thread nD τ) (ms0_4 t) fullShare (iblk m c 4 t) := by
  refine ⟨?_, ?_, ?_, ?_, ?_⟩
  · unfold Dat.leavesExact; rw [liveAt_in 0 (.inl rfl) t, after0_0]
  · unfold Dat.leavesExact; rw [liveAt_in 1 (.inr (.inl rfl)) t, after0_1]
  · unfold Dat.leavesExact; rw [liveAt_in 2 (.inr (.inr (.inl rfl))) t, after0_2]
  · unfold Dat.leavesExact; rw [liveAt_in 3 (.inr (.inr (.inr (.inl rfl)))) t, after0_3]
  · unfold Dat.leavesExact; rw [liveAt_in 4 (.inr (.inr (.inr (.inr rfl)))) t, after0_4]

set_option maxHeartbeats 4800000 in
/-- The body at any point: the inputs' memrefs hold their blocks; the closed forms say which case the point is in;
    the invariant hands the body the two accumulators at what the point before left (at anything at the first point)
    and takes them back at this point's contents; away from the last key tile the output's buffer is handed back
    untouched, at the last key tile it is returned at the case's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [(leaves_in m c t).1, (leaves_in m c t).2.1, (leaves_in m c t).2.2.1, (leaves_in m c t).2.2.2.1, (leaves_in m c t).2.2.2.2]
  have hN : t.val < 64 := lt_of_lt_of_eq t.isLt (show cfg0.N = 64 from N_0)
  by_cases h0 : t.val % 4 = 0
  · by_cases h1 : t.val % 4 = 3
    · exfalso; omega
    · rw [Dat.leavesExact_idle (dats m 0 c) 5 t (idleAt0_5 t (fun h => h1 ((hcond0_1 t).mp h))) (noFlush0_5 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_5 sout0_C_0 sout0_C_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _)
    · rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- For any values, from any memory with zero counters: every weakly fair execution of @main terminates, and
    every final state has every array of the pipeline at what the library computes from the proof data and every
    other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any float instance: the program runs to the end, faults nowhere, and leaves its five
    argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Fr

end
-- ==== Proof.KiShared.lean ====
/-
  The launch side of `KernelIdeal`'s frame, shared by the runs of the body's three control cases: what the
  region finds in every buffer after the host operations before it, each window's block at a grid point, the
  frame claim's post from a frame run, the two branch conditions in closed form over the 4 × 4 × 4 grid (the
  innermost coordinate `k` walks the four key tiles: the accumulators are reset at `k = 0` and the result is
  written at `k = 3`), where the output window is idle, and the staging and scratch memrefs the body is called on.
-/
import proofs.«420210_j26852135535196_3_alg».proof.Proof.Gen.KernelIdeal.Launch
import proofs.«420210_j26852135535196_3_alg».proof.Proof.Gen.KernelIdeal.Skeleton
import proofs.«420210_j26852135535196_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the 33 host operations before it. -/
abbrev V (c : Dev nD) (b : Ref sig .tc) : Buf (Elt F) ((c : Thread nD τ).loc b) :=
  StableHlo.after hostOps0 (fun b => m (c, b)) b

/-- None of them allocates. -/
theorem hostOps0_fresh : (hostOps0 : List (HloOp τ sig (Elt F))).Forall fun op => op.fresh = ∅ := by
  simp only [List.Forall]; repeat' constructor

/-- @main is those operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An operation of several operands (a concatenate) writes its result buffer only. -/
theorem nary_writes {n : Nat} (xs : Fin n → Ref sig .tc) (y : Ref sig .tc)
    (f : ((k : Fin n) → (xs k).ty.Contents (Elt F)) → y.ty.Contents (Elt F)) (hxs hy) :
    (StableHlo.nary (τ := τ) xs y f hxs hy).writes = {Proc.devRef .tc y} := rfl

/-- No host operation before the region writes an argument: the region finds each as launched. -/
theorem V_arg (c : Dev nD) (a : Ref sig .tc)
    (ha : a = main_arg0 ∨ a = main_arg1 ∨ a = main_arg2 ∨ a = main_arg3 ∨ a = main_arg4) :
    V m c a = m ((c : Thread nD τ).loc a) :=
  StableHlo.after_of_forall_not_mem (b := Proc.devRef .tc a) _ _ (List.forall_iff_forall_mem.mp (by
    simp only [hostOps0, List.Forall, StableHlo.nullary_writes, StableHlo.unary_writes, StableHlo.binary_writes,
      StableHlo.reshape_writes, nary_writes, Finset.mem_singleton]
    rcases ha with rfl | rfl | rfl | rfl | rfl
    all_goals (repeat' apply And.intro) <;> exact StableHlo.devRef_ne_of_ne (by decide)))

theorem V_main_arg0 (c : Dev nD) : V m c main_arg0 = m ((c : Thread nD τ).loc main_arg0) := V_arg m c _ (.inl rfl)
theorem V_main_arg1 (c : Dev nD) : V m c main_arg1 = m ((c : Thread nD τ).loc main_arg1) := V_arg m c _ (.inr (.inl rfl))
theorem V_main_arg2 (c : Dev nD) : V m c main_arg2 = m ((c : Thread nD τ).loc main_arg2) := V_arg m c _ (.inr (.inr (.inl rfl)))
theorem V_main_arg3 (c : Dev nD) : V m c main_arg3 = m ((c : Thread nD τ).loc main_arg3) := V_arg m c _ (.inr (.inr (.inr (.inl rfl))))
theorem V_main_arg4 (c : Dev nD) : V m c main_arg4 = m ((c : Thread nD τ).loc main_arg4) := V_arg m c _ (.inr (.inr (.inr (.inr rfl))))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place: one statement per
    input window (the five are uncut and never idle). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: no window stages an argument array, so each is among the buffers the region
    bypasses, which end as the region found them — as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c)⟩) h

/-! ## The body's branch conditions -/

/-- The first `scf.if`: the key-tile coordinate is zero (the accumulators are reset). -/
abbrev cond0_0 (i : grid0.Coords) : Prop := (Scalar.cmpi .ne (Scalar.extui (Scalar.cmpi .eq (BitVec.ofNat 32 (i 2).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second `scf.if`: the key-tile coordinate is the last (the result is written). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The five input windows are never idle. -/
theorem liveAt_in : ∀ (w : Fin cfg0.W), (w = 0 ∨ w = 1 ∨ w = 2 ∨ w = 3 ∨ w = 4) → ∀ t : Fin cfg0.N, cfg0.idle w (grid0.coords t) = false := by
  intro w hw t; rcases hw with rfl | rfl | rfl | rfl | rfl <;> rfl
/-- Away from the last key tile the output window is idle: nothing is stored into it … -/
theorem idleAt0_5 : ∀ t : Fin cfg0.N, ¬cond0_1 (grid0.coords t) → cfg0.idle 5 (grid0.coords t) = true := by decide +kernel
/-- … and it is not written back. -/
theorem noFlush0_5 : ∀ t : Fin cfg0.N, ¬cond0_1 (grid0.coords t) → (cfg0.win 5).flush t = false := by decide +kernel
/-- At the last key tile it is live. -/
theorem liveAt0_5 : ∀ t : Fin cfg0.N, cond0_1 (grid0.coords t) → cfg0.idle 5 (grid0.coords t) = false := by decide +kernel

/-! ## The memrefs the body is called on -/

/-- One staging buffer of the output window, through which its contents are stated. -/
abbrev VO0_5 : View sig .tc .vmem S1x1024x128 .f32 := (Memref.whole cc0_stg5_0 : Memref sig .tc .vmem S1x1024x128 .f32).view
abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x128 .f32 := win0_5.stage (cfg0.slots t 5)
abbrev hs0_5 (t : Fin cfg0.N) : (ms0_5 t).IsWhole := hstage0_5 ((cfg0.slots t 5).cast nbuf0_5)
/-- The two scratch operands: the weighted-sum accumulator and the row-sum accumulator. -/
abbrev scM0_0 : Memref sig .tc .vmem S1024x128 .f32 := Memref.whole cc0_scratch0
abbrev scM0_1 : Memref sig .tc .vmem S1024x1 .f32 := Memref.whole cc0_scratch1
abbrev VS0_0 : View sig .tc .vmem S1024x128 .f32 := scM0_0.view
abbrev VS0_1 : View sig .tc .vmem S1024x1 .f32 := scM0_1.view

/-- The class's invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.KiRunA.lean ====
/-
  The body at the FIRST key tile (`k = 0`): both accumulators are reset to zero and then take this tile's
  contribution; nothing is stored into the output window, whose buffer is handed back untouched.  The pieces each
  accumulator ends with are found by running the body.
-/
import proofs.«420210_j26852135535196_3_alg».proof.Proof.KiShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the five inputs at their blocks, the idle output at any contents handed back untouched, the
    two accumulators at anything — the body runs to the continuation holding the inputs as they were and each
    accumulator with its pieces written. -/
noncomputable def kernelRun0_A (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) :
    Σ' (L5 : List (View.Piece (Elt F) S1x1024x128 .f32)) (LS0 : List (View.Piece (Elt F) S1024x128 .f32)), { LS1 : List (View.Piece (Elt F) S1024x1 .f32) //
      ∀ (xi5 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_kernel i arg3 harg3 arg4 harg4 arg5 harg5 arg6 harg6 arg7 harg7 arg8 harg8 arg9 harg9 arg10 harg10) K } := by
  refine ⟨[], ?_, ?_, fun xi5 E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.KernelIdeal.Fr

end
-- ==== Proof.KiRunB.lean ====
/-
  The body at a MIDDLE key tile (`k = 1, 2`): both accumulators, at what the tile before left in them, take this
  tile's contribution; nothing is stored into the output window.
-/
import proofs.«420210_j26852135535196_3_alg».proof.Proof.KiRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- As at the first tile, the two accumulators now handed over at named contents `xs0`, `xs1`. -/
noncomputable def kernelRun0_B (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) :
    Σ' (L5 : List (View.Piece (Elt F) S1x1024x128 .f32)) (LS0 : List (View.Piece (Elt F) S1024x128 .f32)), { LS1 : List (View.Piece (Elt F) S1024x1 .f32) //
      ∀ (xi5 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_kernel i arg3 harg3 arg4 harg4 arg5 harg5 arg6 harg6 arg7 harg7 arg8 harg8 arg9 harg9 arg10 harg10) K } := by
  refine ⟨[], ?_, ?_, fun xi5 E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.KernelIdeal.Fr

end
-- ==== Proof.KiRunC.lean ====
/-
  The body at the LAST key tile (`k = 3`): both accumulators take this tile's contribution, and the result — the
  weighted sum over the floored row sum, projected, through the ramp — is stored over the whole output block.
-/
import proofs.«420210_j26852135535196_3_alg».proof.Proof.KiRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The output's buffer is handed over at anything and returned with its pieces written. -/
noncomputable def kernelRun0_C (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) :
    Σ' (L5 : List (View.Piece (Elt F) S1x1024x128 .f32)) (LS0 : List (View.Piece (Elt F) S1024x128 .f32)), { LS1 : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_kernel i arg3 harg3 arg4 harg4 arg5 harg5 arg6 harg6 arg7 harg7 arg8 harg8 arg9 harg9 arg10 harg10) K } := by
  refine ⟨?_, ?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; iexact HS1

end Cert.KernelIdeal.Fr

end
-- ==== Proof.KiFrame.lean ====
/-
  `KernelIdeal`'s frame: what the two accumulators and the output block hold after each grid point (by recursion
  on the point: the first key tile starts from zero, every later one from what the tile before left), the proof
  data of the one pipeline, the body obligation at a generic point by the case the point is in, the run, and the
  frame claim at any float instance.
-/
import proofs.«420210_j26852135535196_3_alg».proof.Proof.KiRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output window's buffer is taken to hold at a point that stores nothing into it: nothing consults it
    (there the window is neither written back nor read at the next point). -/
def idleOut : Vec F S1x1024x128 .f32 := VO0_5.read (Elt F) (VO0_5.junk (Val := Elt F))

/-- Case A's pieces for the weighted-sum accumulator cover it. -/
theorem scover0_A_0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) (y : S1024x128.Idx) :
    ∃ pc ∈ (kernelRun0_A c i arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).2.1 S1024x128.size (by sl_kernel_rfl) y

/-- What case A leaves in the weighted-sum accumulator: its pieces read back. -/
def sout0_A_0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) : Vec F S1024x128 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4).2.1)

/-- Case A's pieces for the row-sum accumulator cover it. -/
theorem scover0_A_1 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) (y : S1024x1.Idx) :
    ∃ pc ∈ (kernelRun0_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).2.2.1 S1024x1.size (by sl_kernel_rfl) y

/-- What case A leaves in the row-sum accumulator: its pieces read back. -/
def sout0_A_1 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) : Vec F S1024x1 .f32 :=
  VS0_1.read (Elt F) (VS0_1.writes (Elt F) VS0_1.junk (kernelRun0_A c i arg3 harg3 arg4 harg4 arg5 harg5 arg6 harg6 arg7 harg7 arg8 harg8 arg9 harg9 arg10 harg10 hc0 hc1 x0 x1 x2 x3 x4).2.2.1)

/-- Case B's pieces for the weighted-sum accumulator cover it. -/
theorem scover0_B_0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) (y : S1024x128.Idx) :
    ∃ pc ∈ (kernelRun0_B c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).2.1 S1024x128.size (by sl_kernel_rfl) y

/-- What case B leaves in the weighted-sum accumulator: its pieces read back. -/
def sout0_B_0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) : Vec F S1024x128 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 xs0 xs1).2.1)

/-- Case B's pieces for the row-sum accumulator cover it. -/
theorem scover0_B_1 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) (y : S1024x1.Idx) :
    ∃ pc ∈ (kernelRun0_B c i arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).2.2.1 S1024x1.size (by sl_kernel_rfl) y

/-- What case B leaves in the row-sum accumulator: its pieces read back. -/
def sout0_B_1 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) : Vec F S1024x1 .f32 :=
  VS0_1.read (Elt F) (VS0_1.writes (Elt F) VS0_1.junk (kernelRun0_B c i arg3 harg3 arg4 harg4 arg5 harg5 arg6 harg6 arg7 harg7 arg8 harg8 arg9 harg9 arg10 harg10 hc0 hc1 x0 x1 x2 x3 x4 xs0 xs1).2.2.1)

/-- Case C's pieces for the weighted-sum accumulator cover it. -/
theorem scover0_C_0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) (y : S1024x128.Idx) :
    ∃ pc ∈ (kernelRun0_C c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).2.1 S1024x128.size (by sl_kernel_rfl) y

/-- What case C leaves in the weighted-sum accumulator: its pieces read back. -/
def sout0_C_0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) : Vec F S1024x128 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 x4 xs0 xs1).2.1)

/-- Case C's pieces for the row-sum accumulator cover it. -/
theorem scover0_C_1 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) (y : S1024x1.Idx) :
    ∃ pc ∈ (kernelRun0_C c i arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).2.2.1 S1024x1.size (by sl_kernel_rfl) y

/-- What case C leaves in the row-sum accumulator: its pieces read back. -/
def sout0_C_1 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) : Vec F S1024x1 .f32 :=
  VS0_1.read (Elt F) (VS0_1.writes (Elt F) VS0_1.junk (kernelRun0_C c i arg3 harg3 arg4 harg4 arg5 harg5 arg6 harg6 arg7 harg7 arg8 harg8 arg9 harg9 arg10 harg10 hc0 hc1 x0 x1 x2 x3 x4 xs0 xs1).2.2.1)

/-- Case C's pieces for the output block cover it. -/
theorem cover0_C_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) (y : S1x1024x128.Idx) :
    ∃ pc ∈ (kernelRun0_C c i arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).1 S1x1024x128.size (by sl_kernel_rfl) y

/-- What case C leaves in the output window's staging buffer: its pieces read back. -/
def out0_C_5 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) : Vec F S1x1024x128 .f32 :=
  VO0_5.read (Elt F) (VO0_5.writes (Elt F) VO0_5.junk (kernelRun0_C c i arg3 harg3 arg4 harg4 arg5 harg5 arg6 harg6 arg7 harg7 arg8 harg8 arg9 harg9 arg10 harg10 hc0 hc1 x0 x1 x2 x3 x4 xs0 xs1).1)

/-! ## What the buffers hold after each point -/

/-- The output block, the weighted-sum accumulator and the row-sum accumulator after the body at position `n`: the
    case the closed forms select at `n`, run at the point's memrefs and input blocks, the accumulators taken over
    from position `n - 1` except at a first key tile. -/
def outsAt0 (c : Dev nD) : (n : ℕ) → n < cfg0.N → Vec F S1x1024x128 .f32 × Vec F S1024x128 .f32 × Vec F S1024x1 .f32
  | 0, hn => (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      if h1 : (n + 1) % 4 = 3 then
        False.elim (by omega)
      else
        (idleOut, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)
      else
        (idleOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)

/-- `outsAt0` at a first key tile. -/
theorem outsAt0_A (c : Dev nD) (t : Fin cfg0.N) (h0 : t.val % 4 = 0) (h1 : ¬t.val % 4 = 3) :
    outsAt0 m c t.val t.isLt = (idleOut, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a middle key tile: over what the point before left. -/
theorem outsAt0_B (c : Dev nD) (t : Fin cfg0.N) (h0 : ¬t.val % 4 = 0) (h1 : ¬t.val % 4 = 3) :
    outsAt0 m c t.val t.isLt = (idleOut, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last key tile: over what the point before left. -/
theorem outsAt0_C (c : Dev nD) (t : Fin cfg0.N) (h0 : ¬t.val % 4 = 0) (h1 : t.val % 4 = 3) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the two accumulators at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them; after the body at point
    `t` each input's buffer at its block and the output's at `outsAt0`'s first component; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input window leaves its block in place. -/
theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t)
    ∧ (dats m 0 c).leavesExact 4 t = owns (c : Thread nD τ) (ms0_4 t) fullShare (iblk m c 4 t) := by
  refine ⟨?_, ?_, ?_, ?_, ?_⟩
  · unfold Dat.leavesExact; rw [liveAt_in 0 (.inl rfl) t, after0_0]
  · unfold Dat.leavesExact; rw [liveAt_in 1 (.inr (.inl rfl)) t, after0_1]
  · unfold Dat.leavesExact; rw [liveAt_in 2 (.inr (.inr (.inl rfl))) t, after0_2]
  · unfold Dat.leavesExact; rw [liveAt_in 3 (.inr (.inr (.inr (.inl rfl)))) t, after0_3]
  · unfold Dat.leavesExact; rw [liveAt_in 4 (.inr (.inr (.inr (.inr rfl)))) t, after0_4]

set_option maxHeartbeats 4800000 in
/-- The body at any point: the inputs' memrefs hold their blocks; the closed forms say which case the point is in;
    the invariant hands the body the two accumulators at what the point before left (at anything at the first point)
    and takes them back at this point's contents; away from the last key tile the output's buffer is handed back
    untouched, at the last key tile it is returned at the case's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [(leaves_in m c t).1, (leaves_in m c t).2.1, (leaves_in m c t).2.2.1, (leaves_in m c t).2.2.2.1, (leaves_in m c t).2.2.2.2]
  have hN : t.val < 64 := lt_of_lt_of_eq t.isLt (show cfg0.N = 64 from N_0)
  by_cases h0 : t.val % 4 = 0
  · by_cases h1 : t.val % 4 = 3
    · exfalso; omega
    · rw [Dat.leavesExact_idle (dats m 0 c) 5 t (idleAt0_5 t (fun h => h1 ((hcond0_1 t).mp h))) (noFlush0_5 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_5 sout0_C_0 sout0_C_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _)
    · rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- For any values, from any memory with zero counters: every weakly fair execution of @main terminates, and
    every final state has every array of the pipeline at what the library computes from the proof data and every
    other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any float instance: the program runs to the end, faults nowhere, and leaves its five
    argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Fr

end
-- ==== Proof.KiBlocks.lean ====
/-
  Each window's block at a grid point, read at an index, is its array read at the index the block sits at: the grid
  is (batch, query tile, key tile) = (t / 16, t / 4 mod 4, t mod 4), a query-side block holds rows
  1024 · (query tile) + r of its batch, a key-side block rows 1024 · (key tile) + r, and the projection's matrix and
  bias are one block each.
-/
import proofs.«420210_j26852135535196_3_alg».proof.Proof.KiShared
import Idealize.ShloMosaic.Lib.ValueIdx

set_option maxRecDepth 16384

noncomputable section

namespace Cert.KernelIdeal.KValue

open Cert.KernelIdeal Cert.KernelIdeal.Gen Cert.KernelIdeal.Fr
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The batch of grid point `t`. -/
def tb (t : Fin cfg0.N) : Fin 4 := ⟨t.val / 16, by have : t.val < 64 := lt_of_lt_of_eq t.isLt N_0; omega⟩
/-- Its query tile. -/
def tq (t : Fin cfg0.N) : Fin 4 := ⟨t.val / 4 % 4, by omega⟩
/-- Its key tile. -/
def tk (t : Fin cfg0.N) : Fin 4 := ⟨t.val % 4, by omega⟩
/-- Row `r` of tile `j` among the 4096 points. -/
def row (j : Fin 4) (r : Fin 1024) : Fin 4096 := ⟨1024 * j.val + r.val, by omega⟩

/-! ## The index maps over the grid

  Each window's block index at a grid point, decided once over the 64 points. -/

/-- The query-side coordinates' window sits at (batch, query tile, 0). -/
theorem idx0_facts : ∀ t : Fin cfg0.N,
    win0_0.index t (0 : Fin 3) = t.val / 16 ∧ win0_0.index t (1 : Fin 3) = t.val / 4 % 4 ∧ win0_0.index t (2 : Fin 3) = 0 :=
  (by decide +kernel : ∀ t : Fin grid0.N, _)

/-- The key-side coordinates' window sits at (batch, 0, key tile). -/
theorem idx1_facts : ∀ t : Fin cfg0.N,
    win0_1.index t (0 : Fin 3) = t.val / 16 ∧ win0_1.index t (1 : Fin 3) = 0 ∧ win0_1.index t (2 : Fin 3) = t.val % 4 :=
  (by decide +kernel : ∀ t : Fin grid0.N, _)

/-- The key-side features' window sits at (batch, key tile, 0). -/
theorem idx2_facts : ∀ t : Fin cfg0.N,
    win0_2.index t (0 : Fin 3) = t.val / 16 ∧ win0_2.index t (1 : Fin 3) = t.val % 4 ∧ win0_2.index t (2 : Fin 3) = 0 :=
  (by decide +kernel : ∀ t : Fin grid0.N, _)

/-- The matrix's window sits at (0, 0). -/
theorem idx3_facts : ∀ t : Fin cfg0.N, win0_3.index t (0 : Fin 2) = 0 ∧ win0_3.index t (1 : Fin 2) = 0 :=
  (by decide +kernel : ∀ t : Fin grid0.N, _)

/-- The bias's window sits at (0, 0). -/
theorem idx4_facts : ∀ t : Fin cfg0.N, win0_4.index t (0 : Fin 2) = 0 ∧ win0_4.index t (1 : Fin 2) = 0 :=
  (by decide +kernel : ∀ t : Fin grid0.N, _)

/-! ## The block reads

  A block's read at an index is the array's read at the block's embedding of it, whose coordinate on each axis is
  (block index) × (block size) + 1 × (the coordinate inside the block). -/

/-- The query-side augmented coordinates. -/
theorem iblk0_at (c : Dev nD) (t : Fin cfg0.N) (r : Fin 1024) (k : Fin 3) :
    iblk m c 0 t (ix3 0 r k) = (V m c main_v21 : S4x4096x3.Idx → F .f32) (ix3 (tb t) (row (tq t) r) k) := by
  obtain ⟨e0, e1, e2⟩ := idx0_facts t
  unfold iblk
  show V m c main_v21 (((cfg0.win 0).blk t).view.emb (ix3 0 r k)) = V m c main_v21 (ix3 (tb t) (row (tq t) r) k)
  refine congrArg _ ?_
  funext a; apply Fin.ext
  match a with
  | ⟨0, _⟩ => show win0_0.index t (0 : Fin 3) * 1 + 1 * 0 = t.val / 16; omega
  | ⟨1, _⟩ => show win0_0.index t (1 : Fin 3) * 1024 + 1 * r.val = 1024 * (t.val / 4 % 4) + r.val; omega
  | ⟨2, _⟩ => show win0_0.index t (2 : Fin 3) * 3 + 1 * k.val = k.val; omega

/-- The key-side augmented coordinates (transposed). -/
theorem iblk1_at (c : Dev nD) (t : Fin cfg0.N) (k : Fin 3) (r : Fin 1024) :
    iblk m c 1 t (ix3 0 k r) = (V m c main_v28 : S4x3x4096.Idx → F .f32) (ix3 (tb t) k (row (tk t) r)) := by
  obtain ⟨e0, e1, e2⟩ := idx1_facts t
  unfold iblk
  show V m c main_v28 (((cfg0.win 1).blk t).view.emb (ix3 0 k r)) = V m c main_v28 (ix3 (tb t) k (row (tk t) r))
  refine congrArg _ ?_
  funext a; apply Fin.ext
  match a with
  | ⟨0, _⟩ => show win0_1.index t (0 : Fin 3) * 1 + 1 * 0 = t.val / 16; omega
  | ⟨1, _⟩ => show win0_1.index t (1 : Fin 3) * 3 + 1 * k.val = k.val; omega
  | ⟨2, _⟩ => show win0_1.index t (2 : Fin 3) * 1024 + 1 * r.val = 1024 * (t.val % 4) + r.val; omega

/-- The key-side features. -/
theorem iblk2_at (c : Dev nD) (t : Fin cfg0.N) (r : Fin 1024) (i : Fin 128) :
    iblk m c 2 t (ix3 0 r i) = (V m c main_v29 : S4x4096x128.Idx → F .bf16) (ix3 (tb t) (row (tk t) r) i) := by
  obtain ⟨e0, e1, e2⟩ := idx2_facts t
  unfold iblk
  show V m c main_v29 (((cfg0.win 2).blk t).view.emb (ix3 0 r i)) = V m c main_v29 (ix3 (tb t) (row (tk t) r) i)
  refine congrArg _ ?_
  funext a; apply Fin.ext
  match a with
  | ⟨0, _⟩ => show win0_2.index t (0 : Fin 3) * 1 + 1 * 0 = t.val / 16; omega
  | ⟨1, _⟩ => show win0_2.index t (1 : Fin 3) * 1024 + 1 * r.val = 1024 * (t.val % 4) + r.val; omega
  | ⟨2, _⟩ => show win0_2.index t (2 : Fin 3) * 128 + 1 * i.val = i.val; omega

/-- The projection's matrix, one block. -/
theorem iblk3_at (c : Dev nD) (t : Fin cfg0.N) (i o : Fin 128) :
    iblk m c 3 t (ix2 i o) = (V m c main_v0 : S128x128.Idx → F .f32) (ix2 i o) := by
  obtain ⟨e0, e1⟩ := idx3_facts t
  unfold iblk
  show V m c main_v0 (((cfg0.win 3).blk t).view.emb (ix2 i o)) = V m c main_v0 (ix2 i o)
  refine congrArg _ ?_
  funext a; apply Fin.ext
  match a with
  | ⟨0, _⟩ => show win0_3.index t (0 : Fin 2) * 128 + 1 * i.val = i.val; omega
  | ⟨1, _⟩ => show win0_3.index t (1 : Fin 2) * 128 + 1 * o.val = o.val; omega

/-- The projection's bias, one block. -/
theorem iblk4_at (c : Dev nD) (t : Fin cfg0.N) (o : Fin 128) :
    iblk m c 4 t (ix2 0 o) = (V m c main_v1 : S1x128.Idx → F .f32) (ix2 0 o) := by
  obtain ⟨e0, e1⟩ := idx4_facts t
  unfold iblk
  show V m c main_v1 (((cfg0.win 4).blk t).view.emb (ix2 0 o)) = V m c main_v1 (ix2 0 o)
  refine congrArg _ ?_
  funext a; apply Fin.ext
  match a with
  | ⟨0, _⟩ => show win0_4.index t (0 : Fin 2) * 1 + 1 * 0 = 0; omega
  | ⟨1, _⟩ => show win0_4.index t (1 : Fin 2) * 128 + 1 * o.val = o.val; omega

end Cert.KernelIdeal.KValue

end
-- ==== Proof.KiPieces.lean ====
/-
  What each case of the body leaves in the two accumulators and in the output block, as the body's own arithmetic:
  the pieces the runs found, read back, are the named payloads of the values the body loaded — at a first key tile
  the accumulators' own zeros, afterwards what the tile before left.
-/
import proofs.«420210_j26852135535196_3_alg».proof.Proof.KiFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem

variable {F : FTy → Type} [FloatOps F]

/-- First key tile, weighted-sum accumulator: this tile's products added to the zeros just stored. -/
theorem sout0_A_0_eq (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) :
    sout0_A_0 c i arg3 harg3 arg4 harg4 arg5 harg5 arg6 harg6 arg7 harg7 arg8 harg8 arg9 harg9 arg10 harg10 hc0 hc1 x0 x1 x2 x3 x4 = k0_pay5 x0 x1 x2 (k0_pay1 (F := F)) := by
  have hz2 : (![0, 0] : Fin 2 → Nat) = fun _ => 0 := funext fun a => by fin_cases a <;> rfl
  have hz3 : (![0, 0, 0] : Fin 3 → Nat) = fun _ => 0 := funext fun a => by fin_cases a <;> rfl
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A; dsimp only
  sl_unfold_words
  rw [View.canon_cons_unit_zero (S := S1024x128) hz2]
  simp only [View.readAt_eq_ld, harg3.read_unread, harg4.read_unread, harg5.read_unread,
    View.readCov_unit_zero (S := S1024x128) _ hz2, View.ld_unit_zero (S := S1x1024x3) hz3, View.ld_unit_zero (S := S1x3x1024) hz3, View.ld_unit_zero (S := S1x1024x128) hz3]

/-- First key tile, row-sum accumulator: this tile's row sums added to the zeros just stored. -/
theorem sout0_A_1_eq (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) :
    sout0_A_1 c i arg3 harg3 arg4 harg4 arg5 harg5 arg6 harg6 arg7 harg7 arg8 harg8 arg9 harg9 arg10 harg10 hc0 hc1 x0 x1 x2 x3 x4 = k0_pay4 x0 x1 (k0_pay2 (F := F)) := by
  have hz2 : (![0, 0] : Fin 2 → Nat) = fun _ => 0 := funext fun a => by fin_cases a <;> rfl
  have hz3 : (![0, 0, 0] : Fin 3 → Nat) = fun _ => 0 := funext fun a => by fin_cases a <;> rfl
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A; dsimp only
  sl_unfold_words
  rw [View.canon_cons_unit_zero (S := S1024x1) hz2]
  simp only [View.readAt_eq_ld, harg3.read_unread, harg4.read_unread,
    View.readCov_unit_zero (S := S1024x1) _ hz2, View.ld_unit_zero (S := S1x1024x3) hz3, View.ld_unit_zero (S := S1x3x1024) hz3]

/-- Middle key tile, weighted-sum accumulator: this tile's products added to what the tile before left. -/
theorem sout0_B_0_eq (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) :
    sout0_B_0 c i arg3 harg3 arg4 harg4 arg5 harg5 arg6 harg6 arg7 harg7 arg8 harg8 arg9 harg9 arg10 harg10 hc0 hc1 x0 x1 x2 x3 x4 xs0 xs1 = k0_pay5 x0 x1 x2 xs0 := by
  have hz2 : (![0, 0] : Fin 2 → Nat) = fun _ => 0 := funext fun a => by fin_cases a <;> rfl
  have hz3 : (![0, 0, 0] : Fin 3 → Nat) = fun _ => 0 := funext fun a => by fin_cases a <;> rfl
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B; dsimp only
  sl_unfold_words
  rw [View.canon_unit_zero (S := S1024x128) hz2]
  simp only [View.readAt_eq_ld, harg3.read_unread, harg4.read_unread, harg5.read_unread, harg9.read_unread,
    View.ld_unit_zero (S := S1x1024x3) hz3, View.ld_unit_zero (S := S1x3x1024) hz3, View.ld_unit_zero (S := S1x1024x128) hz3, View.ld_unit_zero (S := S1024x128) hz2]

/-- Middle key tile, row-sum accumulator. -/
theorem sout0_B_1_eq (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : ¬cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) :
    sout0_B_1 c i arg3 harg3 arg4 harg4 arg5 harg5 arg6 harg6 arg7 harg7 arg8 harg8 arg9 harg9 arg10 harg10 hc0 hc1 x0 x1 x2 x3 x4 xs0 xs1 = k0_pay4 x0 x1 xs1 := by
  have hz2 : (![0, 0] : Fin 2 → Nat) = fun _ => 0 := funext fun a => by fin_cases a <;> rfl
  have hz3 : (![0, 0, 0] : Fin 3 → Nat) = fun _ => 0 := funext fun a => by fin_cases a <;> rfl
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B; dsimp only
  sl_unfold_words
  rw [View.canon_unit_zero (S := S1024x1) hz2]
  simp only [View.readAt_eq_ld, harg3.read_unread, harg4.read_unread, harg10.read_unread,
    View.ld_unit_zero (S := S1x1024x3) hz3, View.ld_unit_zero (S := S1x3x1024) hz3, View.ld_unit_zero (S := S1024x1) hz2]

/-- Last key tile, weighted-sum accumulator. -/
theorem sout0_C_0_eq (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) :
    sout0_C_0 c i arg3 harg3 arg4 harg4 arg5 harg5 arg6 harg6 arg7 harg7 arg8 harg8 arg9 harg9 arg10 harg10 hc0 hc1 x0 x1 x2 x3 x4 xs0 xs1 = k0_pay5 x0 x1 x2 xs0 := by
  have hz2 : (![0, 0] : Fin 2 → Nat) = fun _ => 0 := funext fun a => by fin_cases a <;> rfl
  have hz3 : (![0, 0, 0] : Fin 3 → Nat) = fun _ => 0 := funext fun a => by fin_cases a <;> rfl
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C; dsimp only
  sl_unfold_words
  rw [View.canon_unit_zero (S := S1024x128) hz2]
  simp only [View.readAt_eq_ld, harg3.read_unread, harg4.read_unread, harg5.read_unread, harg9.read_unread,
    View.ld_unit_zero (S := S1x1024x3) hz3, View.ld_unit_zero (S := S1x3x1024) hz3, View.ld_unit_zero (S := S1x1024x128) hz3, View.ld_unit_zero (S := S1024x128) hz2]

/-- Last key tile, row-sum accumulator. -/
theorem sout0_C_1_eq (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) :
    sout0_C_1 c i arg3 harg3 arg4 harg4 arg5 harg5 arg6 harg6 arg7 harg7 arg8 harg8 arg9 harg9 arg10 harg10 hc0 hc1 x0 x1 x2 x3 x4 xs0 xs1 = k0_pay4 x0 x1 xs1 := by
  have hz2 : (![0, 0] : Fin 2 → Nat) = fun _ => 0 := funext fun a => by fin_cases a <;> rfl
  have hz3 : (![0, 0, 0] : Fin 3 → Nat) = fun _ => 0 := funext fun a => by fin_cases a <;> rfl
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C; dsimp only
  sl_unfold_words
  rw [View.canon_unit_zero (S := S1024x1) hz2]
  simp only [View.readAt_eq_ld, harg3.read_unread, harg4.read_unread, harg10.read_unread,
    View.ld_unit_zero (S := S1x1024x3) hz3, View.ld_unit_zero (S := S1x3x1024) hz3, View.ld_unit_zero (S := S1024x1) hz2]

/-- Last key tile, output block: the finished accumulators divided, projected and passed through the ramp. -/
theorem out0_C_5_eq (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S1024x1 .f32) (harg10 : arg10.IsWhole) (hc0 : ¬cond0_0 i) (hc1 : cond0_1 i)
    (x0 : Vec F S1x1024x3 .f32) (x1 : Vec F S1x3x1024 .f32) (x2 : Vec F S1x1024x128 .bf16) (x3 : Vec F S128x128 .f32) (x4 : Vec F S1x128 .f32) (xs0 : Vec F S1024x128 .f32) (xs1 : Vec F S1024x1 .f32) :
    out0_C_5 c i arg3 harg3 arg4 harg4 arg5 harg5 arg6 harg6 arg7 harg7 arg8 harg8 arg9 harg9 arg10 harg10 hc0 hc1 x0 x1 x2 x3 x4 xs0 xs1 = k0_pay6 (k0_pay4 x0 x1 xs1) (k0_pay5 x0 x1 x2 xs0) x3 x4 := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C; dsimp only
  sl_unfold_words
  rw [View.canon_unit_zero (S := S1x1024x128) hz3]
  simp only [View.readAt_eq_ld, harg3.read_unread, harg4.read_unread, harg5.read_unread, harg6.read_unread,
    harg7.read_unread, harg9.read_unread, harg10.read_unread,
    View.readCov_unit_zero (S := S1024x128) _ hz2, View.readCov_unit_zero (S := S1024x1) _ hz2,
    View.ld_unit_zero (S := S1x1024x3) hz3, View.ld_unit_zero (S := S1x3x1024) hz3, View.ld_unit_zero (S := S1x1024x128) hz3, View.ld_unit_zero (S := S1024x128) hz2, View.ld_unit_zero (S := S1024x1) hz2,
    View.ld_unit_zero (S := S128x128) hz2, View.ld_unit_zero (S := S1x128) hz2]

end Cert.KernelIdeal.Fr

end
-- ==== Proof.Spec.lean ====
/-
  The mathematics both programs compute, index by index on the extended reals.

  A batch `b` holds 4096 points with planar coordinates `C b n 0`, `C b n 1` and features `X b n ·`.
  Every point `n` weighs every point `m` by a Gaussian of their distance, the weights of a row are normalised
  to sum to one, the features are averaged with them, sent through the affine map `z ↦ z · Wᵀ + Bv`, and passed
  through the leaky ramp.  The two programs arrange this differently:

  * the reference weighs by `exp (-(max (|p_n|² + |p_m|² - 2 p_n·p_m) 0) / (2 s s))`, normalises, and averages the
    ALREADY PROJECTED features `X · Wᵀ + Bv`;
  * the kernel weighs by `exp ((p_n / s²) · p_m - |p_m|² / (2 s²))` — the reference's weight without the row's
    constant factor `exp (-|p_n|² / (2 s²))`, which the normalisation cancels —, averages the RAW features, and
    projects the average afterwards (the normalised weights sum to one, so the bias passes through the average).

  Both clamp their row sum from below by the same tiny literal; the weight of a point on itself is at least one
  on either side, so neither clamp ever binds.  The equality of the two needs every input finite (the extended
  reals do not distribute at the infinities) and `s ≠ 0` (both divide by `s²`).
-/
import Idealize.ShloMosaic.PureOps
import Idealize.ShloMosaic.PureOps.Ideal
import Idealize.ShloMosaic.PureOps.Ideal.Laws
import Idealize.ShloMosaic.Lib.ValueIdx

noncomputable section

namespace Cert.GaussAgg

open Idealize.ShloMosaic Idealize.ShloMosaic.ValueIdx
open scoped BigOperators

/-! ## The literals both programs spell -/

/-- `1.0`. -/
abbrev litOne : EReal := Ideal.ofBits .f32 0x3F800000#32
/-- `-0.5`. -/
abbrev litNegHalf : EReal := Ideal.ofBits .f32 0xBF000000#32
/-- `2.0`. -/
abbrev litTwo : EReal := Ideal.ofBits .f32 0x40000000#32
/-- `0.0`. -/
abbrev litZero : EReal := Ideal.ofBits .f32 0x00000000#32
/-- The floor of the row sum, about `1e-12`. -/
abbrev litEps : EReal := Ideal.ofBits .f32 0x2B8CBCCC#32
/-- The ramp's slope below zero, about `0.01`. -/
abbrev litSlope : EReal := Ideal.ofBits .f32 0x3C23D70A#32

/-- The leaky ramp: `z` where `0 ≤ z`, the slope times `z` elsewhere. -/
def leaky (z : EReal) : EReal := Scalar.select (Ideal.cmp .oge z litZero) z (litSlope * z)

section Formulas

variable (X : Fin 4 → Fin 4096 → Fin 128 → EReal) (C : Fin 4 → Fin 4096 → Fin 2 → EReal)
  (W : Fin 128 → Fin 128 → EReal) (Bv : Fin 128 → EReal) (s : EReal)

/-! ## The kernel's arrangement -/

/-- `1 / s²`. -/
def invS2 : EReal := Ideal.div litOne (s * s)
/-- `-1 / (2 s²)`. -/
def negHalfInvS2 : EReal := litNegHalf * invS2 s
/-- `|p_n|²`, as the kernel's wrapper adds it. -/
def sqK (b : Fin 4) (n : Fin 4096) : EReal := C b n 0 * C b n 0 + C b n 1 * C b n 1
/-- The query row `(x_n / s², y_n / s², 1)`. -/
def cqA (b : Fin 4) (n : Fin 4096) : Fin 3 → EReal := ![C b n 0 * invS2 s, C b n 1 * invS2 s, litOne]
/-- The key column `(x_m, y_m, -|p_m|² / (2 s²))`. -/
def ckA (b : Fin 4) (m : Fin 4096) : Fin 3 → EReal := ![C b m 0, C b m 1, sqK C b m * negHalfInvS2 s]
/-- The kernel's exponent: the three-term product of the two. -/
def argK (b : Fin 4) (n m : Fin 4096) : EReal := ∑ k : Fin 3, cqA C s b n k * ckA C s b m k
/-- The kernel's weight of `m` for `n`. -/
def wK (b : Fin 4) (n m : Fin 4096) : EReal := Ideal.exp (argK C s b n m)
/-- Its row sum. -/
def rowK (b : Fin 4) (n : Fin 4096) : EReal := ∑ m : Fin 4096, wK C s b n m
/-- The weighted sum of the raw features. -/
def accK (b : Fin 4) (n : Fin 4096) (i : Fin 128) : EReal := ∑ m : Fin 4096, wK C s b n m * X b m i
/-- The weighted average, the row sum floored. -/
def resK (b : Fin 4) (n : Fin 4096) (i : Fin 128) : EReal := Ideal.div (accK X C s b n i) (max (rowK C s b n) litEps)
/-- The average projected. -/
def projK (b : Fin 4) (n : Fin 4096) (o : Fin 128) : EReal := (∑ i : Fin 128, resK X C s b n i * W o i) + Bv o
/-- The kernel's result. -/
def outK (b : Fin 4) (n : Fin 4096) (o : Fin 128) : EReal := leaky (projK X C W Bv s b n o)

/-! ## The reference's arrangement -/

/-- The projected features `X · Wᵀ + Bv`. -/
def xprojR (b : Fin 4) (m : Fin 4096) (o : Fin 128) : EReal := (∑ i : Fin 128, X b m i * W o i) + Bv o
/-- `|p_n|²` as a sum over the two coordinates. -/
def sqR (b : Fin 4) (n : Fin 4096) : EReal := ∑ d : Fin 2, C b n d * C b n d
/-- `p_n · p_m`. -/
def crossR (b : Fin 4) (n m : Fin 4096) : EReal := ∑ d : Fin 2, C b n d * C b m d
/-- The squared distance, floored at zero. -/
def distR (b : Fin 4) (n m : Fin 4096) : EReal := max ((sqR C b n + sqR C b m) - litTwo * crossR C b n m) litZero
/-- `2 s s`, in the reference's association. -/
def twoS2 : EReal := (litTwo * s) * s
/-- The reference's weight of `m` for `n`. -/
def wR (b : Fin 4) (n m : Fin 4096) : EReal := Ideal.exp (Ideal.div (-(distR C b n m)) (twoS2 s))
/-- Its row sum, floored. -/
def rowR (b : Fin 4) (n : Fin 4096) : EReal := max (∑ m : Fin 4096, wR C s b n m) litEps
/-- The reference's result. -/
def outR (b : Fin 4) (n : Fin 4096) (o : Fin 128) : EReal :=
  leaky (∑ m : Fin 4096, Ideal.div (wR C s b n m) (rowR C s b n) * xprojR X W Bv b m o)

end Formulas

/-! ## The same over the programs' arrays -/

/-- The features of point `n` of batch `b`. -/
def Xof (x : (⟨3, ![4, 4096, 128]⟩ : Shape).Idx → EReal) : Fin 4 → Fin 4096 → Fin 128 → EReal := fun b n i => x (ix3 b n i)
/-- Its coordinates. -/
def Cof (c : (⟨3, ![4, 4096, 2]⟩ : Shape).Idx → EReal) : Fin 4 → Fin 4096 → Fin 2 → EReal := fun b n d => c (ix3 b n d)
/-- The projection's matrix, output channel first. -/
def Wof (w : (⟨2, ![128, 128]⟩ : Shape).Idx → EReal) : Fin 128 → Fin 128 → EReal := fun o i => w (ix2 o i)
/-- The projection's bias. -/
def Bof (bv : (⟨1, ![128]⟩ : Shape).Idx → EReal) : Fin 128 → EReal := fun o => bv (ix1 o)
/-- The Gaussian's width. -/
def sof (sg : (⟨1, ![1]⟩ : Shape).Idx → EReal) : EReal := sg (ix1 0)

/-- The kernel's result array as a function of the five argument arrays. -/
def kernelArr (x : (⟨3, ![4, 4096, 128]⟩ : Shape).Idx → EReal) (c : (⟨3, ![4, 4096, 2]⟩ : Shape).Idx → EReal)
    (w : (⟨2, ![128, 128]⟩ : Shape).Idx → EReal) (bv : (⟨1, ![128]⟩ : Shape).Idx → EReal)
    (sg : (⟨1, ![1]⟩ : Shape).Idx → EReal) : (⟨3, ![4, 4096, 128]⟩ : Shape).Idx → EReal :=
  fun j => outK (Xof x) (Cof c) (Wof w) (Bof bv) (sof sg) (j 0) (j 1) (j 2)

/-- The reference's result array as a function of the five argument arrays. -/
def referenceArr (x : (⟨3, ![4, 4096, 128]⟩ : Shape).Idx → EReal) (c : (⟨3, ![4, 4096, 2]⟩ : Shape).Idx → EReal)
    (w : (⟨2, ![128, 128]⟩ : Shape).Idx → EReal) (bv : (⟨1, ![128]⟩ : Shape).Idx → EReal)
    (sg : (⟨1, ![1]⟩ : Shape).Idx → EReal) : (⟨3, ![4, 4096, 128]⟩ : Shape).Idx → EReal :=
  fun j => outR (Xof x) (Cof c) (Wof w) (Bof bv) (sof sg) (j 0) (j 1) (j 2)

theorem kernelArr_apply (x c w bv sg) (b : Fin 4) (n : Fin 4096) (o : Fin 128) :
    kernelArr x c w bv sg (ix3 b n o) = outK (Xof x) (Cof c) (Wof w) (Bof bv) (sof sg) b n o := rfl

theorem referenceArr_apply (x c w bv sg) (b : Fin 4) (n : Fin 4096) (o : Fin 128) :
    referenceArr x c w bv sg (ix3 b n o) = outR (Xof x) (Cof c) (Wof w) (Bof bv) (sof sg) b n o := rfl

end Cert.GaussAgg

end
-- ==== Proof.KiPayDotA.lean ====
/-
  The kernel's first matrix product (query rows by key columns) read at an index.
-/
import proofs.«420210_j26852135535196_3_alg».proof.Proof.Gen.KernelIdeal.Skeleton
import Idealize.ShloMosaic.Lib.ValueIdx
import Idealize.ShloMosaic.PureOps.Ideal.Laws

noncomputable section

namespace Cert.KernelIdeal.KValue

open Cert.KernelIdeal Cert.KernelIdeal.Gen Idealize.ShloMosaic Idealize.ShloMosaic.ValueIdx
open scoped BigOperators

/-- The product of a 1024×3 by a 3×1024 matrix accumulated into the zero splat, read at `(r, q)`: the sum over the
    contracted coordinate of the products of the entries. At the ideal values. -/
theorem matmul_qk_apply {φ₁ φ₂ : FTy} (prec : Option ContractPrecision) (A : FVec Ideal S1024x3 φ₁) (B : FVec Ideal S3x1024 φ₂)
    (r : Fin 1024) (q : Fin 1024) :
    matmul dot_S1024x3_S3x1024_S1024x1024_1_0_0_1_n_n prec A B (constant (F := Ideal) S1024x1024 .f32 0x00000000#32) (ix2 r q)
      = ∑ k : Fin 3, A (ix2 r k) * B (ix2 k q) := by
  show FloatOps.matmul _ prec A B _ (ix2 r q) = _
  rw [Ideal.matmul_constant_zero_apply,
    ← Equiv.sum_comp (contrEquiv1 dot_S1024x3_S3x1024_S1024x1024_1_0_0_1_n_n 3 rfl rfl).symm]
  refine Finset.sum_congr rfl fun c _ => ?_
  have hc := contrEquiv1_symm_val dot_S1024x3_S3x1024_S1024x1024_1_0_0_1_n_n 3 rfl rfl c
  have hl : dot_S1024x3_S3x1024_S1024x1024_1_0_0_1_n_n.lhsIdx (ix2 r q) ((contrEquiv1 _ 3 rfl rfl).symm c) = ix2 r c := by
    funext ax; apply Fin.ext
    match ax with
    | ⟨0, _⟩ => simp [DotDims.lhsIdx, dot_S1024x3_S3x1024_S1024x1024_1_0_0_1_n_n]; rfl
    | ⟨1, _⟩ => simp [DotDims.lhsIdx, dot_S1024x3_S3x1024_S1024x1024_1_0_0_1_n_n]; exact hc
  have hr : dot_S1024x3_S3x1024_S1024x1024_1_0_0_1_n_n.rhsIdx (ix2 r q) ((contrEquiv1 _ 3 rfl rfl).symm c) = ix2 c q := by
    funext ax; apply Fin.ext
    match ax with
    | ⟨0, _⟩ => simp [DotDims.rhsIdx, dot_S1024x3_S3x1024_S1024x1024_1_0_0_1_n_n]; exact hc
    | ⟨1, _⟩ => simp [DotDims.rhsIdx, dot_S1024x3_S3x1024_S1024x1024_1_0_0_1_n_n]; rfl
  rw [hl, hr]

end Cert.KernelIdeal.KValue

end
-- ==== Proof.KiPay3.lean ====
/-
  The kernel's weights at an index: the exponential of the three-term product of a query row and a key column.
-/
import proofs.«420210_j26852135535196_3_alg».proof.Proof.Gen.KernelIdeal.Skeleton
import proofs.«420210_j26852135535196_3_alg».proof.Proof.KiPayDotA
import Idealize.ShloMosaic.Lib.ValueIdx
import Idealize.ShloMosaic.Lib.ValueLayout

noncomputable section

namespace Cert.KernelIdeal.KValue

open Cert.KernelIdeal Cert.KernelIdeal.Gen Idealize.ShloMosaic Idealize.ShloMosaic.ValueIdx
open scoped BigOperators

/-- The weight of key `q` for query `r`: the exponential of the sum over the three coordinates of the query row's entry
    times the key column's. -/
theorem pay3_apply (v3 : Vec Ideal S1x1024x3 .f32) (v5 : Vec Ideal S1x3x1024 .f32) (r q : Fin 1024) :
    k0_pay3 v3 v5 (ix2 r q) = Ideal.exp (∑ k : Fin 3, v3 (ix3 0 r k) * v5 (ix3 0 k q)) := by
  unfold k0_pay3
  show Ideal.exp (matmul (F := Ideal) _ _ _ _ _ (ix2 r q)) = _
  refine congrArg Ideal.exp ?_
  refine (matmul_qk_apply (some .fp32) _ _ r q).trans ?_
  refine Finset.sum_congr rfl fun k _ => ?_
  rw [shapeCast_1ab_ab_apply, shapeCast_1ab_ab_apply]

end Cert.KernelIdeal.KValue

end
-- ==== Proof.KiPayLayout.lean ====
/-
  The layout operations a row sum with kept dimensions meets, read at an index given by coordinates: a vector of
  length `a` cast to a column `[a, 1]`, a column `[a, 1]` broadcast along the rows of `[a, b]`, and the sum over the
  lanes of an `[a, b]` array read at a row.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Idealize.ShloMosaic Idealize.ShloMosaic.ValueIdx
open scoped BigOperators

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the lanes of an `[a, b]` array, read at row `r`: the sum over the row's entries. At the ideal values. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ q : Fin b, src (ix2 r q) := by
  refine (Ideal.multiReduction_add_single src acc h hφ hacc (ix1 r)).trans ?_
  refine Finset.sum_congr rfl fun q _ => congrArg src ?_
  funext ax; apply Fin.ext
  match ax with
  | ⟨0, _⟩ => rfl
  | ⟨1, _⟩ => rfl

end Cert.KernelIdeal.KValue

end
-- ==== Proof.KiPay4.lean ====
/-
  The kernel's row sums at an index.
-/
import proofs.«420210_j26852135535196_3_alg».proof.Proof.Gen.KernelIdeal.Skeleton
import proofs.«420210_j26852135535196_3_alg».proof.Proof.KiPayLayout
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.ValueIdx
open scoped BigOperators

/-- The row sums' update: the row sum so far plus the sum of the row's weights. -/
theorem pay4_apply (v3 : Vec Ideal S1x1024x3 .f32) (v5 : Vec Ideal S1x3x1024 .f32) (v10 : Vec Ideal S1024x1 .f32) (r : Fin 1024) :
    k0_pay4 v3 v5 v10 (ix2 r 0) = v10 (ix2 r 0) + ∑ q : Fin 1024, k0_pay3 v3 v5 (ix2 r q) := by
  unfold k0_pay4
  refine (congrFun (shapeCast_self _ _) (ix2 r 0)).trans ?_
  show v10 (ix2 r 0) + shapeCast S1024x1 _ _ (ix2 r 0) = _
  refine congrArg (v10 (ix2 r 0) + ·) ?_
  refine (shapeCast_a_a1_apply _ _ r 0).trans ?_
  exact multiReduction_add_lanes_apply _ _ _ _ _ r

end Cert.KernelIdeal.KValue

end
-- ==== Proof.KiPayDotB.lean ====
/-
  The kernel's second matrix product (weights by features) read at an index.
-/
import proofs.«420210_j26852135535196_3_alg».proof.Proof.Gen.KernelIdeal.Skeleton
import Idealize.ShloMosaic.Lib.ValueIdx
import Idealize.ShloMosaic.PureOps.Ideal.Laws

noncomputable section

namespace Cert.KernelIdeal.KValue

open Cert.KernelIdeal Cert.KernelIdeal.Gen Idealize.ShloMosaic Idealize.ShloMosaic.ValueIdx
open scoped BigOperators

/-- The product of a 1024×1024 by a 1024×128 matrix accumulated into the zero splat, read at `(r, q)`: the sum over the
    contracted coordinate of the products of the entries. At the ideal values. -/
theorem matmul_wx_apply {φ₁ φ₂ : FTy} (prec : Option ContractPrecision) (A : FVec Ideal S1024x1024 φ₁) (B : FVec Ideal S1024x128 φ₂)
    (r : Fin 1024) (q : Fin 128) :
    matmul dot_S1024x1024_S1024x128_S1024x128_1_0_0_1_n_n prec A B (constant (F := Ideal) S1024x128 .f32 0x00000000#32) (ix2 r q)
      = ∑ k : Fin 1024, A (ix2 r k) * B (ix2 k q) := by
  show FloatOps.matmul _ prec A B _ (ix2 r q) = _
  rw [Ideal.matmul_constant_zero_apply,
    ← Equiv.sum_comp (contrEquiv1 dot_S1024x1024_S1024x128_S1024x128_1_0_0_1_n_n 1024 rfl rfl).symm]
  refine Finset.sum_congr rfl fun c _ => ?_
  have hc := contrEquiv1_symm_val dot_S1024x1024_S1024x128_S1024x128_1_0_0_1_n_n 1024 rfl rfl c
  have hl : dot_S1024x1024_S1024x128_S1024x128_1_0_0_1_n_n.lhsIdx (ix2 r q) ((contrEquiv1 _ 1024 rfl rfl).symm c) = ix2 r c := by
    funext ax; apply Fin.ext
    match ax with
    | ⟨0, _⟩ => simp [DotDims.lhsIdx, dot_S1024x1024_S1024x128_S1024x128_1_0_0_1_n_n]; rfl
    | ⟨1, _⟩ => simp [DotDims.lhsIdx, dot_S1024x1024_S1024x128_S1024x128_1_0_0_1_n_n]; exact hc
  have hr : dot_S1024x1024_S1024x128_S1024x128_1_0_0_1_n_n.rhsIdx (ix2 r q) ((contrEquiv1 _ 1024 rfl rfl).symm c) = ix2 c q := by
    funext ax; apply Fin.ext
    match ax with
    | ⟨0, _⟩ => simp [DotDims.rhsIdx, dot_S1024x1024_S1024x128_S1024x128_1_0_0_1_n_n]; exact hc
    | ⟨1, _⟩ => simp [DotDims.rhsIdx, dot_S1024x1024_S1024x128_S1024x128_1_0_0_1_n_n]; rfl
  rw [hl, hr]

end Cert.KernelIdeal.KValue

end
-- ==== Proof.KiPay5.lean ====
/-
  The kernel's weighted feature sums at an index.
-/
import proofs.«420210_j26852135535196_3_alg».proof.Proof.Gen.KernelIdeal.Skeleton
import proofs.«420210_j26852135535196_3_alg».proof.Proof.KiPayDotB
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.ValueIdx
open scoped BigOperators

/-- The weighted sums' update: the sum so far plus the sum over the keys of the weight times the key's feature. -/
theorem pay5_apply (v3 : Vec Ideal S1x1024x3 .f32) (v5 : Vec Ideal S1x3x1024 .f32) (v18 : Vec Ideal S1x1024x128 .bf16)
    (v20 : Vec Ideal S1024x128 .f32) (r : Fin 1024) (i : Fin 128) :
    k0_pay5 v3 v5 v18 v20 (ix2 r i) = v20 (ix2 r i) + ∑ q : Fin 1024, k0_pay3 v3 v5 (ix2 r q) * v18 (ix3 0 q i) := by
  unfold k0_pay5
  refine (congrFun (shapeCast_self _ _) (ix2 r i)).trans ?_
  show v20 (ix2 r i) + matmul (F := Ideal) _ _ _ _ _ (ix2 r i) = _
  refine congrArg (v20 (ix2 r i) + ·) ?_
  refine (matmul_wx_apply none _ _ r i).trans ?_
  refine Finset.sum_congr rfl fun q _ => ?_
  show k0_pay3 v3 v5 (ix2 r q) * shapeCast S1024x128 v18 _ (ix2 q i) = _
  rw [shapeCast_1ab_ab_apply]

end Cert.KernelIdeal.KValue

end
-- ==== Proof.KiPayDotC.lean ====
/-
  The kernel's third matrix product (averaged features by the projection) read at an index.
-/
import proofs.«420210_j26852135535196_3_alg».proof.Proof.Gen.KernelIdeal.Skeleton
import Idealize.ShloMosaic.Lib.ValueIdx
import Idealize.ShloMosaic.PureOps.Ideal.Laws

noncomputable section

namespace Cert.KernelIdeal.KValue

open Cert.KernelIdeal Cert.KernelIdeal.Gen Idealize.ShloMosaic Idealize.ShloMosaic.ValueIdx
open scoped BigOperators

/-- The product of a 1024×128 by a 128×128 matrix accumulated into the zero splat, read at `(r, q)`: the sum over the
    contracted coordinate of the products of the entries. At the ideal values. -/
theorem matmul_proj_apply {φ₁ φ₂ : FTy} (prec : Option ContractPrecision) (A : FVec Ideal S1024x128 φ₁) (B : FVec Ideal S128x128 φ₂)
    (r : Fin 1024) (q : Fin 128) :
    matmul dot_S1024x128_S128x128_S1024x128_1_0_0_1_n_n prec A B (constant (F := Ideal) S1024x128 .f32 0x00000000#32) (ix2 r q)
      = ∑ k : Fin 128, A (ix2 r k) * B (ix2 k q) := by
  show FloatOps.matmul _ prec A B _ (ix2 r q) = _
  rw [Ideal.matmul_constant_zero_apply,
    ← Equiv.sum_comp (contrEquiv1 dot_S1024x128_S128x128_S1024x128_1_0_0_1_n_n 128 rfl rfl).symm]
  refine Finset.sum_congr rfl fun c _ => ?_
  have hc := contrEquiv1_symm_val dot_S1024x128_S128x128_S1024x128_1_0_0_1_n_n 128 rfl rfl c
  have hl : dot_S1024x128_S128x128_S1024x128_1_0_0_1_n_n.lhsIdx (ix2 r q) ((contrEquiv1 _ 128 rfl rfl).symm c) = ix2 r c := by
    funext ax; apply Fin.ext
    match ax with
    | ⟨0, _⟩ => simp [DotDims.lhsIdx, dot_S1024x128_S128x128_S1024x128_1_0_0_1_n_n]; rfl
    | ⟨1, _⟩ => simp [DotDims.lhsIdx, dot_S1024x128_S128x128_S1024x128_1_0_0_1_n_n]; exact hc
  have hr : dot_S1024x128_S128x128_S1024x128_1_0_0_1_n_n.rhsIdx (ix2 r q) ((contrEquiv1 _ 128 rfl rfl).symm c) = ix2 c q := by
    funext ax; apply Fin.ext
    match ax with
    | ⟨0, _⟩ => simp [DotDims.rhsIdx, dot_S1024x128_S128x128_S1024x128_1_0_0_1_n_n]; exact hc
    | ⟨1, _⟩ => simp [DotDims.rhsIdx, dot_S1024x128_S128x128_S1024x128_1_0_0_1_n_n]; rfl
  rw [hl, hr]

end Cert.KernelIdeal.KValue

end
-- ==== Proof.KiPay6.lean ====
/-
  The kernel's result at an index: the average, projected, through the leaky ramp.
-/
import proofs.«420210_j26852135535196_3_alg».proof.Proof.Gen.KernelIdeal.Skeleton
import proofs.«420210_j26852135535196_3_alg».proof.Proof.Spec
import proofs.«420210_j26852135535196_3_alg».proof.Proof.KiPayDotC
import proofs.«420210_j26852135535196_3_alg».proof.Proof.KiPayLayout
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Cert.GaussAgg Idealize.ShloMosaic Idealize.ShloMosaic.ValueIdx
open scoped BigOperators

/-- The leaky ramp applied lane by lane is the ramp of each lane. -/
theorem leaky_vec_apply {s : Shape} (x : FVec Ideal s .f32) (j : s.Idx) :
    select (cmpf .oge x (broadcast s (Scalar.ofBits (F := Ideal) .f32 0x00000000#32))) x
      (mulf (broadcast s (Scalar.ofBits (F := Ideal) .f32 0x3C23D70A#32)) x) j = leaky (x j) := rfl

/-- The result: the weighted sums divided by the floored row sum, projected, the bias added, through the leaky ramp. -/
theorem pay6_apply (v29 : Vec Ideal S1024x1 .f32) (v32 : Vec Ideal S1024x128 .f32) (v36 : Vec Ideal S128x128 .f32)
    (v40 : Vec Ideal S1x128 .f32) (r : Fin 1024) (o : Fin 128) :
    k0_pay6 v29 v32 v36 v40 (ix3 0 r o)
      = leaky ((∑ i : Fin 128, Ideal.div (v32 (ix2 r i)) (max (v29 (ix2 r 0)) litEps) * v36 (ix2 i o)) + v40 (ix2 0 o)) := by
  unfold k0_pay6
  refine (shapeCast_ab_1ab_apply _ _ 0 r o).trans ?_
  refine (leaky_vec_apply _ (ix2 r o)).trans ?_
  refine congrArg leaky ?_
  show matmul (F := Ideal) _ _ _ _ _ (ix2 r o) + broadcastTo S1024x128 _ _ (ix2 r o) = _
  refine congrArg₂ (· + ·) ?_ ?_
  · refine (matmul_proj_apply none _ _ r o).trans ?_
    refine Finset.sum_congr rfl fun i _ => ?_
    show Ideal.div (v32 (ix2 r i)) (broadcastTo S1024x128 _ _ (ix2 r i)) * shapeCast S128x128 v36 _ (ix2 i o) = _
    rw [broadcastTo_a1_ab_apply, shapeCast_self]
    rfl
  · exact (broadcastTo_1b_ab_apply _ _ r o).trans (congrFun (shapeCast_self _ _) _)

end Cert.KernelIdeal.KValue

end
-- ==== Proof.KiPayload.lean ====
/-
  The kernel body's six stored values, each read at an index over the values the body loads: the two zero fills, the
  weights, the row sums' and the weighted sums' updates, and the result.
-/
import proofs.«420210_j26852135535196_3_alg».proof.Proof.Gen.KernelIdeal.Skeleton
import proofs.«420210_j26852135535196_3_alg».proof.Proof.Spec
import proofs.«420210_j26852135535196_3_alg».proof.Proof.KiPay3
import proofs.«420210_j26852135535196_3_alg».proof.Proof.KiPay4
import proofs.«420210_j26852135535196_3_alg».proof.Proof.KiPay5
import proofs.«420210_j26852135535196_3_alg».proof.Proof.KiPay6
import Idealize.ShloMosaic.Lib.ValueIdx
import Idealize.ShloMosaic.Lib.Pipeline.Value
import Idealize.ShloMosaic.PureOps.Ideal.Laws

noncomputable section

namespace Cert.KernelIdeal.KValue

open Cert.KernelIdeal Cert.KernelIdeal.Gen Cert.GaussAgg Idealize.ShloMosaic Idealize.ShloMosaic.ValueIdx
open scoped BigOperators

/-- The weighted sums start at zero. -/
theorem pay1_apply (j : S1024x128.Idx) : k0_pay1 (F := Ideal) j = 0 := by
  unfold k0_pay1
  rw [shapeCast_self]
  exact Ideal.ofBits_zero_f32

/-- The row sums start at zero. -/
theorem pay2_apply (j : S1024x1.Idx) : k0_pay2 (F := Ideal) j = 0 := by
  unfold k0_pay2
  rw [shapeCast_self]
  exact Ideal.ofBits_zero_f32

end Cert.KernelIdeal.KValue

end
-- ==== Proof.KiAccumSum.lean ====
/-
  Regrouping sums over the 4096 rows by tile: the rows are the pairs (tile, row in the tile), and a sum over the
  tiles up to a given one splits off its last tile.
-/
import proofs.«420210_j26852135535196_3_alg».proof.Proof.KiBlocks
import Mathlib.Algebra.BigOperators.Fin
import Mathlib.Data.Fintype.BigOperators
import Mathlib.Logic.Equiv.Fin.Basic

set_option maxRecDepth 16384

noncomputable section

namespace Cert.KernelIdeal.KValue

open Cert.KernelIdeal Cert.KernelIdeal.Gen Cert.KernelIdeal.Fr
open scoped BigOperators

/-- A sum over the 4096 rows is the sum over the four tiles of the sums over each tile's 1024 rows. -/
theorem sum_tiles {M : Type} [AddCommMonoid M] (f : Fin 4096 → M) :
    ∑ n : Fin 4096, f n = ∑ j : Fin 4, ∑ r : Fin 1024, f (row j r) := by
  rw [← Fintype.sum_prod_type' (f := fun j r => f (row j r))]
  refine (Equiv.sum_comp (finProdFinEquiv (m := 4) (n := 1024)) f).symm.trans ?_
  refine Fintype.sum_congr _ _ fun x => congrArg f (Fin.ext ?_)
  show x.2.val + 1024 * x.1.val = 1024 * x.1.val + x.2.val
  omega

/-- The tiles up to the first one are the first one alone. -/
theorem sum_upto_first {M : Type} [AddCommMonoid M] (g : Fin 4 → M) (k : Fin 4) (h : k.val = 0) :
    ∑ j ∈ Finset.univ.filter (fun j : Fin 4 => j ≤ k), g j = g k := by
  obtain rfl : k = 0 := Fin.ext h
  rw [Finset.sum_filter, Fin.sum_univ_four]
  simp

/-- The tiles up to a later one are the tiles up to the one before, and that one. -/
theorem sum_upto_next {M : Type} [AddCommMonoid M] (g : Fin 4 → M) (k k' : Fin 4) (h : k.val = k'.val + 1) :
    ∑ j ∈ Finset.univ.filter (fun j : Fin 4 => j ≤ k), g j
      = (∑ j ∈ Finset.univ.filter (fun j : Fin 4 => j ≤ k'), g j) + g k := by
  rw [Finset.sum_filter, Finset.sum_filter, Fin.sum_univ_four, Fin.sum_univ_four]
  fin_cases k <;> fin_cases k' <;> first | (exfalso; revert h; decide) | simp

/-- The tiles up to the last one are all four. -/
theorem sum_upto_last {M : Type} [AddCommMonoid M] (g : Fin 4 → M) (k : Fin 4) (h : k.val = 3) :
    ∑ j ∈ Finset.univ.filter (fun j : Fin 4 => j ≤ k), g j = ∑ j : Fin 4, g j := by
  refine Finset.sum_congr (Finset.filter_true_of_mem fun j _ => ?_) fun _ _ => rfl
  exact Fin.le_def.mpr (by have := j.isLt; omega)

end Cert.KernelIdeal.KValue

end
-- ==== Proof.KiAccumStep.lean ====
/-
  One grid point's effect on the two accumulators and on the output block, at an index: a first key tile leaves this
  tile's sums alone (the zeros it starts from add nothing), a later tile adds this tile's sums to what the point
  before left, and a last tile stores the ramp of the projected quotient of the two finished accumulators.
-/
import proofs.«420210_j26852135535196_3_alg».proof.Proof.KiFrame
import proofs.«420210_j26852135535196_3_alg».proof.Proof.KiPieces
import proofs.«420210_j26852135535196_3_alg».proof.Proof.KiPayload

set_option maxRecDepth 16384

noncomputable section

namespace Cert.KernelIdeal.KValue

open Cert.KernelIdeal Cert.KernelIdeal.Gen Cert.KernelIdeal.Fr Cert.GaussAgg
open Idealize.ShloMosaic Idealize.ShloMosaic.TcCoe Idealize.ShloMosaic.ValueIdx Idealize.SL.Sem
open scoped BigOperators

variable (m : (ℓ : Loc nD τ sig) → Buf (Elt Ideal) ℓ)

/-- At a first key tile the row-sum accumulator holds this tile's row sums. -/
theorem rowsum_first (c : Dev nD) (t : Fin cfg0.N) (h0 : t.val % 4 = 0) (r : Fin 1024) :
    (outsAt0 (F := Ideal) m c t.val t.isLt).2.2 (ix2 r 0)
      = ∑ q : Fin 1024, k0_pay3 (iblk m c 0 t) (iblk m c 1 t) (ix2 r q) := by
  have h1 : ¬t.val % 4 = 3 := by omega
  rw [outsAt0_A m c t h0 h1]
  dsimp only
  refine (congrFun (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix2 r 0)).trans ?_
  refine (pay4_apply (iblk m c 0 t) (iblk m c 1 t) (k0_pay2 (F := Ideal)) r).trans ?_
  rw [pay2_apply, zero_add]

/-- At a first key tile the weighted-sum accumulator holds this tile's weighted sums. -/
theorem acc_first (c : Dev nD) (t : Fin cfg0.N) (h0 : t.val % 4 = 0) (r : Fin 1024) (i : Fin 128) :
    (outsAt0 (F := Ideal) m c t.val t.isLt).2.1 (ix2 r i)
      = ∑ q : Fin 1024, k0_pay3 (iblk m c 0 t) (iblk m c 1 t) (ix2 r q) * iblk m c 2 t (ix3 0 q i) := by
  have h1 : ¬t.val % 4 = 3 := by omega
  rw [outsAt0_A m c t h0 h1]
  dsimp only
  refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix2 r i)).trans ?_
  refine (pay5_apply (iblk m c 0 t) (iblk m c 1 t) (iblk m c 2 t) (k0_pay1 (F := Ideal)) r i).trans ?_
  rw [pay1_apply, zero_add]

/-- At a later key tile the row-sum accumulator adds this tile's row sums to what the point before left. -/
theorem rowsum_next (c : Dev nD) (t : Fin cfg0.N) (h0 : ¬t.val % 4 = 0) (r : Fin 1024) :
    (outsAt0 (F := Ideal) m c t.val t.isLt).2.2 (ix2 r 0)
      = (outsAt0 m c (t.val - 1) (Nat.lt_of_le_of_lt (Nat.sub_le _ _) t.isLt)).2.2 (ix2 r 0)
        + ∑ q : Fin 1024, k0_pay3 (iblk m c 0 t) (iblk m c 1 t) (ix2 r q) := by
  by_cases h1 : t.val % 4 = 3
  · rw [outsAt0_C m c t h0 h1]
    dsimp only
    refine (congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 r 0)).trans ?_
    exact pay4_apply (iblk m c 0 t) (iblk m c 1 t) _ r
  · rw [outsAt0_B m c t h0 h1]
    dsimp only
    refine (congrFun (sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 r 0)).trans ?_
    exact pay4_apply (iblk m c 0 t) (iblk m c 1 t) _ r

/-- At a later key tile the weighted-sum accumulator adds this tile's weighted sums to what the point before left. -/
theorem acc_next (c : Dev nD) (t : Fin cfg0.N) (h0 : ¬t.val % 4 = 0) (r : Fin 1024) (i : Fin 128) :
    (outsAt0 (F := Ideal) m c t.val t.isLt).2.1 (ix2 r i)
      = (outsAt0 m c (t.val - 1) (Nat.lt_of_le_of_lt (Nat.sub_le _ _) t.isLt)).2.1 (ix2 r i)
        + ∑ q : Fin 1024, k0_pay3 (iblk m c 0 t) (iblk m c 1 t) (ix2 r q) * iblk m c 2 t (ix3 0 q i) := by
  by_cases h1 : t.val % 4 = 3
  · rw [outsAt0_C m c t h0 h1]
    dsimp only
    refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 r i)).trans ?_
    exact pay5_apply (iblk m c 0 t) (iblk m c 1 t) (iblk m c 2 t) _ r i
  · rw [outsAt0_B m c t h0 h1]
    dsimp only
    refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 r i)).trans ?_
    exact pay5_apply (iblk m c 0 t) (iblk m c 1 t) (iblk m c 2 t) _ r i

/-- At a last key tile the stored block is the ramp of the projected quotient of the two accumulators as this point
    leaves them. -/
theorem out_last (c : Dev nD) (t : Fin cfg0.N) (h3 : t.val % 4 = 3) (r : Fin 1024) (o : Fin 128) :
    (outsAt0 (F := Ideal) m c t.val t.isLt).1 (ix3 0 r o)
      = leaky ((∑ i : Fin 128, Ideal.div ((outsAt0 (F := Ideal) m c t.val t.isLt).2.1 (ix2 r i))
            (max ((outsAt0 (F := Ideal) m c t.val t.isLt).2.2 (ix2 r 0)) litEps) * iblk m c 3 t (ix2 i o))
          + iblk m c 4 t (ix2 0 o)) := by
  have h0 : ¬t.val % 4 = 0 := by omega
  have h1 : t.val % 4 = 3 := h3
  rw [outsAt0_C m c t h0 h1]
  dsimp only
  refine (congrFun (out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix3 0 r o)).trans ?_
  refine (pay6_apply _ _ (iblk m c 3 t) (iblk m c 4 t) r o).trans ?_
  rw [sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2]

end Cert.KernelIdeal.KValue

end
-- ==== Proof.KiAccumCore.lean ====
/-
  The induction along a run of key tiles, over the arrays the kernel reads: after grid point `t` the row-sum accumulator
  holds, for each query row of `t`'s query tile, the sum of the weights of the key rows of the tiles up to `t`'s, and
  the weighted-sum accumulator the sum of the weights times the key rows' features; after a last key tile the sums run
  over all 4096 key rows and the stored block is the ramp of the projected quotient.
-/
import proofs.«420210_j26852135535196_3_alg».proof.Proof.KiAccumSum
import proofs.«420210_j26852135535196_3_alg».proof.Proof.KiAccumStep
import proofs.«420210_j26852135535196_3_alg».proof.Proof.KiBlocks

set_option maxRecDepth 16384

noncomputable section

namespace Cert.KernelIdeal.KValue

open Cert.KernelIdeal Cert.KernelIdeal.Gen Cert.KernelIdeal.Fr Cert.GaussAgg
open Idealize.ShloMosaic Idealize.ShloMosaic.TcCoe Idealize.ShloMosaic.ValueIdx Idealize.SL.Sem
open scoped BigOperators

variable (m : (ℓ : Loc nD τ sig) → Buf (Elt Ideal) ℓ)

/-- The five arrays the kernel reads, as functions to the extended reals: the query rows, the key columns, the
    features, the projection's matrix and the bias. -/
abbrev qV (c : Dev nD) : S4x4096x3.Idx → EReal := V m c main_v21
abbrev kV (c : Dev nD) : S4x3x4096.Idx → EReal := V m c main_v28
abbrev fV (c : Dev nD) : S4x4096x128.Idx → EReal := V m c main_v29
abbrev pV (c : Dev nD) : S128x128.Idx → EReal := V m c main_v0
abbrev bV (c : Dev nD) : S1x128.Idx → EReal := V m c main_v1

/-- The weight of key row `n'` for query row `n` of batch `b`, over the two augmented coordinate arrays the kernel
    reads: the exponential of the three-term product of the query's row and the key's column. -/
def wV (c : Dev nD) (b : Fin 4) (n n' : Fin 4096) : EReal :=
  Ideal.exp (∑ k : Fin 3, qV m c (ix3 b n k) * kV m c (ix3 b k n'))

/-- The key rows' features as the kernel reads them. -/
def xV (c : Dev nD) (b : Fin 4) (n' : Fin 4096) (i : Fin 128) : EReal := fV m c (ix3 b n' i)

/-- A grid point's block of weights, at an index, is the weight of the point's key row for its query row. -/
theorem pay3_at (c : Dev nD) (t : Fin cfg0.N) (r q : Fin 1024) :
    k0_pay3 (iblk m c 0 t) (iblk m c 1 t) (ix2 r q) = wV m c (tb t) (row (tq t) r) (row (tk t) q) := by
  refine (pay3_apply (iblk m c 0 t) (iblk m c 1 t) r q).trans ?_
  unfold wV
  refine congrArg Ideal.exp (Finset.sum_congr rfl fun k _ => ?_)
  exact congrArg₂ (· * ·) (iblk0_at m c t r k) (iblk1_at m c t k q)

/-- The same with the key row's feature. -/
theorem pay3x_at (c : Dev nD) (t : Fin cfg0.N) (r q : Fin 1024) (i : Fin 128) :
    k0_pay3 (iblk m c 0 t) (iblk m c 1 t) (ix2 r q) * iblk m c 2 t (ix3 0 q i)
      = wV m c (tb t) (row (tq t) r) (row (tk t) q) * xV m c (tb t) (row (tk t) q) i :=
  congrArg₂ (· * ·) (pay3_at m c t r q) (iblk2_at m c t q i)

/-- The point before a later key tile: the same batch and query tile, the key tile before. -/
theorem prev_point (n : ℕ) (hn : n < cfg0.N) (h0 : ¬n % 4 = 0) (hp : n - 1 < cfg0.N) :
    tb ⟨n - 1, hp⟩ = tb ⟨n, hn⟩ ∧ tq ⟨n - 1, hp⟩ = tq ⟨n, hn⟩ ∧ (tk ⟨n, hn⟩).val = (tk ⟨n - 1, hp⟩).val + 1 := by
  refine ⟨Fin.ext ?_, Fin.ext ?_, ?_⟩
  · show (n - 1) / 16 = n / 16; omega
  · show (n - 1) / 4 % 4 = n / 4 % 4; omega
  · show n % 4 = (n - 1) % 4 + 1; omega

/-- The row-sum accumulator after position `n`. -/
theorem rowsum_V (c : Dev nD) : ∀ (n : ℕ) (hn : n < cfg0.N) (r : Fin 1024),
    (outsAt0 (F := Ideal) m c n hn).2.2 (ix2 r 0)
      = ∑ j ∈ Finset.univ.filter (fun j : Fin 4 => j ≤ tk ⟨n, hn⟩), ∑ r' : Fin 1024,
          wV m c (tb ⟨n, hn⟩) (row (tq ⟨n, hn⟩) r) (row j r') := by
  intro n
  induction n using Nat.strong_induction_on with
  | _ n ih =>
    intro hn r
    by_cases h0 : n % 4 = 0
    · refine (rowsum_first m c ⟨n, hn⟩ h0 r).trans ?_
      refine ((sum_upto_first (fun j => ∑ r' : Fin 1024, wV m c (tb ⟨n, hn⟩) (row (tq ⟨n, hn⟩) r) (row j r'))
        (tk ⟨n, hn⟩) h0).trans ?_).symm
      exact (Finset.sum_congr rfl fun q _ => pay3_at m c ⟨n, hn⟩ r q).symm
    · have hp : n - 1 < cfg0.N := Nat.lt_of_le_of_lt (Nat.sub_le _ _) hn
      obtain ⟨eb, eq, hk⟩ := prev_point n hn h0 hp
      have hprev := ih (n - 1) (by omega) hp r
      rw [eb, eq] at hprev
      refine (rowsum_next m c ⟨n, hn⟩ h0 r).trans ?_
      refine (congrArg₂ (· + ·) hprev (Finset.sum_congr rfl fun q _ => pay3_at m c ⟨n, hn⟩ r q)).trans ?_
      exact (sum_upto_next (fun j => ∑ r' : Fin 1024, wV m c (tb ⟨n, hn⟩) (row (tq ⟨n, hn⟩) r) (row j r'))
        (tk ⟨n, hn⟩) (tk ⟨n - 1, hp⟩) hk).symm

/-- The weighted-sum accumulator after position `n`. -/
theorem acc_V (c : Dev nD) : ∀ (n : ℕ) (hn : n < cfg0.N) (r : Fin 1024) (i : Fin 128),
    (outsAt0 (F := Ideal) m c n hn).2.1 (ix2 r i)
      = ∑ j ∈ Finset.univ.filter (fun j : Fin 4 => j ≤ tk ⟨n, hn⟩), ∑ r' : Fin 1024,
          wV m c (tb ⟨n, hn⟩) (row (tq ⟨n, hn⟩) r) (row j r') * xV m c (tb ⟨n, hn⟩) (row j r') i := by
  intro n
  induction n using Nat.strong_induction_on with
  | _ n ih =>
    intro hn r i
    by_cases h0 : n % 4 = 0
    · refine (acc_first m c ⟨n, hn⟩ h0 r i).trans ?_
      refine ((sum_upto_first (fun j => ∑ r' : Fin 1024, wV m c (tb ⟨n, hn⟩) (row (tq ⟨n, hn⟩) r) (row j r')
          * xV m c (tb ⟨n, hn⟩) (row j r') i) (tk ⟨n, hn⟩) h0).trans ?_).symm
      exact (Finset.sum_congr rfl fun q _ => pay3x_at m c ⟨n, hn⟩ r q i).symm
    · have hp : n - 1 < cfg0.N := Nat.lt_of_le_of_lt (Nat.sub_le _ _) hn
      obtain ⟨eb, eq, hk⟩ := prev_point n hn h0 hp
      have hprev := ih (n - 1) (by omega) hp r i
      rw [eb, eq] at hprev
      refine (acc_next m c ⟨n, hn⟩ h0 r i).trans ?_
      refine (congrArg₂ (· + ·) hprev (Finset.sum_congr rfl fun q _ => pay3x_at m c ⟨n, hn⟩ r q i)).trans ?_
      exact (sum_upto_next (fun j => ∑ r' : Fin 1024, wV m c (tb ⟨n, hn⟩) (row (tq ⟨n, hn⟩) r) (row j r')
          * xV m c (tb ⟨n, hn⟩) (row j r') i) (tk ⟨n, hn⟩) (tk ⟨n - 1, hp⟩) hk).symm

/-- After a last key tile the row-sum accumulator holds the whole row's sum. -/
theorem rowsum_done (c : Dev nD) (t : Fin cfg0.N) (h3 : t.val % 4 = 3) (r : Fin 1024) :
    (outsAt0 (F := Ideal) m c t.val t.isLt).2.2 (ix2 r 0)
      = ∑ n' : Fin 4096, wV m c (tb t) (row (tq t) r) n' := by
  refine (rowsum_V m c t.val t.isLt r).trans ?_
  refine (sum_upto_last (fun j => ∑ r' : Fin 1024, wV m c (tb t) (row (tq t) r) (row j r')) (tk t) h3).trans ?_
  exact (sum_tiles (fun n' => wV m c (tb t) (row (tq t) r) n')).symm

/-- After a last key tile the weighted-sum accumulator holds the whole row's weighted sum. -/
theorem acc_done (c : Dev nD) (t : Fin cfg0.N) (h3 : t.val % 4 = 3) (r : Fin 1024) (i : Fin 128) :
    (outsAt0 (F := Ideal) m c t.val t.isLt).2.1 (ix2 r i)
      = ∑ n' : Fin 4096, wV m c (tb t) (row (tq t) r) n' * xV m c (tb t) n' i := by
  refine (acc_V m c t.val t.isLt r i).trans ?_
  refine (sum_upto_last (fun j => ∑ r' : Fin 1024, wV m c (tb t) (row (tq t) r) (row j r')
    * xV m c (tb t) (row j r') i) (tk t) h3).trans ?_
  exact (sum_tiles (fun n' => wV m c (tb t) (row (tq t) r) n' * xV m c (tb t) n' i)).symm

/-- At a last key tile the stored block, over the arrays the kernel reads. -/
theorem out_V (c : Dev nD) (t : Fin cfg0.N) (h3 : t.val % 4 = 3) (r : Fin 1024) (o : Fin 128) :
    (outsAt0 (F := Ideal) m c t.val t.isLt).1 (ix3 0 r o)
      = leaky ((∑ i : Fin 128, Ideal.div (∑ n' : Fin 4096, wV m c (tb t) (row (tq t) r) n' * xV m c (tb t) n' i)
            (max (∑ n' : Fin 4096, wV m c (tb t) (row (tq t) r) n') litEps)
            * pV m c (ix2 i o))
          + bV m c (ix2 0 o)) := by
  refine (out_last m c t h3 r o).trans ?_
  refine congrArg leaky (congrArg₂ (· + ·) (Finset.sum_congr rfl fun i _ => ?_) (iblk4_at m c t o))
  rw [acc_done m c t h3 r i, rowsum_done m c t h3 r]
  exact congrArg _ (iblk3_at m c t i o)

end Cert.KernelIdeal.KValue

end
-- ==== Proof.KiHostLayout.lean ====
/-
  The host's layout operations on the coordinate arrays, read at an index given by coordinates: three `[a, b, 1]`
  arrays joined along the last axis, an `[a, b]` array given a trailing unit axis by a broadcast, a scalar broadcast
  over `[a, b]`, an `[a, b, 1]` array cast to `[a, b]`, a one-element vector cast to a scalar, and one column cut
  from the last axis of an `[a, b, d]` array.
-/
import Idealize.ShloMosaic.Lib.ValueIdx
import Idealize.ShloMosaic.Lib.ValueLayout
import Idealize.ShloMosaic.Lib.Pipeline.Value

noncomputable section

namespace Cert.KernelIdeal.KValue

open Idealize.ShloMosaic Idealize.ShloMosaic.ValueIdx
open scoped BigOperators

variable {α : Type}

/-- Three `[a, b, 1]` arrays joined along the last axis read, at `(p, q, k)`, the `k`-th of them at `(p, q, 0)`. -/
theorem concatenate3_ab1_apply {a b : ℕ} (u0 u1 u2 : (⟨3, ![a, b, 1]⟩ : Shape).Idx → α)
    (h : Shape.Concatenates
      (([⟨⟨3, ![a, b, 1]⟩, u0⟩, ⟨⟨3, ![a, b, 1]⟩, u1⟩, ⟨⟨3, ![a, b, 1]⟩, u2⟩] : List ((s : Shape) × (s.Idx → α))).map (·.1))
      ⟨3, ![a, b, 3]⟩ 2)
    (p : Fin a) (q : Fin b) (k : Fin 3) :
    concatenate ⟨3, ![a, b, 3]⟩ 2 [⟨⟨3, ![a, b, 1]⟩, u0⟩, ⟨⟨3, ![a, b, 1]⟩, u1⟩, ⟨⟨3, ![a, b, 1]⟩, u2⟩] h (ix3 p q k)
      = (![u0, u1, u2] k) (ix3 p q (0 : Fin 1)) := by
  have hi : ∀ k' : Fin 3, ∀ c : Fin 3, c ≠ 2 → ((ix3 p q (0 : Fin 1) : (⟨3, ![a, b, 1]⟩ : Shape).Idx) c).val
      = ((ix3 p q k' : (⟨3, ![a, b, 3]⟩ : Shape).Idx) c).val := fun k' c hc => by
    match c with
    | ⟨0, _⟩ => rfl
    | ⟨1, _⟩ => rfl
    | ⟨2, _⟩ => exact absurd rfl hc
  match k with
  | ⟨0, _⟩ =>
    exact concatenate_apply_piece 2 _ h _ 0 (show 0 < 3 by decide) ⟨3, ![a, b, 1]⟩ u0 rfl rfl 0 rfl (ix3 p q 0) (hi 0) rfl
  | ⟨1, _⟩ =>
    exact concatenate_apply_piece 2 _ h _ 1 (show 1 < 3 by decide) ⟨3, ![a, b, 1]⟩ u1 rfl rfl 1 rfl (ix3 p q 0) (hi 1) rfl
  | ⟨2, _⟩ =>
    exact concatenate_apply_piece 2 _ h _ 2 (show 2 < 3 by decide) ⟨3, ![a, b, 1]⟩ u2 rfl rfl 2 rfl (ix3 p q 0) (hi 2) rfl

/-- An `[a, b]` array broadcast to `[a, b, 1]` along its own two axes reads, at `(p, q, u)`, the operand at `(p, q)`. -/
theorem broadcastInDim_ab_ab1_apply {a b : ℕ} (x : (⟨2, ![a, b]⟩ : Shape).Idx → α)
    (h : (⟨2, ![a, b]⟩ : Shape).BroadcastsInDim ⟨3, ![a, b, 1]⟩ ![0, 1]) (p : Fin a) (q : Fin b) (u : Fin 1) :
    broadcastInDim ⟨3, ![a, b, 1]⟩ ![0, 1] h x (ix3 p q u) = x (ix2 p q) := by
  refine broadcastInDim_apply _ h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- A scalar broadcast over `[a, b]` reads the scalar everywhere. -/
theorem broadcastInDim_scalar_ab_apply {a b : ℕ} (x : (⟨0, ![]⟩ : Shape).Idx → α)
    (h : (⟨0, ![]⟩ : Shape).BroadcastsInDim ⟨2, ![a, b]⟩ ![]) (j : (⟨2, ![a, b]⟩ : Shape).Idx) :
    broadcastInDim ⟨2, ![a, b]⟩ ![] h x j = x ix0 :=
  broadcastInDim_apply _ h x j ix0 fun ax => ax.elim0

/-- An `[a, b, 1]` array cast to `[a, b]` reads, at `(p, q)`, the operand at `(p, q, 0)`. -/
theorem shapeCast_ab1_ab_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    rw [Nat.mul_one, Nat.add_zero])

/-- A one-element vector cast to a scalar reads its element. -/
theorem shapeCast_1_scalar_apply (x : (⟨1, ![1]⟩ : Shape).Idx → α) (h : (⟨1, ![1]⟩ : Shape).ShapeCasts ⟨0, ![]⟩)
    (j : (⟨0, ![]⟩ : Shape).Idx) : shapeCast ⟨0, ![]⟩ x h j = x (ix1 (0 : Fin 1)) :=
  shapeCast_apply x h _ _ (by
    rw [Shape.rowMajor_val_one]
    have := ((⟨0, ![]⟩ : Shape).rowMajor j).isLt
    show 0 = ((⟨0, ![]⟩ : Shape).rowMajor j).val
    have hn : (⟨0, ![]⟩ : Shape).numel = 1 := rfl
    omega)

/-- One column cut at `o` from the last axis of an `[a, b, d]` array reads, at `(p, q, u)`, the source at `(p, q, k)` with
    `k = o + u`. -/
theorem slice3_axis2_apply {a b d m : ℕ} (o : ℕ) (X : (⟨3, ![a, b, d]⟩ : Shape).Idx → α)
    (h : (⟨3, ![a, b, d]⟩ : Shape).Slices ![0, 0, o] ⟨3, ![a, b, m]⟩)
    (p : Fin a) (q : Fin b) (u : Fin m) (k : Fin d) (hk : k.val = o + u.val) :
    extractStridedSlice ⟨3, ![a, b, m]⟩ ![0, 0, o] X h (ix3 p q u) = X (ix3 p q k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.KernelIdeal.KValue

end
-- ==== Proof.KiHostOps.lean ====
/-
  What the host operations before the launch leave in the five arrays the kernel stages, read at an index: the query
  rows, the key columns, the features, the projection's matrix transposed and the bias as a row, each as a function of
  the argument arrays.
-/
import proofs.«420210_j26852135535196_3_alg».proof.Proof.Gen.KernelIdeal.Launch
import proofs.«420210_j26852135535196_3_alg».proof.Proof.Spec
import proofs.«420210_j26852135535196_3_alg».proof.Proof.KiHostLayout
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KValue

open Cert.KernelIdeal Cert.KernelIdeal.Gen Cert.GaussAgg Idealize.ShloMosaic Idealize.ShloMosaic.ValueIdx Idealize.ShloMosaic.TcCoe
open Idealize.SL.Sem
open scoped BigOperators

/-- The third of three listed references, by computation. -/
theorem vec3_two {α : Type} (x y z : α) : (![x, y, z] : Fin 3 → α) 2 = z := rfl

/-- The contents of one buffer after a line of host operations, in one pass, an operation of several operands read
    operand by operand. -/
macro "after_results3" : tactic =>
  `(tactic| (simp (disch := decide) only [StableHlo.after_cons, StableHlo.after_nil,
      StableHlo.nullary_result', StableHlo.unary_result', StableHlo.binary_result', StableHlo.reshape_result', StableHlo.nary_result',
      StableHlo.nullary_result_ne', StableHlo.unary_result_ne', StableHlo.binary_result_ne', StableHlo.reshape_result_ne',
      StableHlo.nary_result_ne', Matrix.cons_val_zero, Matrix.cons_val_one, vec3_two]))

/-- Three `[a, b, 1]` arrays joined along the last axis, read at the last coordinate `0`, `1`, `2`: the first, the
    second, the third of them at `(p, q, 0)`. -/
theorem concatenate3_ab1_apply_0 {α : Type} {a b : ℕ} (u0 u1 u2 : (⟨3, ![a, b, 1]⟩ : Shape).Idx → α)
    (h : Shape.Concatenates
      (([⟨⟨3, ![a, b, 1]⟩, u0⟩, ⟨⟨3, ![a, b, 1]⟩, u1⟩, ⟨⟨3, ![a, b, 1]⟩, u2⟩] : List ((s : Shape) × (s.Idx → α))).map (·.1))
      ⟨3, ![a, b, 3]⟩ 2) (p : Fin a) (q : Fin b) :
    concatenate ⟨3, ![a, b, 3]⟩ 2 [⟨⟨3, ![a, b, 1]⟩, u0⟩, ⟨⟨3, ![a, b, 1]⟩, u1⟩, ⟨⟨3, ![a, b, 1]⟩, u2⟩] h (ix3 p q 0)
      = u0 (ix3 p q (0 : Fin 1)) := concatenate3_ab1_apply u0 u1 u2 h p q 0
theorem concatenate3_ab1_apply_1 {α : Type} {a b : ℕ} (u0 u1 u2 : (⟨3, ![a, b, 1]⟩ : Shape).Idx → α)
    (h : Shape.Concatenates
      (([⟨⟨3, ![a, b, 1]⟩, u0⟩, ⟨⟨3, ![a, b, 1]⟩, u1⟩, ⟨⟨3, ![a, b, 1]⟩, u2⟩] : List ((s : Shape) × (s.Idx → α))).map (·.1))
      ⟨3, ![a, b, 3]⟩ 2) (p : Fin a) (q : Fin b) :
    concatenate ⟨3, ![a, b, 3]⟩ 2 [⟨⟨3, ![a, b, 1]⟩, u0⟩, ⟨⟨3, ![a, b, 1]⟩, u1⟩, ⟨⟨3, ![a, b, 1]⟩, u2⟩] h (ix3 p q 1)
      = u1 (ix3 p q (0 : Fin 1)) := concatenate3_ab1_apply u0 u1 u2 h p q 1
theorem concatenate3_ab1_apply_2 {α : Type} {a b : ℕ} (u0 u1 u2 : (⟨3, ![a, b, 1]⟩ : Shape).Idx → α)
    (h : Shape.Concatenates
      (([⟨⟨3, ![a, b, 1]⟩, u0⟩, ⟨⟨3, ![a, b, 1]⟩, u1⟩, ⟨⟨3, ![a, b, 1]⟩, u2⟩] : List ((s : Shape) × (s.Idx → α))).map (·.1))
      ⟨3, ![a, b, 3]⟩ 2) (p : Fin a) (q : Fin b) :
    concatenate ⟨3, ![a, b, 3]⟩ 2 [⟨⟨3, ![a, b, 1]⟩, u0⟩, ⟨⟨3, ![a, b, 1]⟩, u1⟩, ⟨⟨3, ![a, b, 1]⟩, u2⟩] h (ix3 p q 2)
      = u2 (ix3 p q (0 : Fin 1)) := concatenate3_ab1_apply u0 u1 u2 h p q 2

/-! ## The pieces the coordinate rows are made of -/

/-- The first coordinate's plane: the column `0` of the coordinates, as an `[4, 4096]` array. -/
theorem coord0_at (A : S4x4096x2.Idx → EReal) (b : Fin 4) (n : Fin 4096) :
    shapeCast S4x4096 (extractStridedSlice S4x4096x1 ![0, 0, 0] A slices_S4x4096x2_S4x4096x1_0_0_0) shapeCasts_S4x4096x1_S4x4096 (ix2 b n)
      = A (ix3 b n 0) :=
  (shapeCast_ab1_ab_apply _ _ b n).trans (slice3_axis2_apply 0 A _ b n 0 0 rfl)

/-- The second coordinate's plane: the column `1`. -/
theorem coord1_at (A : S4x4096x2.Idx → EReal) (b : Fin 4) (n : Fin 4096) :
    shapeCast S4x4096 (extractStridedSlice S4x4096x1 ![0, 0, 1] A slices_S4x4096x2_S4x4096x1_0_0_1) shapeCasts_S4x4096x1_S4x4096 (ix2 b n)
      = A (ix3 b n 1) :=
  (shapeCast_ab1_ab_apply _ _ b n).trans (slice3_axis2_apply 1 A _ b n 0 1 rfl)

/-- The width as a scalar. -/
theorem width_at (sg : S1.Idx → EReal) (j : S_.Idx) : shapeCast S_ sg shapeCasts_S1_S_ j = sof sg :=
  shapeCast_1_scalar_apply sg _ j

/-- One over the width squared, broadcast over the points. -/
theorem invS2_at (sg : S1.Idx → EReal) (j : S4x4096.Idx) :
    broadcastInDim S4x4096 ![] bcast_S_S4x4096
        (Host.divf (constant (F := Ideal) S_ .f32 0x3F800000#32)
          (mulf (shapeCast S_ sg shapeCasts_S1_S_ : FVec Ideal S_ .f32) (shapeCast S_ sg shapeCasts_S1_S_))) j
      = invS2 (sof sg) := by
  refine (broadcastInDim_scalar_ab_apply _ _ j).trans ?_
  show Ideal.div litOne (shapeCast S_ sg shapeCasts_S1_S_ ix0 * shapeCast S_ sg shapeCasts_S1_S_ ix0) = _
  rw [width_at]
  rfl

/-- Minus a half over the width squared, broadcast over the points. -/
theorem negHalfInvS2_at (sg : S1.Idx → EReal) (j : S4x4096.Idx) :
    broadcastInDim S4x4096 ![] bcast_S_S4x4096
        (mulf (constant (F := Ideal) S_ .f32 0xBF000000#32)
          (Host.divf (constant (F := Ideal) S_ .f32 0x3F800000#32)
            (mulf (shapeCast S_ sg shapeCasts_S1_S_ : FVec Ideal S_ .f32) (shapeCast S_ sg shapeCasts_S1_S_)))) j
      = negHalfInvS2 (sof sg) := by
  refine (broadcastInDim_scalar_ab_apply _ _ j).trans ?_
  show litNegHalf * Ideal.div litOne (shapeCast S_ sg shapeCasts_S1_S_ ix0 * shapeCast S_ sg shapeCasts_S1_S_ ix0) = _
  rw [width_at]
  rfl

/-! ## The five staged arrays -/

variable (m : (ℓ : Loc nD τ sig) → Buf (Elt Ideal) ℓ) (c : Dev nD)

/-- The query rows `(x / s², y / s², 1)`. -/
theorem cq_at (b : Fin 4) (n : Fin 4096) (k : Fin 3) :
    (StableHlo.after (hostOps0 (F := Ideal)) (fun b => m (c, b)) (Proc.devRef .tc main_v21) : S4x4096x3.Idx → EReal) (ix3 b n k)
      = cqA (Cof (m ((c : Thread nD τ).loc main_arg1))) (sof (m ((c : Thread nD τ).loc main_arg4))) b n k := by
  dsimp only [hostOps0]
  after_results3
  match k with
  | ⟨0, _⟩ =>
    refine (concatenate3_ab1_apply_0 _ _ _ _ b n).trans ?_
    refine (broadcastInDim_ab_ab1_apply _ _ b n 0).trans ?_
    exact congrArg₂ (· * ·) (coord0_at _ b n) (invS2_at _ _)
  | ⟨1, _⟩ =>
    refine (concatenate3_ab1_apply_1 _ _ _ _ b n).trans ?_
    refine (broadcastInDim_ab_ab1_apply _ _ b n 0).trans ?_
    exact congrArg₂ (· * ·) (coord1_at _ b n) (invS2_at _ _)
  | ⟨2, _⟩ =>
    refine (concatenate3_ab1_apply_2 _ _ _ _ b n).trans ?_
    refine (broadcastInDim_ab_ab1_apply _ _ b n 0).trans ?_
    exact broadcastInDim_scalar_ab_apply _ _ _

/-- The key columns `(x, y, -|p|² / (2 s²))`. -/
theorem ck_at (b : Fin 4) (k : Fin 3) (n : Fin 4096) :
    (StableHlo.after (hostOps0 (F := Ideal)) (fun b => m (c, b)) (Proc.devRef .tc main_v28) : S4x3x4096.Idx → EReal) (ix3 b k n)
      = ckA (Cof (m ((c : Thread nD τ).loc main_arg1))) (sof (m ((c : Thread nD τ).loc main_arg4))) b n k := by
  dsimp only [hostOps0]
  after_results3
  refine (transpose_ix3_021_apply _ _ b k n).trans ?_
  after_results3
  match k with
  | ⟨0, _⟩ =>
    refine (concatenate3_ab1_apply_0 _ _ _ _ b n).trans ?_
    refine (broadcastInDim_ab_ab1_apply _ _ b n 0).trans ?_
    exact coord0_at _ b n
  | ⟨1, _⟩ =>
    refine (concatenate3_ab1_apply_1 _ _ _ _ b n).trans ?_
    refine (broadcastInDim_ab_ab1_apply _ _ b n 0).trans ?_
    exact coord1_at _ b n
  | ⟨2, _⟩ =>
    refine (concatenate3_ab1_apply_2 _ _ _ _ b n).trans ?_
    refine (broadcastInDim_ab_ab1_apply _ _ b n 0).trans ?_
    exact congrArg₂ (· * ·)
      (congrArg₂ (· + ·) (congrArg₂ (· * ·) (coord0_at _ b n) (coord0_at _ b n))
        (congrArg₂ (· * ·) (coord1_at _ b n) (coord1_at _ b n)))
      (negHalfInvS2_at _ _)

/-- The features, their format changed. -/
theorem xb_at (b : Fin 4) (n : Fin 4096) (i : Fin 128) :
    (StableHlo.after (hostOps0 (F := Ideal)) (fun b => m (c, b)) (Proc.devRef .tc main_v29) : S4x4096x128.Idx → EReal) (ix3 b n i)
      = m ((c : Thread nD τ).loc main_arg0) (ix3 b n i) := by
  have e : (StableHlo.after (hostOps0 (F := Ideal)) (fun b => m (c, b)) (Proc.devRef .tc main_v29) : S4x4096x128.Idx → EReal)
      = (m ((c : Thread nD τ).loc main_arg0) : S4x4096x128.Idx → EReal) := by
    dsimp only [hostOps0]; after_results <;> rfl
  rw [e]

/-- The projection's matrix, transposed. -/
theorem wt_at (i o : Fin 128) :
    (StableHlo.after (hostOps0 (F := Ideal)) (fun b => m (c, b)) (Proc.devRef .tc main_v0) : S128x128.Idx → EReal) (ix2 i o)
      = m ((c : Thread nD τ).loc main_arg2) (ix2 o i) := by
  have e : (StableHlo.after (hostOps0 (F := Ideal)) (fun b => m (c, b)) (Proc.devRef .tc main_v0) : S128x128.Idx → EReal)
      = transpose S128x128 [1, 0] (m ((c : Thread nD τ).loc main_arg2) : S128x128.Idx → EReal) transposes_S128x128_S128x128_1_0 := by
    dsimp only [hostOps0]; after_results <;> rfl
  rw [e]
  exact transpose_ix2_apply _ _ i o

/-- The bias as a row. -/
theorem b2_at (o : Fin 128) :
    (StableHlo.after (hostOps0 (F := Ideal)) (fun b => m (c, b)) (Proc.devRef .tc main_v1) : S1x128.Idx → EReal) (ix2 0 o)
      = m ((c : Thread nD τ).loc main_arg3) (ix1 o) := by
  have e : (StableHlo.after (hostOps0 (F := Ideal)) (fun b => m (c, b)) (Proc.devRef .tc main_v1) : S1x128.Idx → EReal)
      = shapeCast S1x128 (m ((c : Thread nD τ).loc main_arg3) : S128.Idx → EReal) shapeCasts_S128_S1x128 := by
    dsimp only [hostOps0]; after_results <;> rfl
  rw [e]
  exact shapeCast_a_1a_apply _ _ 0 o

end Cert.KernelIdeal.KValue

end
-- ==== Proof.KiAccum.lean ====
/-
  What the two accumulators hold after each grid point, and what the last key tile stores, in the specification's
  terms.  Along a run of four key tiles (the batch and the query tile fixed) the row-sum accumulator after tile `k`
  holds, for query row `n`, the sum of the weights `wK n m` over the key rows `m` of tiles `0 … k`, and the weighted-sum
  accumulator the sum of `wK n m · X m i` over the same rows: the first tile starts both from zero, each later tile
  adds its own 1024 rows to what the tile before left (a sum over the extended reals may be regrouped freely).  After
  the fourth tile the sums run over all 4096 key rows, and the stored block is the specification's `outK`.
-/
import proofs.«420210_j26852135535196_3_alg».proof.Proof.KiFrame
import proofs.«420210_j26852135535196_3_alg».proof.Proof.KiPieces
import proofs.«420210_j26852135535196_3_alg».proof.Proof.KiBlocks
import proofs.«420210_j26852135535196_3_alg».proof.Proof.KiPayload
import proofs.«420210_j26852135535196_3_alg».proof.Proof.Spec
import proofs.«420210_j26852135535196_3_alg».proof.Proof.KiAccumSum
import proofs.«420210_j26852135535196_3_alg».proof.Proof.KiAccumCore
import proofs.«420210_j26852135535196_3_alg».proof.Proof.KiHostOps

set_option maxRecDepth 16384

noncomputable section

namespace Cert.KernelIdeal.KValue

open Cert.KernelIdeal Cert.KernelIdeal.Gen Cert.KernelIdeal.Fr Cert.GaussAgg
open Idealize.ShloMosaic Idealize.ShloMosaic.TcCoe Idealize.ShloMosaic.ValueIdx Idealize.SL.Sem
open scoped BigOperators

variable (m : (ℓ : Loc nD τ sig) → Buf (Elt Ideal) ℓ)

/-- The argument arrays of core `c` in the specification's indexing. -/
abbrev Xa (c : Dev nD) : Fin 4 → Fin 4096 → Fin 128 → EReal := Xof (m ((c : Thread nD τ).loc main_arg0))
abbrev Ca (c : Dev nD) : Fin 4 → Fin 4096 → Fin 2 → EReal := Cof (m ((c : Thread nD τ).loc main_arg1))
abbrev Wa (c : Dev nD) : Fin 128 → Fin 128 → EReal := Wof (m ((c : Thread nD τ).loc main_arg2))
abbrev Ba (c : Dev nD) : Fin 128 → EReal := Bof (m ((c : Thread nD τ).loc main_arg3))
abbrev sa (c : Dev nD) : EReal := sof (m ((c : Thread nD τ).loc main_arg4))

/-! The regrouping of a sum over the 4096 rows by tiles, `sum_tiles`, is the imported sums module's. -/

/-- The weight over the arrays the kernel reads is the specification's weight over the coordinates and the width. -/
theorem wV_eq (c : Dev nD) (b : Fin 4) (n n' : Fin 4096) : wV m c b n n' = wK (Ca m c) (sa m c) b n n' := by
  unfold wV wK argK
  refine congrArg Ideal.exp (Finset.sum_congr rfl fun k _ => ?_)
  exact congrArg₂ (· * ·) (cq_at m c b n k) (ck_at m c b k n')

/-- The features the kernel reads are the argument's. -/
theorem xV_eq (c : Dev nD) (b : Fin 4) (n' : Fin 4096) (i : Fin 128) : xV m c b n' i = Xa m c b n' i :=
  xb_at m c b n' i

/-- The row-sum accumulator after point `t`: the weights of the key rows of the tiles up to `t`'s. -/
theorem rowsum_at (c : Dev nD) (t : Fin cfg0.N) (r : Fin 1024) :
    (outsAt0 (F := Ideal) m c t.val t.isLt).2.2 (ix2 r 0)
      = ∑ j ∈ Finset.univ.filter (fun j : Fin 4 => j ≤ tk t), ∑ r' : Fin 1024,
          wK (Ca m c) (sa m c) (tb t) (row (tq t) r) (row j r') := by
  refine (rowsum_V m c t.val t.isLt r).trans ?_
  exact Finset.sum_congr rfl fun j _ => Finset.sum_congr rfl fun r' _ => wV_eq m c (tb t) (row (tq t) r) (row j r')

/-- The weighted-sum accumulator after point `t`. -/
theorem acc_at (c : Dev nD) (t : Fin cfg0.N) (r : Fin 1024) (i : Fin 128) :
    (outsAt0 (F := Ideal) m c t.val t.isLt).2.1 (ix2 r i)
      = ∑ j ∈ Finset.univ.filter (fun j : Fin 4 => j ≤ tk t), ∑ r' : Fin 1024,
          wK (Ca m c) (sa m c) (tb t) (row (tq t) r) (row j r') * Xa m c (tb t) (row j r') i := by
  refine (acc_V m c t.val t.isLt r i).trans ?_
  exact Finset.sum_congr rfl fun j _ => Finset.sum_congr rfl fun r' _ =>
    congrArg₂ (· * ·) (wV_eq m c (tb t) (row (tq t) r) (row j r')) (xV_eq m c (tb t) (row j r') i)

/-- At a last key tile the stored block is the specification's value at the block's rows. -/
theorem out_at (c : Dev nD) (t : Fin cfg0.N) (h3 : t.val % 4 = 3) (r : Fin 1024) (o : Fin 128) :
    (outsAt0 (F := Ideal) m c t.val t.isLt).1 (ix3 0 r o)
      = outK (Xa m c) (Ca m c) (Wa m c) (Ba m c) (sa m c) (tb t) (row (tq t) r) o := by
  refine (out_V m c t h3 r o).trans ?_
  unfold outK projK resK rowK accK
  refine congrArg leaky (congrArg₂ (· + ·) (Finset.sum_congr rfl fun i _ => ?_) (b2_at m c o))
  refine congrArg₂ (· * ·) (congrArg₂ Ideal.div ?_ (congrArg (max · litEps) ?_)) (wt_at m c i o)
  · exact Finset.sum_congr rfl fun n' _ =>
      congrArg₂ (· * ·) (wV_eq m c (tb t) (row (tq t) r) n') (xV_eq m c (tb t) n' i)
  · exact Finset.sum_congr rfl fun n' _ => wV_eq m c (tb t) (row (tq t) r) n'

end Cert.KernelIdeal.KValue

end
-- ==== Proof.KiValue.lean ====
/-
  The idealized kernel's run, read: the result array ends at the specification's function of the argument arrays.

  The output window's block at grid point (batch, query tile, key tile) is rows 1024 · (query tile) … + 1023 of its
  batch; it is written back only at the last key tile, and there it holds the specification's value at exactly those
  rows.  The sixteen (batch, query tile) pairs tile the whole array, so the array ends holding the specification's
  function everywhere.
-/
import proofs.«420210_j26852135535196_3_alg».proof.Defs
import proofs.«420210_j26852135535196_3_alg».proof.Proof.KiFrame
import proofs.«420210_j26852135535196_3_alg».proof.Proof.KiBlocks
import proofs.«420210_j26852135535196_3_alg».proof.Proof.KiAccum
import proofs.«420210_j26852135535196_3_alg».proof.Proof.Spec
import Idealize.ShloMosaic.Lib.Pipeline.Value

set_option maxRecDepth 16384

noncomputable section

namespace Cert.KernelIdeal.KValue

open Cert.KernelIdeal Cert.KernelIdeal.Gen Cert.KernelIdeal.Fr Cert.GaussAgg
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification's result array over core `c`'s argument arrays. -/
abbrev result (c : Dev nD) : S4x4096x128.Idx → EReal :=
  kernelArr (m ((c : Thread nD τ).loc main_arg0)) (m ((c : Thread nD τ).loc main_arg1)) (m ((c : Thread nD τ).loc main_arg2))
    (m ((c : Thread nD τ).loc main_arg3)) (m ((c : Thread nD τ).loc main_arg4))

/-- The output window sits at (batch, query tile, 0). -/
theorem idx5_facts : ∀ t : Fin cfg0.N,
    win0_5.index t (0 : Fin 3) = t.val / 16 ∧ win0_5.index t (1 : Fin 3) = t.val / 4 % 4 ∧ win0_5.index t (2 : Fin 3) = 0 :=
  (by decide +kernel : ∀ t : Fin grid0.N, _)

/-- What a last key tile writes back is its block of the specification's array. -/
theorem flushed5_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  obtain ⟨e0, e1, e2⟩ := idx5_facts t
  show (cfg0.win 5).cut (grid0.coords t) ((dats m 0 c).after 5 t) = _
  rw [after0_5]
  funext j
  obtain ⟨z, r, o, rfl⟩ : ∃ (z : Fin 1) (r : Fin 1024) (o : Fin 128), j = ix3 z r o := ⟨j 0, j 1, j 2, eq_ix3 j⟩
  obtain rfl : z = 0 := Subsingleton.elim _ _
  show (outsAt0 (F := Ideal) m c t.val t.isLt).1 (ix3 0 r o) = result m c (((cfg0.win 5).blk t).view.emb (ix3 0 r o))
  rw [out_at m c t h3 r o]
  have he : ((cfg0.win 5).blk t).view.emb (ix3 (0 : Fin 1) r o) = ix3 (tb t) (row (tq t) r) o := by
    funext a; apply Fin.ext
    match a with
    | ⟨0, _⟩ => show win0_5.index t (0 : Fin 3) * 1 + 1 * 0 = t.val / 16; omega
    | ⟨1, _⟩ => show win0_5.index t (1 : Fin 3) * 1024 + 1 * r.val = 1024 * (t.val / 4 % 4) + r.val; omega
    | ⟨2, _⟩ => show win0_5.index t (2 : Fin 3) * 128 + 1 * o.val = o.val; omega
  rw [he]
  exact (kernelArr_apply _ _ _ _ _ (tb t) (row (tq t) r) o).symm

/-- An index of the result array is in point `t`'s block iff each coordinate is in the block's range on its axis. -/
theorem mem_blk5 (t : Fin cfg0.N) (i : S4x4096x128.Idx) :
    i ∈ ((cfg0.win 5).blk t).view.set ↔ ∀ a : Fin 3, win0_5.index t a * S1x1024x128.size a ≤ (i a).val ∧ (i a).val < win0_5.index t a * S1x1024x128.size a + S1x1024x128.size a := by
  show i ∈ ((View.whole main_v30).slice (win0_5.rect t)).set ↔ _
  rw [View.set_slice_whole, Rect.mem_set_unit]
  exact Iff.rfl

/-- Every index lies in the block of the last-key-tile point of its batch and query tile. -/
theorem cover5 (i : S4x4096x128.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 128 := (i 2).isLt
  have hlt : 16 * (i 0).val + 4 * ((i 1).val / 1024) + 3 < cfg0.N := by
    show _ < grid0.N; rw [N_0]; omega
  refine ⟨⟨16 * (i 0).val + 4 * ((i 1).val / 1024) + 3, hlt⟩, (flush0_5 _).mpr (by show (16 * (i 0).val + 4 * ((i 1).val / 1024) + 3) % 4 = 3; omega), ?_⟩
  obtain ⟨e0, e1, e2⟩ := idx5_facts ⟨16 * (i 0).val + 4 * ((i 1).val / 1024) + 3, hlt⟩
  dsimp only at e0 e1 e2
  rw [mem_blk5]
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 1024 ≤ (i 1).val ∧ (i 1).val < win0_5.index _ (1 : Fin 3) * 1024 + 1024; omega
  | ⟨2, _⟩ => show win0_5.index _ (2 : Fin 3) * 128 ≤ (i 2).val ∧ (i 2).val < win0_5.index _ (2 : Fin 3) * 128 + 128; omega

/-- So the result array ends holding the specification's function. -/
theorem final5 (c : Dev nD) : (dats m 0 c).arrAt 5 cfg0.N = result m c :=
  (dats m 0 c).arrAt_eq_of_cover 5 (result m c) (flushed5_eq m c) (cover5)

/-- Every weakly fair execution of the idealized kernel ends with its result at the specification's function of
    the argument arrays, the arguments unchanged. -/
theorem run_value :
    θ_run (defs (F := Ideal)) (onTc (τ := τ) (main (F := Ideal))) ⟨m, fun _ => 0, ρ⟩ fun r => ∀ c : Dev nD,
      r.2.mem ((c.tc : Thread nD τ).loc main_v30)
          = Cert.GaussAgg.kernelArr (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).1 5).trans (final5 m c),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c)⟩)
    (run_main (F := Ideal) m ρ)

end Cert.KernelIdeal.KValue

end
-- ==== Proof.RefRun.lean ====
/-
  The reference program as the list of its forty-five host operations, the two outlined functions' operations
  in line at the call (the ramp's six, then the selection's one), and its run: every weakly fair execution ends
  with each buffer at the fold of the operations' results over the launch contents.
-/
import proofs.«420210_j26852135535196_3_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's operations in order: the thirty-eight of the entry function, then the ramp's six over the
    call's buffers (the zero, its broadcast, the comparison, the slope converted, its broadcast, the product)
    and the selection's one, which writes the result. -/
abbrev ops : List (HloOp τ sig (Elt F)) :=
  [ binary main_arg0 main_arg2 main_v0 ((fun l r => Host.dotGeneral dot_S4x4096x128_S128x128_S4x4096x128_2_1_01_0_n_n none l r) : (⟨S4x4096x128, .f32⟩ : BufTy).Contents (Elt F) → (⟨S128x128, .f32⟩ : BufTy).Contents (Elt F) → (⟨S4x4096x128, .f32⟩ : BufTy).Contents (Elt F)),
    unary main_arg3 main_v1 (broadcastInDim S1x1x128 ![2] bcast_S128_S1x1x128_2 : (⟨S128, .f32⟩ : BufTy).Contents (Elt F) → (⟨S1x1x128, .f32⟩ : BufTy).Contents (Elt F)),
    unary main_v1 main_v2 (broadcastInDim S4x4096x128 ![0, 1, 2] bcast_S1x1x128_S4x4096x128_0_1_2 : (⟨S1x1x128, .f32⟩ : BufTy).Contents (Elt F) → (⟨S4x4096x128, .f32⟩ : BufTy).Contents (Elt F)),
    binary main_v0 main_v2 main_v3 (addf : (⟨S4x4096x128, .f32⟩ : BufTy).Contents (Elt F) → (⟨S4x4096x128, .f32⟩ : BufTy).Contents (Elt F) → (⟨S4x4096x128, .f32⟩ : BufTy).Contents (Elt F)),
    binary main_arg1 main_arg1 main_v4 (mulf : (⟨S4x4096x2, .f32⟩ : BufTy).Contents (Elt F) → (⟨S4x4096x2, .f32⟩ : BufTy).Contents (Elt F) → (⟨S4x4096x2, .f32⟩ : BufTy).Contents (Elt F)),
    nullary main_cst (constant S_ .f32 0x00000000#32),
    binary main_v4 main_cst main_v5 ((fun x v => Host.reduceAdd x v reducesTo_S4x4096x2_S4x4096_d2 h_S_) : (⟨S4x4096x2, .f32⟩ : BufTy).Contents (Elt F) → (⟨S_, .f32⟩ : BufTy).Contents (Elt F) → (⟨S4x4096, .f32⟩ : BufTy).Contents (Elt F)),
    binary main_arg1 main_arg1 main_v6 ((fun l r => Host.dotGeneral dot_S4x4096x2_S4x4096x2_S4x4096x4096_2_2_1_1_0_0 none l r) : (⟨S4x4096x2, .f32⟩ : BufTy).Contents (Elt F) → (⟨S4x4096x2, .f32⟩ : BufTy).Contents (Elt F) → (⟨S4x4096x4096, .f32⟩ : BufTy).Contents (Elt F)),
    unary main_v5 main_v7 (broadcastInDim S4x4096x1 ![0, 1] bcast_S4x4096_S4x4096x1_0_1 : (⟨S4x4096, .f32⟩ : BufTy).Contents (Elt F) → (⟨S4x4096x1, .f32⟩ : BufTy).Contents (Elt F)),
    unary main_v5 main_v8 (broadcastInDim S4x1x4096 ![0, 2] bcast_S4x4096_S4x1x4096_0_2 : (⟨S4x4096, .f32⟩ : BufTy).Contents (Elt F) → (⟨S4x1x4096, .f32⟩ : BufTy).Contents (Elt F)),
    unary main_v7 main_v9 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    unary main_v8 main_v10 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F)),
    binary main_v9 main_v10 main_v11 (addf : (⟨S4x4096x4096, .f32⟩ : BufTy).Contents (Elt F) → (⟨S4x4096x4096, .f32⟩ : BufTy).Contents (Elt F) → (⟨S4x4096x4096, .f32⟩ : BufTy).Contents (Elt F)),
    nullary main_cst_0 (constant S_ .f32 0x40000000#32),
    unary main_cst_0 main_v12 (broadcastInDim S4x4096x4096 ![] bcast_S_S4x4096x4096 : (⟨S_, .f32⟩ : BufTy).Contents (Elt F) → (⟨S4x4096x4096, .f32⟩ : BufTy).Contents (Elt F)),
    binary main_v12 main_v6 main_v13 (mulf : (⟨S4x4096x4096, .f32⟩ : BufTy).Contents (Elt F) → (⟨S4x4096x4096, .f32⟩ : BufTy).Contents (Elt F) → (⟨S4x4096x4096, .f32⟩ : BufTy).Contents (Elt F)),
    binary main_v11 main_v13 main_v14 (subf : (⟨S4x4096x4096, .f32⟩ : BufTy).Contents (Elt F) → (⟨S4x4096x4096, .f32⟩ : BufTy).Contents (Elt F) → (⟨S4x4096x4096, .f32⟩ : BufTy).Contents (Elt F)),
    nullary main_cst_1 (constant S_ .f32 0x00000000#32),
    unary main_cst_1 main_v15 (broadcastInDim S4x4096x4096 ![] bcast_S_S4x4096x4096 : (⟨S_, .f32⟩ : BufTy).Contents (Elt F) → (⟨S4x4096x4096, .f32⟩ : BufTy).Contents (Elt F)),
    binary main_v14 main_v15 main_v16 (maximumf : (⟨S4x4096x4096, .f32⟩ : BufTy).Contents (Elt F) → (⟨S4x4096x4096, .f32⟩ : BufTy).Contents (Elt F) → (⟨S4x4096x4096, .f32⟩ : BufTy).Contents (Elt F)),
    reshape main_arg4 main_v17 rfl shapeCasts_S1_S_,
    unary main_v16 main_v18 (Host.negf : (⟨S4x4096x4096, .f32⟩ : BufTy).Contents (Elt F) → (⟨S4x4096x4096, .f32⟩ : BufTy).Contents (Elt F)),
    nullary main_cst_2 (constant S_ .f32 0x40000000#32),
    binary main_cst_2 main_v17 main_v19 (mulf : (⟨S_, .f32⟩ : BufTy).Contents (Elt F) → (⟨S_, .f32⟩ : BufTy).Contents (Elt F) → (⟨S_, .f32⟩ : BufTy).Contents (Elt F)),
    binary main_v19 main_v17 main_v20 (mulf : (⟨S_, .f32⟩ : BufTy).Contents (Elt F) → (⟨S_, .f32⟩ : BufTy).Contents (Elt F) → (⟨S_, .f32⟩ : BufTy).Contents (Elt F)),
    unary main_v20 main_v21 (broadcastInDim S4x4096x4096 ![] bcast_S_S4x4096x4096 : (⟨S_, .f32⟩ : BufTy).Contents (Elt F) → (⟨S4x4096x4096, .f32⟩ : BufTy).Contents (Elt F)),
    binary main_v18 main_v21 main_v22 (Host.divf : (⟨S4x4096x4096, .f32⟩ : BufTy).Contents (Elt F) → (⟨S4x4096x4096, .f32⟩ : BufTy).Contents (Elt F) → (⟨S4x4096x4096, .f32⟩ : BufTy).Contents (Elt F)),
    unary main_v22 main_v23 (Host.exp : (⟨S4x4096x4096, .f32⟩ : BufTy).Contents (Elt F) → (⟨S4x4096x4096, .f32⟩ : BufTy).Contents (Elt F)),
    nullary main_cst_3 (constant S_ .f32 0x00000000#32),
    binary main_v23 main_cst_3 main_v24 ((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    unary main_v24 main_v25 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_4 (constant S_ .f32 0x2B8CBCCC#32),
    unary main_cst_4 main_v26 (broadcastInDim S4x4096x1 ![] bcast_S_S4x4096x1 : (⟨S_, .f32⟩ : BufTy).Contents (Elt F) → (⟨S4x4096x1, .f32⟩ : BufTy).Contents (Elt F)),
    binary main_v25 main_v26 main_v27 (maximumf : (⟨S4x4096x1, .f32⟩ : BufTy).Contents (Elt F) → (⟨S4x4096x1, .f32⟩ : BufTy).Contents (Elt F) → (⟨S4x4096x1, .f32⟩ : BufTy).Contents (Elt F)),
    unary main_v27 main_v28 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v23 main_v28 main_v29 (Host.divf : (⟨S4x4096x4096, .f32⟩ : BufTy).Contents (Elt F) → (⟨S4x4096x4096, .f32⟩ : BufTy).Contents (Elt F) → (⟨S4x4096x4096, .f32⟩ : BufTy).Contents (Elt F)),
    binary main_v29 main_v3 main_v30 ((fun l r => Host.dotGeneral dot_S4x4096x4096_S4x4096x128_S4x4096x128_2_1_1_2_0_0 none l r) : (⟨S4x4096x4096, .f32⟩ : BufTy).Contents (Elt F) → (⟨S4x4096x128, .f32⟩ : BufTy).Contents (Elt F) → (⟨S4x4096x128, .f32⟩ : BufTy).Contents (Elt F)),
    nullary main_cst_5 (constant S_ .f32 0x3C23D70A#32),
    TRef.nullary main_call0.cst (constant S_ .f32 0x00000000#32),
    TRef.unary main_call0.cst main_call0.v0 (broadcastInDim S4x4096x128 ![] bcast_S_S4x4096x128),
    TRef.binary (.of main_v30) main_call0.v0 main_call0.v1 (cmpf .oge),
    TRef.unary (.of main_cst_5) main_call0.v2 id,
    TRef.unary main_call0.v2 main_call0.v3 (broadcastInDim S4x4096x128 ![] bcast_S_S4x4096x128),
    TRef.binary main_call0.v3 (.of main_v30) main_call0.v4 mulf,
    TRef.ternary main_call0.v1 (.of main_v30) main_call0.v4 main_call0_call0.v0 select ]

-- forty-five binds re-associated
set_option maxRecDepth 2048 in
/-- The entry function is that straight line: the two functions unfolded at their calls, both sides are one
    chain of steps once sequencing is re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., binary_bufs_sub .., nullary_bufs_sub ..,
    binary_bufs_sub .., binary_bufs_sub .., unary_bufs_sub .., unary_bufs_sub .., unary_bufs_sub .., unary_bufs_sub ..,
    binary_bufs_sub .., nullary_bufs_sub .., unary_bufs_sub .., binary_bufs_sub .., binary_bufs_sub .., nullary_bufs_sub ..,
    unary_bufs_sub .., binary_bufs_sub .., reshape_bufs_sub .., unary_bufs_sub .., nullary_bufs_sub .., binary_bufs_sub ..,
    binary_bufs_sub .., unary_bufs_sub .., binary_bufs_sub .., unary_bufs_sub .., nullary_bufs_sub .., binary_bufs_sub ..,
    unary_bufs_sub .., nullary_bufs_sub .., unary_bufs_sub .., binary_bufs_sub .., unary_bufs_sub .., binary_bufs_sub ..,
    binary_bufs_sub .., nullary_bufs_sub .., nullary_bufs_sub .., unary_bufs_sub .., binary_bufs_sub .., unary_bufs_sub ..,
    unary_bufs_sub .., binary_bufs_sub .., ternary_bufs_sub ..⟩

/-- On every device, for any float values, from any memory with zero counters: every weakly fair execution of the
    program terminates, and every final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefValue

end
-- ==== Proof.RefStageDotA.lean ====
/-
  The first product read at an index: the features of a point against a row of the matrix, summed over the 128
  input channels.
-/
import proofs.«420210_j26852135535196_3_alg».proof.Proof.Gen.ReferenceIdeal
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx
open scoped BigOperators

/-! The operand indices of the product of `[4, 4096, 128]` by `[128, 128]` contracted over the last axis of each, axis
by axis: the left one reads the result's batch and point and the contraction index, the right one the result's channel and
the contraction index. -/

theorem lhs_dot_S4x4096x128_S128x128_S4x4096x128_2_1_01_0_n_n_0 (i : S4x4096x128.Idx) (q : dot_S4x4096x128_S128x128_S4x4096x128_2_1_01_0_n_n.contr.Idx) :
    (dot_S4x4096x128_S128x128_S4x4096x128_2_1_01_0_n_n.lhsIdx i q 0).val = (i 0).val := by
  unfold DotDims.lhsIdx
  rw [dif_neg (show ¬(0 : Fin S4x4096x128.rank) ∈ dot_S4x4096x128_S128x128_S4x4096x128_2_1_01_0_n_n.lhsBatch by decide), dif_pos (show (0 : Fin S4x4096x128.rank) ∈ dot_S4x4096x128_S128x128_S4x4096x128_2_1_01_0_n_n.lhsNonContracting by decide)]
  rfl

theorem lhs_dot_S4x4096x128_S128x128_S4x4096x128_2_1_01_0_n_n_1 (i : S4x4096x128.Idx) (q : dot_S4x4096x128_S128x128_S4x4096x128_2_1_01_0_n_n.contr.Idx) :
    (dot_S4x4096x128_S128x128_S4x4096x128_2_1_01_0_n_n.lhsIdx i q 1).val = (i 1).val := by
  unfold DotDims.lhsIdx
  rw [dif_neg (show ¬(1 : Fin S4x4096x128.rank) ∈ dot_S4x4096x128_S128x128_S4x4096x128_2_1_01_0_n_n.lhsBatch by decide), dif_pos (show (1 : Fin S4x4096x128.rank) ∈ dot_S4x4096x128_S128x128_S4x4096x128_2_1_01_0_n_n.lhsNonContracting by decide)]
  rfl

theorem lhs_dot_S4x4096x128_S128x128_S4x4096x128_2_1_01_0_n_n_2 (i : S4x4096x128.Idx) (q : dot_S4x4096x128_S128x128_S4x4096x128_2_1_01_0_n_n.contr.Idx) :
    (dot_S4x4096x128_S128x128_S4x4096x128_2_1_01_0_n_n.lhsIdx i q 2).val = (q ⟨0, by decide⟩).val :=
  dot_S4x4096x128_S128x128_S4x4096x128_2_1_01_0_n_n.lhsIdx_val_of_single rfl i q

theorem rhs_dot_S4x4096x128_S128x128_S4x4096x128_2_1_01_0_n_n_0 (i : S4x4096x128.Idx) (q : dot_S4x4096x128_S128x128_S4x4096x128_2_1_01_0_n_n.contr.Idx) :
    (dot_S4x4096x128_S128x128_S4x4096x128_2_1_01_0_n_n.rhsIdx i q 0).val = (i 2).val := by
  unfold DotDims.rhsIdx
  rw [dif_neg (show ¬(0 : Fin S128x128.rank) ∈ dot_S4x4096x128_S128x128_S4x4096x128_2_1_01_0_n_n.rhsBatch by decide), dif_pos (show (0 : Fin S128x128.rank) ∈ dot_S4x4096x128_S128x128_S4x4096x128_2_1_01_0_n_n.rhsNonContracting by decide)]
  rfl

theorem rhs_dot_S4x4096x128_S128x128_S4x4096x128_2_1_01_0_n_n_1 (i : S4x4096x128.Idx) (q : dot_S4x4096x128_S128x128_S4x4096x128_2_1_01_0_n_n.contr.Idx) :
    (dot_S4x4096x128_S128x128_S4x4096x128_2_1_01_0_n_n.rhsIdx i q 1).val = (q ⟨0, by decide⟩).val :=
  dot_S4x4096x128_S128x128_S4x4096x128_2_1_01_0_n_n.rhsIdx_val_of_single rfl i q

/-- The product at `(b, m, o)` is the sum over the input channel `i` of `x (b, m, i) * w (o, i)`. -/
theorem dot_xw_apply (x : FVec Ideal S4x4096x128 .f32) (w : FVec Ideal S128x128 .f32) (b : Fin 4) (m : Fin 4096) (o : Fin 128) :
    Host.dotGeneral dot_S4x4096x128_S128x128_S4x4096x128_2_1_01_0_n_n none x w (ix3 b m o) = ∑ i : Fin 128, x (ix3 b m i) * w (ix2 o i) := by
  simp only [Host.dotGeneral]
  rw [Ideal.dotGeneral_apply, ← Equiv.sum_comp (ValueIdx.contrEquiv1 dot_S4x4096x128_S128x128_S4x4096x128_2_1_01_0_n_n 128 rfl rfl).symm]
  refine Finset.sum_congr rfl fun k _ => ?_
  have hk := ValueIdx.contrEquiv1_symm_val dot_S4x4096x128_S128x128_S4x4096x128_2_1_01_0_n_n 128 rfl rfl k
  have el : dot_S4x4096x128_S128x128_S4x4096x128_2_1_01_0_n_n.lhsIdx (ix3 b m o) ((ValueIdx.contrEquiv1 dot_S4x4096x128_S128x128_S4x4096x128_2_1_01_0_n_n 128 rfl rfl).symm k) = ix3 b m k :=
    funext fun a => Fin.ext (by
      match a with
      | ⟨0, _⟩ => exact lhs_dot_S4x4096x128_S128x128_S4x4096x128_2_1_01_0_n_n_0 _ _
      | ⟨1, _⟩ => exact lhs_dot_S4x4096x128_S128x128_S4x4096x128_2_1_01_0_n_n_1 _ _
      | ⟨2, _⟩ => exact (lhs_dot_S4x4096x128_S128x128_S4x4096x128_2_1_01_0_n_n_2 _ _).trans hk)
  have er : dot_S4x4096x128_S128x128_S4x4096x128_2_1_01_0_n_n.rhsIdx (ix3 b m o) ((ValueIdx.contrEquiv1 dot_S4x4096x128_S128x128_S4x4096x128_2_1_01_0_n_n 128 rfl rfl).symm k) = ix2 o k :=
    funext fun a => Fin.ext (by
      match a with
      | ⟨0, _⟩ => exact rhs_dot_S4x4096x128_S128x128_S4x4096x128_2_1_01_0_n_n_0 _ _
      | ⟨1, _⟩ => exact (rhs_dot_S4x4096x128_S128x128_S4x4096x128_2_1_01_0_n_n_1 _ _).trans hk)
  rw [el, er]

end Cert.ReferenceIdeal.RefValue

end
-- ==== Proof.RefStageDotB.lean ====
/-
  The second product read at an index: the coordinates of one point against those of another of the same batch,
  summed over the two coordinates.
-/
import proofs.«420210_j26852135535196_3_alg».proof.Proof.Gen.ReferenceIdeal
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx
open scoped BigOperators

/-! The operand indices of the product of `[4, 4096, 2]` by itself, batched over the first axis and contracted over the
last, axis by axis. -/

theorem lhs_dot_S4x4096x2_S4x4096x2_S4x4096x4096_2_2_1_1_0_0_0 (i : S4x4096x4096.Idx) (q : dot_S4x4096x2_S4x4096x2_S4x4096x4096_2_2_1_1_0_0.contr.Idx) :
    (dot_S4x4096x2_S4x4096x2_S4x4096x4096_2_2_1_1_0_0.lhsIdx i q 0).val = (i 0).val := by
  unfold DotDims.lhsIdx
  rw [dif_pos (show (0 : Fin S4x4096x2.rank) ∈ dot_S4x4096x2_S4x4096x2_S4x4096x4096_2_2_1_1_0_0.lhsBatch by decide)]
  rfl

theorem lhs_dot_S4x4096x2_S4x4096x2_S4x4096x4096_2_2_1_1_0_0_1 (i : S4x4096x4096.Idx) (q : dot_S4x4096x2_S4x4096x2_S4x4096x4096_2_2_1_1_0_0.contr.Idx) :
    (dot_S4x4096x2_S4x4096x2_S4x4096x4096_2_2_1_1_0_0.lhsIdx i q 1).val = (i 1).val := by
  unfold DotDims.lhsIdx
  rw [dif_neg (show ¬(1 : Fin S4x4096x2.rank) ∈ dot_S4x4096x2_S4x4096x2_S4x4096x4096_2_2_1_1_0_0.lhsBatch by decide), dif_pos (show (1 : Fin S4x4096x2.rank) ∈ dot_S4x4096x2_S4x4096x2_S4x4096x4096_2_2_1_1_0_0.lhsNonContracting by decide)]
  rfl

theorem lhs_dot_S4x4096x2_S4x4096x2_S4x4096x4096_2_2_1_1_0_0_2 (i : S4x4096x4096.Idx) (q : dot_S4x4096x2_S4x4096x2_S4x4096x4096_2_2_1_1_0_0.contr.Idx) :
    (dot_S4x4096x2_S4x4096x2_S4x4096x4096_2_2_1_1_0_0.lhsIdx i q 2).val = (q ⟨0, by decide⟩).val :=
  dot_S4x4096x2_S4x4096x2_S4x4096x4096_2_2_1_1_0_0.lhsIdx_val_of_single rfl i q

theorem rhs_dot_S4x4096x2_S4x4096x2_S4x4096x4096_2_2_1_1_0_0_0 (i : S4x4096x4096.Idx) (q : dot_S4x4096x2_S4x4096x2_S4x4096x4096_2_2_1_1_0_0.contr.Idx) :
    (dot_S4x4096x2_S4x4096x2_S4x4096x4096_2_2_1_1_0_0.rhsIdx i q 0).val = (i 0).val := by
  unfold DotDims.rhsIdx
  rw [dif_pos (show (0 : Fin S4x4096x2.rank) ∈ dot_S4x4096x2_S4x4096x2_S4x4096x4096_2_2_1_1_0_0.rhsBatch by decide)]
  rfl

theorem rhs_dot_S4x4096x2_S4x4096x2_S4x4096x4096_2_2_1_1_0_0_1 (i : S4x4096x4096.Idx) (q : dot_S4x4096x2_S4x4096x2_S4x4096x4096_2_2_1_1_0_0.contr.Idx) :
    (dot_S4x4096x2_S4x4096x2_S4x4096x4096_2_2_1_1_0_0.rhsIdx i q 1).val = (i 2).val := by
  unfold DotDims.rhsIdx
  rw [dif_neg (show ¬(1 : Fin S4x4096x2.rank) ∈ dot_S4x4096x2_S4x4096x2_S4x4096x4096_2_2_1_1_0_0.rhsBatch by decide), dif_pos (show (1 : Fin S4x4096x2.rank) ∈ dot_S4x4096x2_S4x4096x2_S4x4096x4096_2_2_1_1_0_0.rhsNonContracting by decide)]
  rfl

theorem rhs_dot_S4x4096x2_S4x4096x2_S4x4096x4096_2_2_1_1_0_0_2 (i : S4x4096x4096.Idx) (q : dot_S4x4096x2_S4x4096x2_S4x4096x4096_2_2_1_1_0_0.contr.Idx) :
    (dot_S4x4096x2_S4x4096x2_S4x4096x4096_2_2_1_1_0_0.rhsIdx i q 2).val = (q ⟨0, by decide⟩).val :=
  dot_S4x4096x2_S4x4096x2_S4x4096x4096_2_2_1_1_0_0.rhsIdx_val_of_single rfl i q

/-- The product at `(b, n, m)` is the sum over the coordinate `d` of `l (b, n, d) * r (b, m, d)`. -/
theorem dot_cc_apply (l r : FVec Ideal S4x4096x2 .f32) (b : Fin 4) (n m : Fin 4096) :
    Host.dotGeneral dot_S4x4096x2_S4x4096x2_S4x4096x4096_2_2_1_1_0_0 none l r (ix3 b n m) = ∑ d : Fin 2, l (ix3 b n d) * r (ix3 b m d) := by
  simp only [Host.dotGeneral]
  rw [Ideal.dotGeneral_apply, ← Equiv.sum_comp (ValueIdx.contrEquiv1 dot_S4x4096x2_S4x4096x2_S4x4096x4096_2_2_1_1_0_0 2 rfl rfl).symm]
  refine Finset.sum_congr rfl fun k _ => ?_
  have hk := ValueIdx.contrEquiv1_symm_val dot_S4x4096x2_S4x4096x2_S4x4096x4096_2_2_1_1_0_0 2 rfl rfl k
  have el : dot_S4x4096x2_S4x4096x2_S4x4096x4096_2_2_1_1_0_0.lhsIdx (ix3 b n m) ((ValueIdx.contrEquiv1 dot_S4x4096x2_S4x4096x2_S4x4096x4096_2_2_1_1_0_0 2 rfl rfl).symm k) = ix3 b n k :=
    funext fun a => Fin.ext (by
      match a with
      | ⟨0, _⟩ => exact lhs_dot_S4x4096x2_S4x4096x2_S4x4096x4096_2_2_1_1_0_0_0 _ _
      | ⟨1, _⟩ => exact lhs_dot_S4x4096x2_S4x4096x2_S4x4096x4096_2_2_1_1_0_0_1 _ _
      | ⟨2, _⟩ => exact (lhs_dot_S4x4096x2_S4x4096x2_S4x4096x4096_2_2_1_1_0_0_2 _ _).trans hk)
  have er : dot_S4x4096x2_S4x4096x2_S4x4096x4096_2_2_1_1_0_0.rhsIdx (ix3 b n m) ((ValueIdx.contrEquiv1 dot_S4x4096x2_S4x4096x2_S4x4096x4096_2_2_1_1_0_0 2 rfl rfl).symm k) = ix3 b m k :=
    funext fun a => Fin.ext (by
      match a with
      | ⟨0, _⟩ => exact rhs_dot_S4x4096x2_S4x4096x2_S4x4096x4096_2_2_1_1_0_0_0 _ _
      | ⟨1, _⟩ => exact rhs_dot_S4x4096x2_S4x4096x2_S4x4096x4096_2_2_1_1_0_0_1 _ _
      | ⟨2, _⟩ => exact (rhs_dot_S4x4096x2_S4x4096x2_S4x4096x4096_2_2_1_1_0_0_2 _ _).trans hk)
  rw [el, er]

end Cert.ReferenceIdeal.RefValue

end
-- ==== Proof.RefStageDotC.lean ====
/-
  The third product read at an index: a row of normalised weights against a channel of the projected features of the
  same batch, summed over the 4096 points.
-/
import proofs.«420210_j26852135535196_3_alg».proof.Proof.Gen.ReferenceIdeal
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx
open scoped BigOperators

/-! The operand indices of the product of `[4, 4096, 4096]` by `[4, 4096, 128]`, batched over the first axis, the left
one's last axis contracted with the right one's middle axis, axis by axis. -/

theorem lhs_dot_S4x4096x4096_S4x4096x128_S4x4096x128_2_1_1_2_0_0_0 (i : S4x4096x128.Idx) (q : dot_S4x4096x4096_S4x4096x128_S4x4096x128_2_1_1_2_0_0.contr.Idx) :
    (dot_S4x4096x4096_S4x4096x128_S4x4096x128_2_1_1_2_0_0.lhsIdx i q 0).val = (i 0).val := by
  unfold DotDims.lhsIdx
  rw [dif_pos (show (0 : Fin S4x4096x4096.rank) ∈ dot_S4x4096x4096_S4x4096x128_S4x4096x128_2_1_1_2_0_0.lhsBatch by decide)]
  rfl

theorem lhs_dot_S4x4096x4096_S4x4096x128_S4x4096x128_2_1_1_2_0_0_1 (i : S4x4096x128.Idx) (q : dot_S4x4096x4096_S4x4096x128_S4x4096x128_2_1_1_2_0_0.contr.Idx) :
    (dot_S4x4096x4096_S4x4096x128_S4x4096x128_2_1_1_2_0_0.lhsIdx i q 1).val = (i 1).val := by
  unfold DotDims.lhsIdx
  rw [dif_neg (show ¬(1 : Fin S4x4096x4096.rank) ∈ dot_S4x4096x4096_S4x4096x128_S4x4096x128_2_1_1_2_0_0.lhsBatch by decide), dif_pos (show (1 : Fin S4x4096x4096.rank) ∈ dot_S4x4096x4096_S4x4096x128_S4x4096x128_2_1_1_2_0_0.lhsNonContracting by decide)]
  rfl

theorem lhs_dot_S4x4096x4096_S4x4096x128_S4x4096x128_2_1_1_2_0_0_2 (i : S4x4096x128.Idx) (q : dot_S4x4096x4096_S4x4096x128_S4x4096x128_2_1_1_2_0_0.contr.Idx) :
    (dot_S4x4096x4096_S4x4096x128_S4x4096x128_2_1_1_2_0_0.lhsIdx i q 2).val = (q ⟨0, by decide⟩).val :=
  dot_S4x4096x4096_S4x4096x128_S4x4096x128_2_1_1_2_0_0.lhsIdx_val_of_single rfl i q

theorem rhs_dot_S4x4096x4096_S4x4096x128_S4x4096x128_2_1_1_2_0_0_0 (i : S4x4096x128.Idx) (q : dot_S4x4096x4096_S4x4096x128_S4x4096x128_2_1_1_2_0_0.contr.Idx) :
    (dot_S4x4096x4096_S4x4096x128_S4x4096x128_2_1_1_2_0_0.rhsIdx i q 0).val = (i 0).val := by
  unfold DotDims.rhsIdx
  rw [dif_pos (show (0 : Fin S4x4096x128.rank) ∈ dot_S4x4096x4096_S4x4096x128_S4x4096x128_2_1_1_2_0_0.rhsBatch by decide)]
  rfl

theorem rhs_dot_S4x4096x4096_S4x4096x128_S4x4096x128_2_1_1_2_0_0_1 (i : S4x4096x128.Idx) (q : dot_S4x4096x4096_S4x4096x128_S4x4096x128_2_1_1_2_0_0.contr.Idx) :
    (dot_S4x4096x4096_S4x4096x128_S4x4096x128_2_1_1_2_0_0.rhsIdx i q 1).val = (q ⟨0, by decide⟩).val :=
  dot_S4x4096x4096_S4x4096x128_S4x4096x128_2_1_1_2_0_0.rhsIdx_val_of_single rfl i q

theorem rhs_dot_S4x4096x4096_S4x4096x128_S4x4096x128_2_1_1_2_0_0_2 (i : S4x4096x128.Idx) (q : dot_S4x4096x4096_S4x4096x128_S4x4096x128_2_1_1_2_0_0.contr.Idx) :
    (dot_S4x4096x4096_S4x4096x128_S4x4096x128_2_1_1_2_0_0.rhsIdx i q 2).val = (i 2).val := by
  unfold DotDims.rhsIdx
  rw [dif_neg (show ¬(2 : Fin S4x4096x128.rank) ∈ dot_S4x4096x4096_S4x4096x128_S4x4096x128_2_1_1_2_0_0.rhsBatch by decide), dif_pos (show (2 : Fin S4x4096x128.rank) ∈ dot_S4x4096x4096_S4x4096x128_S4x4096x128_2_1_1_2_0_0.rhsNonContracting by decide)]
  rfl

/-- The product at `(b, n, o)` is the sum over the point `m` of `l (b, n, m) * r (b, m, o)`. -/
theorem dot_wp_apply (l : FVec Ideal S4x4096x4096 .f32) (r : FVec Ideal S4x4096x128 .f32) (b : Fin 4) (n : Fin 4096) (o : Fin 128) :
    Host.dotGeneral dot_S4x4096x4096_S4x4096x128_S4x4096x128_2_1_1_2_0_0 none l r (ix3 b n o) = ∑ m : Fin 4096, l (ix3 b n m) * r (ix3 b m o) := by
  simp only [Host.dotGeneral]
  rw [Ideal.dotGeneral_apply, ← Equiv.sum_comp (ValueIdx.contrEquiv1 dot_S4x4096x4096_S4x4096x128_S4x4096x128_2_1_1_2_0_0 4096 rfl rfl).symm]
  refine Finset.sum_congr rfl fun k _ => ?_
  have hk := ValueIdx.contrEquiv1_symm_val dot_S4x4096x4096_S4x4096x128_S4x4096x128_2_1_1_2_0_0 4096 rfl rfl k
  have el : dot_S4x4096x4096_S4x4096x128_S4x4096x128_2_1_1_2_0_0.lhsIdx (ix3 b n o) ((ValueIdx.contrEquiv1 dot_S4x4096x4096_S4x4096x128_S4x4096x128_2_1_1_2_0_0 4096 rfl rfl).symm k) = ix3 b n k :=
    funext fun a => Fin.ext (by
      match a with
      | ⟨0, _⟩ => exact lhs_dot_S4x4096x4096_S4x4096x128_S4x4096x128_2_1_1_2_0_0_0 _ _
      | ⟨1, _⟩ => exact lhs_dot_S4x4096x4096_S4x4096x128_S4x4096x128_2_1_1_2_0_0_1 _ _
      | ⟨2, _⟩ => exact (lhs_dot_S4x4096x4096_S4x4096x128_S4x4096x128_2_1_1_2_0_0_2 _ _).trans hk)
  have er : dot_S4x4096x4096_S4x4096x128_S4x4096x128_2_1_1_2_0_0.rhsIdx (ix3 b n o) ((ValueIdx.contrEquiv1 dot_S4x4096x4096_S4x4096x128_S4x4096x128_2_1_1_2_0_0 4096 rfl rfl).symm k) = ix3 b k o :=
    funext fun a => Fin.ext (by
      match a with
      | ⟨0, _⟩ => exact rhs_dot_S4x4096x4096_S4x4096x128_S4x4096x128_2_1_1_2_0_0_0 _ _
      | ⟨1, _⟩ => exact (rhs_dot_S4x4096x4096_S4x4096x128_S4x4096x128_2_1_1_2_0_0_1 _ _).trans hk
      | ⟨2, _⟩ => exact rhs_dot_S4x4096x4096_S4x4096x128_S4x4096x128_2_1_1_2_0_0_2 _ _)
  rw [el, er]

end Cert.ReferenceIdeal.RefValue

end
-- ==== Proof.RefStageLayout.lean ====
/-
  The program's broadcasts and its one reshape read at an index.
-/
import proofs.«420210_j26852135535196_3_alg».proof.Proof.Gen.ReferenceIdeal
import Idealize.ShloMosaic.PureOps.Ideal.Laws
import Idealize.ShloMosaic.Lib.ValueIdx
import Idealize.ShloMosaic.Lib.Pipeline.Value
import Idealize.ShloMosaic.Lib.IdealHost

noncomputable section

namespace Cert.ReferenceIdeal.RefValue

open Cert.ReferenceIdeal Cert.ReferenceIdeal.Gen Idealize.ShloMosaic Idealize.ShloMosaic.ValueIdx
open scoped BigOperators

/-- The bias, first laid along the last of three unit-or-channel axes, then spread over batches and points, reads the
    bias of the channel. -/
theorem bcast_bias_apply {α : Type} (bv : S128.Idx → α) (b : Fin 4) (m : Fin 4096) (o : Fin 128) :
    broadcastInDim S4x4096x128 ![0, 1, 2] bcast_S1x1x128_S4x4096x128_0_1_2
        (broadcastInDim S1x1x128 ![2] bcast_S128_S1x1x128_2 bv) (ix3 b m o) = bv (ix1 o) := by
  rw [broadcastInDim_apply _ _ _ (ix3 b m o) (ix3 (0 : Fin 1) (0 : Fin 1) o)
    (fun a => by match a with | ⟨0, _⟩ => rfl | ⟨1, _⟩ => rfl | ⟨2, _⟩ => rfl)]
  exact broadcastInDim_apply _ _ _ _ (ix1 o) (fun a => by match a with | ⟨0, _⟩ => rfl)

/-- A per-point array given a trailing unit axis reads the point's entry. -/
theorem bcast_unit_apply {α : Type} (v : S4x4096.Idx → α) (b : Fin 4) (n : Fin 4096) (z : Fin 1) :
    broadcastInDim S4x4096x1 ![0, 1] bcast_S4x4096_S4x4096x1_0_1 v (ix3 b n z) = v (ix2 b n) :=
  broadcastInDim_apply _ _ _ _ (ix2 b n) (fun a => by match a with | ⟨0, _⟩ => rfl | ⟨1, _⟩ => rfl)

/-- An array with a trailing unit axis spread along it reads the row's entry. -/
theorem bcast_last_apply {α : Type} (u : S4x4096x1.Idx → α) (b : Fin 4) (n m : Fin 4096) :
    broadcastInDim S4x4096x4096 ![0, 1, 2] bcast_S4x4096x1_S4x4096x4096_0_1_2 u (ix3 b n m) = u (ix3 b n (0 : Fin 1)) :=
  broadcastInDim_apply _ _ _ _ (ix3 b n (0 : Fin 1))
    (fun a => by match a with | ⟨0, _⟩ => rfl | ⟨1, _⟩ => rfl | ⟨2, _⟩ => rfl)

/-- A per-point array spread over the columns reads the row's point. -/
theorem bcast_row_apply {α : Type} (v : S4x4096.Idx → α) (b : Fin 4) (n m : Fin 4096) :
    broadcastInDim S4x4096x4096 ![0, 1, 2] bcast_S4x4096x1_S4x4096x4096_0_1_2
        (broadcastInDim S4x4096x1 ![0, 1] bcast_S4x4096_S4x4096x1_0_1 v) (ix3 b n m) = v (ix2 b n) := by
  rw [bcast_last_apply, bcast_unit_apply]

/-- A per-point array spread over the rows reads the column's point. -/
theorem bcast_col_apply {α : Type} (v : S4x4096.Idx → α) (b : Fin 4) (n m : Fin 4096) :
    broadcastInDim S4x4096x4096 ![0, 1, 2] bcast_S4x1x4096_S4x4096x4096_0_1_2
        (broadcastInDim S4x1x4096 ![0, 2] bcast_S4x4096_S4x1x4096_0_2 v) (ix3 b n m) = v (ix2 b m) := by
  rw [broadcastInDim_apply _ _ _ (ix3 b n m) (ix3 b (0 : Fin 1) m)
    (fun a => by match a with | ⟨0, _⟩ => rfl | ⟨1, _⟩ => rfl | ⟨2, _⟩ => rfl)]
  exact broadcastInDim_apply _ _ _ _ (ix2 b m) (fun a => by match a with | ⟨0, _⟩ => rfl | ⟨1, _⟩ => rfl)

/-- The one-element array reshaped to a scalar reads its element. -/
theorem reshape_sigma_apply {α : Type} (sg : S1.Idx → α) :
    shapeCast S_ sg shapeCasts_S1_S_ ix0 = sg (ix1 (0 : Fin 1)) :=
  shapeCast_apply sg _ ix0 (ix1 (0 : Fin 1)) rfl

end Cert.ReferenceIdeal.RefValue

end
-- ==== Proof.RefStageSum.lean ====
/-
  The program's two float sums over the last axis read at an index: the zero literal plus the sum, that is the sum.
-/
import proofs.«420210_j26852135535196_3_alg».proof.Proof.Gen.ReferenceIdeal
import Idealize.ShloMosaic.PureOps.Ideal.Laws
import Idealize.ShloMosaic.Lib.ValueIdx
import Idealize.ShloMosaic.Lib.Pipeline.Value
import Idealize.ShloMosaic.Lib.IdealHost

noncomputable section

namespace Cert.ReferenceIdeal.RefValue

open Cert.ReferenceIdeal Cert.ReferenceIdeal.Gen Idealize.ShloMosaic Idealize.ShloMosaic.ValueIdx
open scoped BigOperators

/-- The sum over the two coordinates. -/
theorem sum_coord_apply (v : FVec Ideal S4x4096x2 .f32) (b : Fin 4) (n : Fin 4096) :
    Host.reduceAdd v (constant (F := Ideal) S_ .f32 0x00000000#32) reducesTo_S4x4096x2_S4x4096_d2 h_S_ (ix2 b n)
      = ∑ d : Fin 2, v (ix3 b n d) := by
  rw [hostReduceAdd_apply, Ideal.hostReduceAdd_single reducesTo_S4x4096x2_S4x4096_d2 (by decide), constant_apply,
    Ideal.ofBits_zero_f32, zero_add]
  refine Finset.sum_congr rfl fun k _ => ?_
  exact congrArg v (funext fun a => Fin.ext (by match a with | ⟨0, _⟩ => rfl | ⟨1, _⟩ => rfl | ⟨2, _⟩ => rfl))

/-- The sum over the 4096 columns. -/
theorem sum_col_apply (v : FVec Ideal S4x4096x4096 .f32) (b : Fin 4) (n : Fin 4096) :
    Host.reduceAdd v (constant (F := Ideal) S_ .f32 0x00000000#32) reducesTo_S4x4096x4096_S4x4096_d2 h_S_ (ix2 b n)
      = ∑ m : Fin 4096, v (ix3 b n m) := by
  rw [hostReduceAdd_apply, Ideal.hostReduceAdd_single reducesTo_S4x4096x4096_S4x4096_d2 (by decide), constant_apply,
    Ideal.ofBits_zero_f32, zero_add]
  refine Finset.sum_congr rfl fun k _ => ?_
  exact congrArg v (funext fun a => Fin.ext (by match a with | ⟨0, _⟩ => rfl | ⟨1, _⟩ => rfl | ⟨2, _⟩ => rfl))

end Cert.ReferenceIdeal.RefValue

end
-- ==== Proof.RefStageTerms.lean ====
/-
  The reference's arrays, stage by stage, as functions of the argument arrays: each definition is the composition of
  the printed operations that produce the stage from the ones before it.
-/
import proofs.«420210_j26852135535196_3_alg».proof.Proof.Gen.ReferenceIdeal
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx
open scoped BigOperators

variable {F : FTy → Type} [FloatOps F]

/-- The projected features: the product with the matrix transposed, plus the bias spread over batches and points. -/
def projT (x : FVec F S4x4096x128 .f32) (w : FVec F S128x128 .f32) (bv : FVec F S128 .f32) : FVec F S4x4096x128 .f32 :=
  addf (Host.dotGeneral dot_S4x4096x128_S128x128_S4x4096x128_2_1_01_0_n_n none x w)
    (broadcastInDim S4x4096x128 ![0, 1, 2] bcast_S1x1x128_S4x4096x128_0_1_2 (broadcastInDim S1x1x128 ![2] bcast_S128_S1x1x128_2 bv))

/-- The squared norm of each point: the sum of its squared coordinates. -/
def sqT (c : FVec F S4x4096x2 .f32) : FVec F S4x4096 .f32 :=
  Host.reduceAdd (mulf c c) (constant S_ .f32 0x00000000#32) reducesTo_S4x4096x2_S4x4096_d2 h_S_

/-- The inner products of the points of a batch. -/
def crossT (c : FVec F S4x4096x2 .f32) : FVec F S4x4096x4096 .f32 :=
  Host.dotGeneral dot_S4x4096x2_S4x4096x2_S4x4096x4096_2_2_1_1_0_0 none c c

/-- The squared distances, floored at zero. -/
def distT (c : FVec F S4x4096x2 .f32) : FVec F S4x4096x4096 .f32 :=
  maximumf
    (subf
      (addf
        (broadcastInDim S4x4096x4096 ![0, 1, 2] bcast_S4x4096x1_S4x4096x4096_0_1_2
          (broadcastInDim S4x4096x1 ![0, 1] bcast_S4x4096_S4x4096x1_0_1 (sqT c)))
        (broadcastInDim S4x4096x4096 ![0, 1, 2] bcast_S4x1x4096_S4x4096x4096_0_1_2
          (broadcastInDim S4x1x4096 ![0, 2] bcast_S4x4096_S4x1x4096_0_2 (sqT c))))
      (mulf (broadcastInDim S4x4096x4096 ![] bcast_S_S4x4096x4096 (constant S_ .f32 0x40000000#32)) (crossT c)))
    (broadcastInDim S4x4096x4096 ![] bcast_S_S4x4096x4096 (constant S_ .f32 0x00000000#32))

/-- The width as a scalar. -/
def sigT (sg : FVec F S1 .f32) : FVec F S_ .f32 := shapeCast S_ sg shapeCasts_S1_S_

/-- Twice the width squared, in the program's association. -/
def twoS2T (sg : FVec F S1 .f32) : FVec F S_ .f32 :=
  mulf (mulf (constant S_ .f32 0x40000000#32) (sigT sg)) (sigT sg)

/-- The Gaussian weights. -/
def wgtT (c : FVec F S4x4096x2 .f32) (sg : FVec F S1 .f32) : FVec F S4x4096x4096 .f32 :=
  Host.exp (Host.divf (Host.negf (distT c)) (broadcastInDim S4x4096x4096 ![] bcast_S_S4x4096x4096 (twoS2T sg)))

/-- The row sums of the weights, floored by the tiny literal, with a trailing unit axis. -/
def rowT (c : FVec F S4x4096x2 .f32) (sg : FVec F S1 .f32) : FVec F S4x4096x1 .f32 :=
  maximumf
    (broadcastInDim S4x4096x1 ![0, 1] bcast_S4x4096_S4x4096x1_0_1
      (Host.reduceAdd (wgtT c sg) (constant S_ .f32 0x00000000#32) reducesTo_S4x4096x4096_S4x4096_d2 h_S_))
    (broadcastInDim S4x4096x1 ![] bcast_S_S4x4096x1 (constant S_ .f32 0x2B8CBCCC#32))

/-- The normalised weights. -/
def nrmT (c : FVec F S4x4096x2 .f32) (sg : FVec F S1 .f32) : FVec F S4x4096x4096 .f32 :=
  Host.divf (wgtT c sg) (broadcastInDim S4x4096x4096 ![0, 1, 2] bcast_S4x4096x1_S4x4096x4096_0_1_2 (rowT c sg))

/-- The weighted average of the projected features. -/
def aggT (x : FVec F S4x4096x128 .f32) (c : FVec F S4x4096x2 .f32) (w : FVec F S128x128 .f32) (bv : FVec F S128 .f32)
    (sg : FVec F S1 .f32) : FVec F S4x4096x128 .f32 :=
  Host.dotGeneral dot_S4x4096x4096_S4x4096x128_S4x4096x128_2_1_1_2_0_0 none (nrmT c sg) (projT x w bv)

/-- The result: the average through the leaky ramp, as the two outlined functions spell it. -/
def outT (x : FVec F S4x4096x128 .f32) (c : FVec F S4x4096x2 .f32) (w : FVec F S128x128 .f32) (bv : FVec F S128 .f32)
    (sg : FVec F S1 .f32) : FVec F S4x4096x128 .f32 :=
  select
    (cmpf .oge (aggT x c w bv sg) (broadcastInDim S4x4096x128 ![] bcast_S_S4x4096x128 (constant S_ .f32 0x00000000#32)))
    (aggT x c w bv sg)
    (mulf (broadcastInDim S4x4096x128 ![] bcast_S_S4x4096x128 (id (constant S_ .f32 0x3C23D70A#32))) (aggT x c w bv sg))

end Cert.ReferenceIdeal.RefValue

end
-- ==== Proof.RefStageRead.lean ====
/-
  The reference's stages read at an index, one after the other, down to the result: each is the specification's
  formula of the same name at the argument arrays.
-/
import proofs.«420210_j26852135535196_3_alg».proof.Proof.RefStageDotA
import proofs.«420210_j26852135535196_3_alg».proof.Proof.RefStageDotB
import proofs.«420210_j26852135535196_3_alg».proof.Proof.RefStageDotC
import proofs.«420210_j26852135535196_3_alg».proof.Proof.RefStageLayout
import proofs.«420210_j26852135535196_3_alg».proof.Proof.RefStageSum
import proofs.«420210_j26852135535196_3_alg».proof.Proof.RefStageTerms
import proofs.«420210_j26852135535196_3_alg».proof.Proof.Spec
import Idealize.ShloMosaic.Lib.IdealHost

noncomputable section

namespace Cert.ReferenceIdeal.RefValue

open Cert.ReferenceIdeal Cert.ReferenceIdeal.Gen Idealize.ShloMosaic Idealize.ShloMosaic.ValueIdx
open scoped BigOperators

/-- The projected features at `(b, m, o)`. -/
theorem projT_apply (x : FVec Ideal S4x4096x128 .f32) (w : FVec Ideal S128x128 .f32) (bv : FVec Ideal S128 .f32)
    (b : Fin 4) (m : Fin 4096) (o : Fin 128) :
    projT (F := Ideal) x w bv (ix3 b m o)
      = Cert.GaussAgg.xprojR (Cert.GaussAgg.Xof x) (Cert.GaussAgg.Wof w) (Cert.GaussAgg.Bof bv) b m o := by
  unfold projT
  rw [addf_apply, dot_xw_apply, bcast_bias_apply]
  rfl

/-- The squared norm of point `n` of batch `b`. -/
theorem sqT_apply (c : FVec Ideal S4x4096x2 .f32) (b : Fin 4) (n : Fin 4096) :
    sqT (F := Ideal) c (ix2 b n) = Cert.GaussAgg.sqR (Cert.GaussAgg.Cof c) b n := by
  unfold sqT
  rw [sum_coord_apply]
  rfl

/-- The inner product of points `n` and `m` of batch `b`. -/
theorem crossT_apply (c : FVec Ideal S4x4096x2 .f32) (b : Fin 4) (n m : Fin 4096) :
    crossT (F := Ideal) c (ix3 b n m) = Cert.GaussAgg.crossR (Cert.GaussAgg.Cof c) b n m := by
  unfold crossT
  rw [dot_cc_apply]
  rfl

/-- The floored squared distance of points `n` and `m` of batch `b`. -/
theorem distT_apply (c : FVec Ideal S4x4096x2 .f32) (b : Fin 4) (n m : Fin 4096) :
    distT (F := Ideal) c (ix3 b n m) = Cert.GaussAgg.distR (Cert.GaussAgg.Cof c) b n m := by
  unfold distT
  rw [maximumf_apply, subf_apply, addf_apply, mulf_apply, bcast_row_apply, bcast_col_apply,
    broadcastInDim_scalar_apply, broadcastInDim_scalar_apply, constant_apply, constant_apply,
    sqT_apply, sqT_apply, crossT_apply]
  rfl

/-- Twice the width squared. -/
theorem twoS2T_apply (sg : FVec Ideal S1 .f32) :
    twoS2T (F := Ideal) sg ix0 = Cert.GaussAgg.twoS2 (Cert.GaussAgg.sof sg) := by
  unfold twoS2T sigT
  rw [mulf_apply, mulf_apply, constant_apply, reshape_sigma_apply]
  rfl

/-- The weight of point `m` for point `n` of batch `b`. -/
theorem wgtT_apply (c : FVec Ideal S4x4096x2 .f32) (sg : FVec Ideal S1 .f32) (b : Fin 4) (n m : Fin 4096) :
    wgtT (F := Ideal) c sg (ix3 b n m) = Cert.GaussAgg.wR (Cert.GaussAgg.Cof c) (Cert.GaussAgg.sof sg) b n m := by
  unfold wgtT
  show Ideal.exp (Ideal.div (-(distT (F := Ideal) c (ix3 b n m)))
    (broadcastInDim S4x4096x4096 ![] bcast_S_S4x4096x4096 (twoS2T (F := Ideal) sg) (ix3 b n m))) = _
  rw [broadcastInDim_scalar_apply, twoS2T_apply, distT_apply]
  rfl

/-- The floored row sum of point `n` of batch `b`. -/
theorem rowT_apply (c : FVec Ideal S4x4096x2 .f32) (sg : FVec Ideal S1 .f32) (b : Fin 4) (n : Fin 4096) (z : Fin 1) :
    rowT (F := Ideal) c sg (ix3 b n z) = Cert.GaussAgg.rowR (Cert.GaussAgg.Cof c) (Cert.GaussAgg.sof sg) b n := by
  unfold rowT
  rw [maximumf_apply, bcast_unit_apply, sum_col_apply, broadcastInDim_scalar_apply, constant_apply]
  simp only [wgtT_apply]
  rfl

/-- The normalised weight of point `m` for point `n` of batch `b`. -/
theorem nrmT_apply (c : FVec Ideal S4x4096x2 .f32) (sg : FVec Ideal S1 .f32) (b : Fin 4) (n m : Fin 4096) :
    nrmT (F := Ideal) c sg (ix3 b n m)
      = Ideal.div (Cert.GaussAgg.wR (Cert.GaussAgg.Cof c) (Cert.GaussAgg.sof sg) b n m) (Cert.GaussAgg.rowR (Cert.GaussAgg.Cof c) (Cert.GaussAgg.sof sg) b n) := by
  unfold nrmT
  rw [hostDivf_apply, bcast_last_apply, wgtT_apply, rowT_apply]

/-- The weighted average at `(b, n, o)`. -/
theorem aggT_apply (x : FVec Ideal S4x4096x128 .f32) (c : FVec Ideal S4x4096x2 .f32) (w : FVec Ideal S128x128 .f32)
    (bv : FVec Ideal S128 .f32) (sg : FVec Ideal S1 .f32) (b : Fin 4) (n : Fin 4096) (o : Fin 128) :
    aggT (F := Ideal) x c w bv sg (ix3 b n o)
      = ∑ m : Fin 4096, Ideal.div (Cert.GaussAgg.wR (Cert.GaussAgg.Cof c) (Cert.GaussAgg.sof sg) b n m) (Cert.GaussAgg.rowR (Cert.GaussAgg.Cof c) (Cert.GaussAgg.sof sg) b n)
          * Cert.GaussAgg.xprojR (Cert.GaussAgg.Xof x) (Cert.GaussAgg.Wof w) (Cert.GaussAgg.Bof bv) b m o := by
  unfold aggT
  rw [dot_wp_apply]
  simp only [nrmT_apply, projT_apply]

/-- The result at `(b, n, o)`. -/
theorem outT_apply (x : FVec Ideal S4x4096x128 .f32) (c : FVec Ideal S4x4096x2 .f32) (w : FVec Ideal S128x128 .f32)
    (bv : FVec Ideal S128 .f32) (sg : FVec Ideal S1 .f32) (b : Fin 4) (n : Fin 4096) (o : Fin 128) :
    outT (F := Ideal) x c w bv sg (ix3 b n o)
      = Cert.GaussAgg.outR (Cert.GaussAgg.Xof x) (Cert.GaussAgg.Cof c) (Cert.GaussAgg.Wof w) (Cert.GaussAgg.Bof bv) (Cert.GaussAgg.sof sg) b n o := by
  unfold outT
  rw [select_apply, cmpf_apply, mulf_apply, broadcastInDim_scalar_apply, broadcastInDim_scalar_apply, aggT_apply]
  rfl

/-- The result array is the specification's function of the argument arrays. -/
theorem outT_eq (x : FVec Ideal S4x4096x128 .f32) (c : FVec Ideal S4x4096x2 .f32) (w : FVec Ideal S128x128 .f32)
    (bv : FVec Ideal S128 .f32) (sg : FVec Ideal S1 .f32) :
    outT (F := Ideal) x c w bv sg = Cert.GaussAgg.referenceArr x c w bv sg := by
  funext j
  obtain ⟨b, n, o, rfl⟩ : ∃ (b : Fin 4) (n : Fin 4096) (o : Fin 128), j = ix3 b n o := ⟨j 0, j 1, j 2, eq_ix3 j⟩
  rw [Cert.GaussAgg.referenceArr_apply]
  exact outT_apply x c w bv sg b n o

end Cert.ReferenceIdeal.RefValue

end
-- ==== Proof.RefValue.lean ====
/-
  The reference's run and the array it ends with, as the specification's function of the arguments.

  The run leaves each buffer at the fold of the forty-five operations over the launch contents; at the result buffer
  that fold is the composition of the stages (the projected features, the squared norms and inner products, the floored
  squared distances, the Gaussian weights, their floored row sums, the normalised weights, the weighted average, the
  leaky ramp), and read index by index each stage is the specification's formula of the same name.
-/
import proofs.«420210_j26852135535196_3_alg».proof.Defs
import proofs.«420210_j26852135535196_3_alg».proof.Proof.Gen.ReferenceIdeal
import proofs.«420210_j26852135535196_3_alg».proof.Proof.Spec
import proofs.«420210_j26852135535196_3_alg».proof.Proof.RefRun
import proofs.«420210_j26852135535196_3_alg».proof.Proof.RefStageRead
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The fold of the operations at the result buffer is the stages' composition over the argument buffers. -/
theorem after_out (V : Valuation τ sig (Elt Ideal)) :
    after (ops (F := Ideal)) V (Proc.devRef .tc main_v31)
      = outT (F := Ideal) (V (Proc.devRef .tc main_arg0)) (V (Proc.devRef .tc main_arg1)) (V (Proc.devRef .tc main_arg2))
          (V (Proc.devRef .tc main_arg3)) (V (Proc.devRef .tc main_arg4)) := by
  after_results_simp
  rfl

/-- Every weakly fair execution of the reference ends with its result at the specification's function of the
    argument arrays, the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31)
          = Cert.GaussAgg.referenceArr (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v31).trans ((after_out _).trans (outT_eq _ _ _ _ _)),
        (h c main_arg0).trans (by after_results_simp),
        (h c main_arg1).trans (by after_results_simp),
        (h c main_arg2).trans (by after_results_simp),
        (h c main_arg3).trans (by after_results_simp),
        (h c main_arg4).trans (by after_results_simp)⟩)
    (run m ρ)

end Cert.ReferenceIdeal.RefValue

end
-- ==== Proof.AlgebraReal.lean ====
/-
  Facts about real numbers and their images in the extended reals that the comparison of the two arrangements uses:
  the coercion commutes with finite sums, a row of positive terms with one term at least one sums to at least one,
  and a weighted average commutes with an affine map once the weights are normalised.
-/
import proofs.«420210_j26852135535196_3_alg».proof.Proof.Spec
import Mathlib.Tactic.Ring
import Mathlib.Tactic.FieldSimp
import Mathlib.Tactic.Positivity
import Mathlib.Tactic.Linarith

noncomputable section

namespace Cert.GaussAgg

open scoped BigOperators

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of exponentials is at least the exponential of any one exponent, so at least one when that exponent
    is nonnegative. -/
theorem one_le_sum_exp {ι : Type*} [Fintype ι] (a : ι → ℝ) (n : ι) (h : 0 ≤ a n) :
    1 ≤ ∑ m, Real.exp (a m) := by
  have h1 : Real.exp (a n) ≤ ∑ m, Real.exp (a m) :=
    Finset.single_le_sum (f := fun m => Real.exp (a m)) (fun m _ => (Real.exp_pos _).le) (Finset.mem_univ n)
  have h2 : 1 ≤ Real.exp (a n) := Real.one_le_exp h
  exact h2.trans h1

/-- Averaging the raw features with weights `e` and projecting the average gives what averaging the projected
    features with the weights `g * e` gives: the common factor `g` cancels in the normalisation, and the normalised
    weights sum to one, so the bias passes through. -/
theorem avg_swap {ι κ : Type*} [Fintype ι] [Fintype κ] (e : ι → ℝ) (g : ℝ) (hg : g ≠ 0) (hrow : ∑ m, e m ≠ 0)
    (x : ι → κ → ℝ) (w : κ → ℝ) (β : ℝ) :
    ∑ i, (∑ m, e m * x m i) * (1 / ∑ m, e m) * w i + β
      = ∑ m, (g * e m) * (1 / ∑ m', g * e m') * (∑ i, x m i * w i + β) := by
  have h1 : ∑ m', g * e m' = g * ∑ m, e m := by rw [Finset.mul_sum]
  rw [h1]
  generalize hR : ∑ m, e m = R at hrow ⊢
  have h2 : ∀ m, (g * e m) * (1 / (g * R)) * (∑ i, x m i * w i + β)
      = ∑ i, e m * x m i * (1 / R) * w i + e m * (1 / R) * β := by
    intro m
    rw [mul_add, Finset.mul_sum]
    congr 1
    · apply Finset.sum_congr rfl
      intro i _
      field_simp
    · field_simp
  simp_rw [h2]
  rw [Finset.sum_add_distrib, Finset.sum_comm]
  congr 1
  · apply Finset.sum_congr rfl
    intro i _
    rw [Finset.sum_mul, Finset.sum_mul]
  · rw [← Finset.sum_mul, ← Finset.sum_mul, hR]
    field_simp

end Cert.GaussAgg

end
-- ==== Proof.AlgebraConsts.lean ====
/-
  The float literals of the two arrangements, as the reals their bit patterns denote.
-/
import proofs.«420210_j26852135535196_3_alg».proof.Proof.Spec

noncomputable section

namespace Cert.GaussAgg

open Idealize.ShloMosaic

/-- `1.0` denotes the real one. -/
theorem litOne_eq : litOne = ((1 : ℝ) : EReal) := by
  simp [Ideal.ofBits, Ideal.ieee, -EReal.coe_mul]; norm_num

/-- `-0.5` denotes minus one half. -/
theorem litNegHalf_eq : litNegHalf = ((-(1 / 2) : ℝ) : EReal) := by
  simp [Ideal.ofBits, Ideal.ieee, -EReal.coe_mul]; norm_num

/-- `2.0` denotes the real two. -/
theorem litTwo_eq : litTwo = ((2 : ℝ) : EReal) := by
  simp [Ideal.ofBits, Ideal.ieee, -EReal.coe_mul]; norm_num

/-- `0.0` denotes zero. -/
theorem litZero_eq : litZero = ((0 : ℝ) : EReal) := by
  simp [Ideal.ofBits, Ideal.ieee]

/-- The floor of the row sums is a real. -/
theorem litEps_eq : litEps = ((9223372 * (2 : ℝ) ^ (-63 : ℤ) : ℝ) : EReal) := by
  simp [Ideal.ofBits, Ideal.ieee, -EReal.coe_mul]

/-- The floor is positive and at most one. -/
theorem litEps_real_bounds : (0 : ℝ) < 9223372 * (2 : ℝ) ^ (-63 : ℤ) ∧ 9223372 * (2 : ℝ) ^ (-63 : ℤ) ≤ 1 := by
  constructor
  · positivity
  · rw [zpow_neg, ← div_eq_mul_inv, div_le_one (by positivity)]
    norm_num

end Cert.GaussAgg

end
-- ==== Proof.AlgebraExponents.lean ====
/-
  The exponents of the two arrangements over the reals: the reference's is the kernel's minus a constant of the row,
  a point's exponent against itself is nonnegative on either side, and so both row sums are at least one and the
  floor of the row sum never binds.
-/
import proofs.«420210_j26852135535196_3_alg».proof.Proof.Spec
import proofs.«420210_j26852135535196_3_alg».proof.Proof.AlgebraConsts
import proofs.«420210_j26852135535196_3_alg».proof.Proof.AlgebraReal
import Mathlib.Tactic.Ring
import Mathlib.Tactic.FieldSimp
import Mathlib.Tactic.Positivity
import Mathlib.Tactic.Linarith

noncomputable section

namespace Cert.GaussAgg

open Idealize.ShloMosaic
open scoped BigOperators

/-! ## The real quantities -/

/-- `|p_n|²` over the reals. -/
def sqr (cr : Fin 4 → Fin 4096 → Fin 2 → ℝ) (b : Fin 4) (n : Fin 4096) : ℝ :=
  cr b n 0 * cr b n 0 + cr b n 1 * cr b n 1

/-- The kernel's exponent over the reals, term by term as the kernel multiplies it out. -/
def argKr (cr : Fin 4 → Fin 4096 → Fin 2 → ℝ) (σ : ℝ) (b : Fin 4) (n m : Fin 4096) : ℝ :=
  cr b n 0 * (1 / (σ * σ)) * cr b m 0 + cr b n 1 * (1 / (σ * σ)) * cr b m 1
    + 1 * (sqr cr b m * (-(1 / 2) * (1 / (σ * σ))))

/-- The reference's exponent over the reals. -/
def argRr (cr : Fin 4 → Fin 4096 → Fin 2 → ℝ) (σ : ℝ) (b : Fin 4) (n m : Fin 4096) : ℝ :=
  -(max ((sqr cr b n + sqr cr b m) - 2 * (cr b n 0 * cr b m 0 + cr b n 1 * cr b m 1)) 0) * (1 / (2 * σ * σ))

/-- The reference's exponent is the kernel's minus the row's constant `|p_n|² / (2 σ²)`: the squared distance is a
    sum of two squares, so its floor at zero is the identity. -/
theorem argRr_eq (cr : Fin 4 → Fin 4096 → Fin 2 → ℝ) {σ : ℝ} (hσ : σ ≠ 0) (b : Fin 4) (n m : Fin 4096) :
    argRr cr σ b n m = -(sqr cr b n * (1 / (σ * σ)) / 2) + argKr cr σ b n m := by
  unfold argRr argKr sqr
  have h : 0 ≤ (cr b n 0 * cr b n 0 + cr b n 1 * cr b n 1 + (cr b m 0 * cr b m 0 + cr b m 1 * cr b m 1))
      - 2 * (cr b n 0 * cr b m 0 + cr b n 1 * cr b m 1) := by
    nlinarith [mul_self_nonneg (cr b n 0 - cr b m 0), mul_self_nonneg (cr b n 1 - cr b m 1)]
  rw [max_eq_left h]
  field_simp
  ring

/-- A point's kernel exponent against itself is nonnegative. -/
theorem argKr_self_nonneg (cr : Fin 4 → Fin 4096 → Fin 2 → ℝ) {σ : ℝ} (hσ : σ ≠ 0) (b : Fin 4) (n : Fin 4096) :
    0 ≤ argKr cr σ b n n := by
  have hq : 0 < 1 / (σ * σ) := one_div_pos.2 (mul_self_pos.2 hσ)
  have hsq : 0 ≤ sqr cr b n := add_nonneg (mul_self_nonneg _) (mul_self_nonneg _)
  have h : argKr cr σ b n n = sqr cr b n * (1 / (σ * σ)) / 2 := by
    unfold argKr sqr
    ring
  rw [h]
  positivity

/-- A point's reference exponent against itself is zero. -/
theorem argRr_self (cr : Fin 4 → Fin 4096 → Fin 2 → ℝ) {σ : ℝ} (hσ : σ ≠ 0) (b : Fin 4) (n : Fin 4096) :
    argRr cr σ b n n = 0 := by
  rw [argRr_eq cr hσ]
  unfold argKr sqr
  ring

/-- The kernel's real row sum is at least one. -/
theorem one_le_rowKr (cr : Fin 4 → Fin 4096 → Fin 2 → ℝ) {σ : ℝ} (hσ : σ ≠ 0) (b : Fin 4) (n : Fin 4096) :
    1 ≤ ∑ m, Real.exp (argKr cr σ b n m) :=
  one_le_sum_exp _ n (argKr_self_nonneg cr hσ b n)

/-- The reference's real row sum is at least one. -/
theorem one_le_rowRr (cr : Fin 4 → Fin 4096 → Fin 2 → ℝ) {σ : ℝ} (hσ : σ ≠ 0) (b : Fin 4) (n : Fin 4096) :
    1 ≤ ∑ m, Real.exp (argRr cr σ b n m) :=
  one_le_sum_exp _ n (argRr_self cr hσ b n).ge

/-- A real that is at least one is not below the floor literal. -/
theorem max_litEps {r : ℝ} (h : 1 ≤ r) : max (r : EReal) litEps = (r : EReal) := by
  rw [litEps_eq]
  exact max_eq_left (EReal.coe_le_coe_iff.2 (litEps_real_bounds.2.trans h))

end Cert.GaussAgg

end
-- ==== Proof.AlgebraWeights.lean ====
/-
  Every quantity of the two arrangements, on real inputs with a nonzero width, is the image of an explicit real
  expression: the coercion is pushed through the definitions in their order.
-/
import proofs.«420210_j26852135535196_3_alg».proof.Proof.Spec
import proofs.«420210_j26852135535196_3_alg».proof.Proof.AlgebraConsts
import proofs.«420210_j26852135535196_3_alg».proof.Proof.AlgebraReal
import proofs.«420210_j26852135535196_3_alg».proof.Proof.AlgebraExponents
import Mathlib.Tactic.Linarith

noncomputable section

namespace Cert.GaussAgg

open Idealize.ShloMosaic
open scoped BigOperators

section Coe

variable {X : Fin 4 → Fin 4096 → Fin 128 → EReal} {C : Fin 4 → Fin 4096 → Fin 2 → EReal}
  {W : Fin 128 → Fin 128 → EReal} {Bv : Fin 128 → EReal}
  {xr : Fin 4 → Fin 4096 → Fin 128 → ℝ} {cr : Fin 4 → Fin 4096 → Fin 2 → ℝ}
  {wr : Fin 128 → Fin 128 → ℝ} {br : Fin 128 → ℝ} {σ : ℝ}

/-! ## The kernel's quantities are reals -/

theorem invS2_coe (hσ : σ ≠ 0) : invS2 (σ : EReal) = ((1 / (σ * σ) : ℝ) : EReal) := by
  unfold invS2
  rw [← EReal.coe_mul, Ideal.div_coe (mul_ne_zero hσ hσ), litOne_eq, ← EReal.coe_mul, one_mul]

theorem negHalfInvS2_coe (hσ : σ ≠ 0) :
    negHalfInvS2 (σ : EReal) = ((-(1 / 2) * (1 / (σ * σ)) : ℝ) : EReal) := by
  unfold negHalfInvS2
  rw [invS2_coe hσ, litNegHalf_eq, ← EReal.coe_mul]

theorem sqK_coe (hC : ∀ b n d, C b n d = (cr b n d : EReal)) (b : Fin 4) (n : Fin 4096) :
    sqK C b n = ((sqr cr b n : ℝ) : EReal) := by
  unfold sqK sqr
  simp only [hC, EReal.coe_add, EReal.coe_mul]

theorem argK_coe (hC : ∀ b n d, C b n d = (cr b n d : EReal)) (hσ : σ ≠ 0) (b : Fin 4) (n m : Fin 4096) :
    argK C (σ : EReal) b n m = ((argKr cr σ b n m : ℝ) : EReal) := by
  unfold argK cqA ckA argKr
  rw [Fin.sum_univ_three]
  simp only [Matrix.cons_val_zero, Matrix.cons_val_one, Matrix.cons_val_two, Matrix.head_cons, Matrix.tail_cons]
  rw [invS2_coe hσ, negHalfInvS2_coe hσ, sqK_coe hC, litOne_eq]
  simp only [hC, EReal.coe_add, EReal.coe_mul]

theorem wK_coe (hC : ∀ b n d, C b n d = (cr b n d : EReal)) (hσ : σ ≠ 0) (b : Fin 4) (n m : Fin 4096) :
    wK C (σ : EReal) b n m = ((Real.exp (argKr cr σ b n m) : ℝ) : EReal) := by
  unfold wK
  rw [argK_coe hC hσ, Ideal.exp_coe]

theorem rowK_coe (hC : ∀ b n d, C b n d = (cr b n d : EReal)) (hσ : σ ≠ 0) (b : Fin 4) (n : Fin 4096) :
    rowK C (σ : EReal) b n = ((∑ m, Real.exp (argKr cr σ b n m) : ℝ) : EReal) := by
  unfold rowK
  rw [coe_sum]
  exact Finset.sum_congr rfl (fun m _ => wK_coe hC hσ b n m)

theorem accK_coe (hX : ∀ b n i, X b n i = (xr b n i : EReal)) (hC : ∀ b n d, C b n d = (cr b n d : EReal))
    (hσ : σ ≠ 0) (b : Fin 4) (n : Fin 4096) (i : Fin 128) :
    accK X C (σ : EReal) b n i = ((∑ m, Real.exp (argKr cr σ b n m) * xr b m i : ℝ) : EReal) := by
  unfold accK
  rw [coe_sum]
  refine Finset.sum_congr rfl (fun m _ => ?_)
  rw [wK_coe hC hσ, hX, EReal.coe_mul]

theorem resK_coe (hX : ∀ b n i, X b n i = (xr b n i : EReal)) (hC : ∀ b n d, C b n d = (cr b n d : EReal))
    (hσ : σ ≠ 0) (b : Fin 4) (n : Fin 4096) (i : Fin 128) :
    resK X C (σ : EReal) b n i
      = (((∑ m, Real.exp (argKr cr σ b n m) * xr b m i) * (1 / ∑ m, Real.exp (argKr cr σ b n m)) : ℝ) : EReal) := by
  unfold resK
  have h1 := one_le_rowKr cr hσ b n
  rw [accK_coe hX hC hσ, rowK_coe hC hσ, max_litEps h1, Ideal.div_coe (by linarith), ← EReal.coe_mul]

theorem projK_coe (hX : ∀ b n i, X b n i = (xr b n i : EReal)) (hC : ∀ b n d, C b n d = (cr b n d : EReal))
    (hW : ∀ o i, W o i = (wr o i : EReal)) (hB : ∀ o, Bv o = (br o : EReal))
    (hσ : σ ≠ 0) (b : Fin 4) (n : Fin 4096) (o : Fin 128) :
    projK X C W Bv (σ : EReal) b n o
      = ((∑ i, (∑ m, Real.exp (argKr cr σ b n m) * xr b m i) * (1 / ∑ m, Real.exp (argKr cr σ b n m)) * wr o i
          + br o : ℝ) : EReal) := by
  unfold projK
  rw [EReal.coe_add, coe_sum, hB]
  congr 1
  refine Finset.sum_congr rfl (fun i _ => ?_)
  rw [resK_coe hX hC hσ, hW, ← EReal.coe_mul]

/-! ## The reference's quantities are reals -/

theorem xprojR_coe (hX : ∀ b n i, X b n i = (xr b n i : EReal)) (hW : ∀ o i, W o i = (wr o i : EReal))
    (hB : ∀ o, Bv o = (br o : EReal)) (b : Fin 4) (m : Fin 4096) (o : Fin 128) :
    xprojR X W Bv b m o = ((∑ i, xr b m i * wr o i + br o : ℝ) : EReal) := by
  unfold xprojR
  rw [EReal.coe_add, coe_sum, hB]
  congr 1
  refine Finset.sum_congr rfl (fun i _ => ?_)
  rw [hX, hW, ← EReal.coe_mul]

theorem sqR_coe (hC : ∀ b n d, C b n d = (cr b n d : EReal)) (b : Fin 4) (n : Fin 4096) :
    sqR C b n = ((sqr cr b n : ℝ) : EReal) := by
  unfold sqR sqr
  rw [Fin.sum_univ_two]
  simp only [hC, EReal.coe_add, EReal.coe_mul]

theorem crossR_coe (hC : ∀ b n d, C b n d = (cr b n d : EReal)) (b : Fin 4) (n m : Fin 4096) :
    crossR C b n m = ((cr b n 0 * cr b m 0 + cr b n 1 * cr b m 1 : ℝ) : EReal) := by
  unfold crossR
  rw [Fin.sum_univ_two]
  simp only [hC, EReal.coe_add, EReal.coe_mul]

theorem distR_coe (hC : ∀ b n d, C b n d = (cr b n d : EReal)) (b : Fin 4) (n m : Fin 4096) :
    distR C b n m
      = ((max ((sqr cr b n + sqr cr b m) - 2 * (cr b n 0 * cr b m 0 + cr b n 1 * cr b m 1)) 0 : ℝ) : EReal) := by
  unfold distR
  rw [sqR_coe hC, sqR_coe hC, crossR_coe hC, litTwo_eq, litZero_eq, ← EReal.coe_add, ← EReal.coe_mul,
    ← EReal.coe_sub, ← EReal.coe_strictMono.monotone.map_max]

theorem twoS2_coe : twoS2 (σ : EReal) = ((2 * σ * σ : ℝ) : EReal) := by
  unfold twoS2
  rw [litTwo_eq, ← EReal.coe_mul, ← EReal.coe_mul]

theorem wR_coe (hC : ∀ b n d, C b n d = (cr b n d : EReal)) (hσ : σ ≠ 0) (b : Fin 4) (n m : Fin 4096) :
    wR C (σ : EReal) b n m = ((Real.exp (argRr cr σ b n m) : ℝ) : EReal) := by
  unfold wR argRr
  have h2 : 2 * σ * σ ≠ 0 := mul_ne_zero (mul_ne_zero two_ne_zero hσ) hσ
  rw [distR_coe hC, twoS2_coe, ← EReal.coe_neg, Ideal.div_coe h2, ← EReal.coe_mul, Ideal.exp_coe]

theorem rowR_coe (hC : ∀ b n d, C b n d = (cr b n d : EReal)) (hσ : σ ≠ 0) (b : Fin 4) (n : Fin 4096) :
    rowR C (σ : EReal) b n = ((∑ m, Real.exp (argRr cr σ b n m) : ℝ) : EReal) := by
  unfold rowR
  have h : ∑ m : Fin 4096, wR C (σ : EReal) b n m = ((∑ m, Real.exp (argRr cr σ b n m) : ℝ) : EReal) := by
    rw [coe_sum]
    exact Finset.sum_congr rfl (fun m _ => wR_coe hC hσ b n m)
  rw [h, max_litEps (one_le_rowRr cr hσ b n)]

theorem outR_coe (hX : ∀ b n i, X b n i = (xr b n i : EReal)) (hC : ∀ b n d, C b n d = (cr b n d : EReal))
    (hW : ∀ o i, W o i = (wr o i : EReal)) (hB : ∀ o, Bv o = (br o : EReal))
    (hσ : σ ≠ 0) (b : Fin 4) (n : Fin 4096) (o : Fin 128) :
    outR X C W Bv (σ : EReal) b n o
      = leaky ((∑ m, Real.exp (argRr cr σ b n m) * (1 / ∑ m', Real.exp (argRr cr σ b n m'))
          * (∑ i, xr b m i * wr o i + br o) : ℝ) : EReal) := by
  unfold outR
  congr 1
  rw [coe_sum]
  refine Finset.sum_congr rfl (fun m _ => ?_)
  have h1 := one_le_rowRr cr hσ b n
  rw [wR_coe hC hσ, rowR_coe hC hσ, xprojR_coe hX hW hB, Ideal.div_coe (by linarith), ← EReal.coe_mul, ← EReal.coe_mul]

end Coe

end Cert.GaussAgg

end
-- ==== Proof.Algebra.lean ====
/-
  The two arrangements of the Gaussian-weighted average agree on finite inputs with a nonzero width.
-/
import proofs.«420210_j26852135535196_3_alg».proof.Proof.Spec
import proofs.«420210_j26852135535196_3_alg».proof.Proof.AlgebraReal
import proofs.«420210_j26852135535196_3_alg».proof.Proof.AlgebraExponents
import proofs.«420210_j26852135535196_3_alg».proof.Proof.AlgebraWeights
import Mathlib.Tactic.Linarith

noncomputable section

namespace Cert.GaussAgg

open Idealize.ShloMosaic Idealize.ShloMosaic.ValueIdx
open scoped BigOperators

/-- On real inputs with `s ≠ 0` the kernel's arrangement and the reference's give the same value at every index. -/
theorem outK_eq_outR (X : Fin 4 → Fin 4096 → Fin 128 → EReal) (C : Fin 4 → Fin 4096 → Fin 2 → EReal)
    (W : Fin 128 → Fin 128 → EReal) (Bv : Fin 128 → EReal) (s : EReal)
    (hX : ∀ b n i, ∃ r : ℝ, X b n i = (r : EReal)) (hC : ∀ b n d, ∃ r : ℝ, C b n d = (r : EReal))
    (hW : ∀ o i, ∃ r : ℝ, W o i = (r : EReal)) (hB : ∀ o, ∃ r : ℝ, Bv o = (r : EReal))
    (hs : ∃ r : ℝ, s = (r : EReal) ∧ r ≠ 0) (b : Fin 4) (n : Fin 4096) (o : Fin 128) :
    outK X C W Bv s b n o = outR X C W Bv s b n o := by
  -- real witnesses of every input
  choose xr hxr using hX
  choose cr hcr using hC
  choose wr hwr using hW
  choose br hbr using hB
  obtain ⟨σ, rfl, hσ⟩ := hs
  -- both sides are the ramp of a real
  rw [outR_coe hxr hcr hwr hbr hσ]
  unfold outK
  rw [projK_coe hxr hcr hwr hbr hσ]
  congr 2
  -- the reference's weights are the kernel's times the row's constant factor
  simp_rw [argRr_eq cr hσ, Real.exp_add]
  have hrow : ∑ m, Real.exp (argKr cr σ b n m) ≠ 0 := by
    have := one_le_rowKr cr hσ b n
    linarith
  exact avg_swap (fun m => Real.exp (argKr cr σ b n m)) (Real.exp (-(sqr cr b n * (1 / (σ * σ)) / 2)))
    (Real.exp_pos _).ne' hrow (fun m i => xr b m i) (fun i => wr o i) (br o)

/-- The same over the argument arrays. -/
theorem kernelArr_eq_referenceArr (x : (⟨3, ![4, 4096, 128]⟩ : Shape).Idx → EReal) (c : (⟨3, ![4, 4096, 2]⟩ : Shape).Idx → EReal)
    (w : (⟨2, ![128, 128]⟩ : Shape).Idx → EReal) (bv : (⟨1, ![128]⟩ : Shape).Idx → EReal) (sg : (⟨1, ![1]⟩ : Shape).Idx → EReal)
    (hx : ∀ j, ∃ r : ℝ, x j = (r : EReal)) (hc : ∀ j, ∃ r : ℝ, c j = (r : EReal)) (hw : ∀ j, ∃ r : ℝ, w j = (r : EReal))
    (hb : ∀ j, ∃ r : ℝ, bv j = (r : EReal)) (hs : ∃ r : ℝ, sg (ix1 0) = (r : EReal) ∧ r ≠ 0) :
    kernelArr x c w bv sg = referenceArr x c w bv sg := by
  funext j
  obtain ⟨b, n, o, rfl⟩ : ∃ (b : Fin 4) (n : Fin 4096) (o : Fin 128), j = ix3 b n o := ⟨j 0, j 1, j 2, eq_ix3 j⟩
  exact outK_eq_outR _ _ _ _ _ (fun b n i => hx _) (fun b n d => hc _) (fun o i => hw _) (fun o => hb _) hs b n o

end Cert.GaussAgg

end
-- ==== Proof.PreReals.lean ====
/-
  What the precondition says of the argument arrays: every entry is a real number, and the width is not zero.

  The predicate is a conjunction of six one-bit words, each the `and` of a whole array of comparisons: for each of the
  five arrays, `|a| < +∞` at every entry, and for the width, `s ≠ 0` at its one entry.  On the extended reals the
  absolute value is `max a (-a)`, and the only values at which that is not below `⊤` are `⊥` and `⊤` themselves.
-/
import proofs.«420210_j26852135535196_3_alg».proof.Proof.Spec
import proofs.«420210_j26852135535196_3_alg».proof.Pre_finite_inputs
import Idealize.ShloMosaic.Lib.ReduceAll

noncomputable section

namespace Cert.GaussAgg

open Idealize.ShloMosaic Idealize.ShloMosaic.ValueIdx

namespace PreReals

/-- A one-bit word made from a Boolean is 1 exactly when the Boolean is true. -/
theorem ofBool_eq_one_iff (b : Bool) : BitVec.ofBool b = 1#1 ↔ b = true := by cases b <;> decide

/-- The bit pattern of `+∞` is the top of the extended reals. -/
theorem ofBits_inf_f32 : Ideal.ofBits .f32 0x7F800000#32 = (⊤ : EReal) := by
  simp [Ideal.ofBits, Ideal.ieee]

/-- An extended real whose absolute value compares below `+∞` is a real number. -/
theorem real_of_abs_lt_inf (a : EReal)
    (h : Ideal.cmp .olt (max a (-a)) (Ideal.ofBits .f32 0x7F800000#32) = 1#1) : ∃ r : ℝ, a = (r : EReal) := by
  rw [ofBits_inf_f32] at h
  unfold Ideal.cmp at h
  rw [ofBool_eq_one_iff, decide_eq_true_eq] at h
  induction a using EReal.rec with
  | bot => simp at h
  | coe r => exact ⟨r, rfl⟩
  | top => simp at h

/-- An extended real that compares unequal to the zero pattern is not zero. -/
theorem ne_zero_of_une (a : EReal)
    (h : Ideal.cmp .une a (Ideal.ofBits .f32 0x00000000#32) = 1#1) : a ≠ 0 := by
  rw [Ideal.ofBits_zero_f32] at h
  unfold Ideal.cmp at h
  rw [ofBool_eq_one_iff, decide_eq_true_eq] at h
  exact h

end PreReals

open PreReals

/-- The printed predicate all ones: every float input is finite, and `sigma[0] ≠ 0`. -/
theorem reals_of_pre [Cert.Pre_finite_inputs.Facts]
    (x : FVec Ideal Cert.Pre_finite_inputs.S4x4096x128 .f32) (c : FVec Ideal Cert.Pre_finite_inputs.S4x4096x2 .f32)
    (w : FVec Ideal Cert.Pre_finite_inputs.S128x128 .f32) (bv : FVec Ideal Cert.Pre_finite_inputs.S128 .f32)
    (sg : FVec Ideal Cert.Pre_finite_inputs.S1 .f32)
    (h : Cert.Pre_finite_inputs.fn (F := Ideal) x c w bv sg = fun _ => 1#1) :
    (∀ j, ∃ r : ℝ, x j = (r : EReal)) ∧ (∀ j, ∃ r : ℝ, c j = (r : EReal)) ∧ (∀ j, ∃ r : ℝ, w j = (r : EReal))
      ∧ (∀ j, ∃ r : ℝ, bv j = (r : EReal)) ∧ (∃ r : ℝ, sg (ix1 0) = (r : EReal) ∧ r ≠ 0) := by
  -- the rank-0 result shape has one index
  haveI : Subsingleton Cert.Pre_finite_inputs.S_.Idx := ⟨fun a b => funext fun d => d.elim0⟩
  -- the predicate's one word is 1: split it into its six conjuncts
  have e := congrFun h ValueIdx.ix0
  unfold Cert.Pre_finite_inputs.fn Cert.Pre_finite_inputs.fn_part1 at e
  dsimp only [andi] at e
  simp only [IntOp.andi_eq_one] at e
  obtain ⟨⟨⟨⟨⟨hx, hc⟩, hw⟩, hb⟩, hs⟩, hz⟩ := e
  -- each conjunct is an `and` over a whole array: every entry's comparison is 1
  have hx' := fun j => Host.reduce_andi_all _ _ _ _ _ hx j
  have hc' := fun j => Host.reduce_andi_all _ _ _ _ _ hc j
  have hw' := fun j => Host.reduce_andi_all _ _ _ _ _ hw j
  have hb' := fun j => Host.reduce_andi_all _ _ _ _ _ hb j
  have hs' := fun j => Host.reduce_andi_all _ _ _ _ _ hs j
  have hz' := fun j => Host.reduce_andi_all _ _ _ _ _ hz j
  refine ⟨fun j => real_of_abs_lt_inf _ (hx' j), fun j => real_of_abs_lt_inf _ (hc' j),
    fun j => real_of_abs_lt_inf _ (hw' j), fun j => real_of_abs_lt_inf _ (hb' j), ?_⟩
  -- the width: a real, and not the real zero since its embedding is not zero
  obtain ⟨r, hr⟩ := real_of_abs_lt_inf _ (hs' (ix1 0))
  refine ⟨r, hr, ?_⟩
  have hne := ne_zero_of_une _ (hz' (ix1 0))
  rw [hr] at hne
  exact fun h0 => hne (by rw [h0]; rfl)

end Cert.GaussAgg

end
-- ==== Proof.lean ====
/-
  A point set in the plane, 4096 points per batch, each with 128 features.  Every point averages the features of
  all points of its batch with Gaussian weights of their distances (width `sigma`), the weights of a point
  normalised to sum to one; the average goes through an affine map and a leaky ramp.

  The reference forms the whole 4096 × 4096 weight matrix from the squared distances, normalises its rows, and
  averages the ALREADY PROJECTED features.  The kernel streams over key tiles of 1024 points: it takes the exponent
  as one three-term product of augmented coordinates — the squared distance without the query's own square, a factor
  constant along a row that the normalisation cancels —, accumulates the weighted sum of the RAW features and the
  row sum over the four key tiles of a query tile, and at the last tile divides, projects and applies the ramp: the
  normalised weights sum to one, so the bias passes through the average.  Both floor the row sum at the same tiny
  literal; the weight of a point on itself is at least one on either side, so neither floor binds.

  On the extended reals the two agree when every input is finite (products do not distribute over sums at the
  infinities) and the width is not zero (both divide by its square; at zero the reference's own quotient is 0 / 0):
  the precondition says exactly that.  The word-level kernel differs from the idealized one by one rounding to bf16
  and back, which is the identity on the extended reals.

  The parts: the frames of the two kernel programs from one launch of the pipelined body over the 4 × 4 × 4 grid
  (three control cases: reset-and-accumulate, accumulate, accumulate-and-finish); what the accumulators hold point
  by point and the whole result array from the sixteen written blocks; the reference's run read operation by
  operation; the real-number algebra that joins the two arrangements; the precondition read as "every entry a real,
  sigma not zero".
-/
import proofs.«420210_j26852135535196_3_alg».proof.Defs
import proofs.«420210_j26852135535196_3_alg».proof.Proof.Gen.Kernel
import proofs.«420210_j26852135535196_3_alg».proof.Proof.Gen.KernelIdeal
import proofs.«420210_j26852135535196_3_alg».proof.Proof.Gen.ReferenceIdeal
import proofs.«420210_j26852135535196_3_alg».proof.Proof.Gen.Pre_finite_inputs
import proofs.«420210_j26852135535196_3_alg».proof.Proof.KFrame
import proofs.«420210_j26852135535196_3_alg».proof.Proof.KiValue
import proofs.«420210_j26852135535196_3_alg».proof.Proof.RefValue
import proofs.«420210_j26852135535196_3_alg».proof.Proof.Algebra
import proofs.«420210_j26852135535196_3_alg».proof.Proof.PreReals
import Idealize.ShloMosaic.Adequacy
import Idealize.ShloMosaic.Init

noncomputable section

namespace Cert.Proof

open Idealize.ShloMosaic Idealize.SL.Sem

/-- The word-level kernel runs to the end and leaves its arguments as they were. -/
theorem frame_k : Cert.frame_Kernel := fun m ρ _ => Cert.Kernel.Fr.frame (F := Bits) m ρ

/-- So does the idealized kernel: its value run with the result forgotten. -/
theorem frame_ki : Cert.frame_KernelIdeal := fun m ρ _ =>
  (θ_run Cert.KernelIdeal.defs _ _).mono (fun _ h c => (h c).2) (Cert.KernelIdeal.KValue.run_value m ρ)

/-- And the reference: its value run with the result forgotten. -/
theorem frame_ri : Cert.frame_ReferenceIdeal := fun m ρ _ =>
  (θ_run Cert.ReferenceIdeal.defs _ _).mono (fun _ h c => (h c).2) (Cert.ReferenceIdeal.RefValue.run_value m ρ)

/-- The one rewrite of the idealization: rounding the weights to bf16 and widening them back is the identity on the
    extended reals. -/
theorem preserves : Cert.preserves_Kernel_KernelIdeal := IdealRules.truncf_extf.statement _ .f32 .bf16

/-- From memories agreeing on the arguments both programs end with the same array: the kernel's arrangement of the
    Gaussian-weighted average, which on finite inputs with a nonzero width is the reference's. -/
theorem algebraic : Cert.algebraic_KernelIdeal_ReferenceIdeal := by
  intro m ρ m' ρ' hpre hagree
  refine ⟨fun c => Cert.GaussAgg.kernelArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KValue.run_value m ρ, ?_⟩
  refine (θ_run Cert.ReferenceIdeal.defs _ _).mono (fun _ h c => ⟨(h c).1.trans ?_, (h c).2⟩)
    (Cert.ReferenceIdeal.RefValue.run_value m' ρ')
  obtain ⟨h0, h1, h2, h3, h4⟩ := hagree c
  rw [h0, h1, h2, h3, h4]
  obtain ⟨rx, rc, rw', rb, rs⟩ := Cert.GaussAgg.reals_of_pre _ _ _ _ _ (hpre c)
  exact (Cert.GaussAgg.kernelArr_eq_referenceArr _ _ _ _ _ rx rc rw' rb rs).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
